-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v28 : IVec S_ 1) (main_v32 : IVec S800000 1) (main_v34 : IVec S800000 32) : IVec S_ 1 :=
  let main_c_11 : IVec S_ 32 := constantI S_ 32 50000#32
  let main_v35 : IVec S800000 32 := broadcastInDim S800000 ![] bcast_S_S800000 main_c_11
  let main_v36 : IVec S800000 1 := cmpi .slt main_v34 main_v35
  let main_v37 : IVec S800000 1 := andi main_v32 main_v36
  let main_c_12 : IVec S_ 1 := constantI S_ 1 1#1
  let main_v38 : IVec S_ 1 := (fun x v => Host.reduce IntOp.andi x v reducesTo_S800000_S_d0 h_S_) main_v37 main_c_12
  let main_v39 : IVec S_ 1 := andi main_v28 main_v38
  main_v39

def fn_part1 {F : FTy → Type} [FloatOps F] (main_arg1 : IVec S2x800000 32) (main_arg5 : FVec F S3x128 .f32) (main_arg6 : FVec F S3x128x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : IVec S1x800000 32 := (extractStridedSlice S1x800000 ![0, 0] · slices_S2x800000_S1x800000_0_0) main_arg1
  let main_v30 : IVec S800000 32 := shapeCast S800000 main_v29 shapeCasts_S1x800000_S800000
  let main_c_10 : IVec S_ 32 := constantI S_ 32 4294917296#32
  let main_v31 : IVec S800000 32 := broadcastInDim S800000 ![] bcast_S_S800000 main_c_10
  let main_v32 : IVec S800000 1 := cmpi .sge main_v30 main_v31
  let main_v33 : IVec S1x800000 32 := (extractStridedSlice S1x800000 ![0, 0] · slices_S2x800000_S1x800000_0_0) main_arg1
  let main_v34 : IVec S800000 32 := shapeCast S800000 main_v33 shapeCasts_S1x800000_S800000
  fn_part2 (F := F) main_v28 main_v32 main_v34

def fn {F : FTy → Type} [FloatOps F] (main_arg0 : FVec F S50000x64 .f32) (main_arg1 : IVec S2x800000 32) (main_arg2 : FVec F S64x128 .f32) (main_arg3 : FVec F S128 .f32) (main_arg4 : FVec F S3x128x128 .f32) (main_arg5 : FVec F S3x128 .f32) (main_arg6 : FVec F S3x128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg5 main_arg6 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S1x128x128 : Shape := ⟨3, ![1, 128, 128]⟩
abbrev S128x128 : Shape := ⟨2, ![128, 128]⟩
abbrev S1 : Shape := ⟨1, ![1]⟩
abbrev S1x1 : Shape := ⟨2, ![1, 1]⟩
abbrev S800000x128 : Shape := ⟨2, ![800000, 128]⟩

abbrev nBuf : Space → Nat
  | .hbm => 138
  | .vmem => 48
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S3x128x128, .f32⟩
  | 5 => ⟨S3x128, .f32⟩
  | 6 => ⟨S3x128x128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000x1, .f32⟩
  | 13 => ⟨S_, .f32⟩
  | 14 => ⟨S50000x1, .f32⟩
  | 15 => ⟨S800000x1, .i32⟩
  | 16 => ⟨S50000x1, .f32⟩
  | 17 => ⟨S_, .f32⟩
  | 18 => ⟨S50000x1, .f32⟩
  | 19 => ⟨S50000x1, .f32⟩
  | 20 => ⟨S1x128, .f32⟩
  | 21 => ⟨S50000x128, .f32⟩
  | 22 => ⟨S_, .f32⟩
  | 23 => ⟨S1x128, .f32⟩
  | 24 => ⟨S1x128x128, .f32⟩
  | 25 => ⟨S128x128, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S1, .i32⟩
  | 36 => ⟨S_, .i32⟩
  | 37 => ⟨S800000x1, .i32⟩
  | 38 => ⟨S800000x1, .i1⟩
  | 39 => ⟨S1x1, .i32⟩
  | 40 => ⟨S800000x1, .i32⟩
  | 41 => ⟨S800000x1, .i1⟩
  | 42 => ⟨S800000x1, .i1⟩
  | 43 => ⟨S_, .i1⟩
  | 44 => ⟨S800000, .i1⟩
  | 45 => ⟨S800000x128, .f32⟩
  | 46 => ⟨S800000x128, .i1⟩
  | 47 => ⟨S_, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S1x128x128, .f32⟩
  | 60 => ⟨S128x128, .f32⟩
  | 61 => ⟨S50000x128, .f32⟩
  | 62 => ⟨S1x128x128, .f32⟩
  | 63 => ⟨S128x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S1, .i32⟩
  | 74 => ⟨S_, .i32⟩
  | 75 => ⟨S800000x1, .i32⟩
  | 76 => ⟨S800000x1, .i1⟩
  | 77 => ⟨S1x1, .i32⟩
  | 78 => ⟨S800000x1, .i32⟩
  | 79 => ⟨S800000x1, .i1⟩
  | 80 => ⟨S800000x1, .i1⟩
  | 81 => ⟨S_, .i1⟩
  | 82 => ⟨S800000, .i1⟩
  | 83 => ⟨S800000x128, .f32⟩
  | 84 => ⟨S800000x128, .i1⟩
  | 85 => ⟨S_, .f32⟩
  | 86 => ⟨S800000x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S1x128x128, .f32⟩
  | 98 => ⟨S128x128, .f32⟩
  | 99 => ⟨S50000x128, .f32⟩
  | 100 => ⟨S1x128x128, .f32⟩
  | 101 => ⟨S128x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S1, .i32⟩
  | 112 => ⟨S_, .i32⟩
  | 113 => ⟨S800000x1, .i32⟩
  | 114 => ⟨S800000x1, .i1⟩
  | 115 => ⟨S1x1, .i32⟩
  | 116 => ⟨S800000x1, .i32⟩
  | 117 => ⟨S800000x1, .i1⟩
  | 118 => ⟨S800000x1, .i1⟩
  | 119 => ⟨S_, .i1⟩
  | 120 => ⟨S800000, .i1⟩
  | 121 => ⟨S800000x128, .f32⟩
  | 122 => ⟨S800000x128, .i1⟩
  | 123 => ⟨S_, .f32⟩
  | 124 => ⟨S800000x128, .f32⟩
  | 125 => ⟨S800000x128, .f32⟩
  | 126 => ⟨S_, .f32⟩
  | 127 => ⟨S50000x128, .f32⟩
  | _ => ⟨S50000x64, .f32⟩

abbrev hbmTy0_1 (i : Nat) : BufTy := match i % 128 with
  | 0 => ⟨S800000x1, .i32⟩
  | 1 => ⟨S50000x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S1x128x128, .f32⟩
  | 8 => ⟨S128x128, .f32⟩
  | 9 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v16 : Ref sig .tc := ⟨.hbm, 49, rfl⟩
abbrev main_cst_3 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v31 : Ref sig .tc := ⟨.hbm, 87, rfl⟩
abbrev main_cst_4 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v46 : Ref sig .tc := ⟨.hbm, 125, rfl⟩
abbrev main_cst_5 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc6_sem4_0 : DmaSem sig := 46
abbrev cc6_sem4_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S1x128 : S_.BroadcastsInDim S1x128 (![] : Fin 0 → Fin S1x128.rank)
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000x1_S800000x1_S800000x1_1_0_0_1_wf : ScatterDims.WF S50000x1 S800000x1 S800000x1 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S50000x128.size a
  hwx6_4 : ∀ i : grid6.Coords, EltTy.bits .f32 = 32 ∨ (Rect.block (s := S50000x128) S2000x128.size (cc6_transform_4 i) (hinb6_4 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v27) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v27) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v42) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v42) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v12) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v42) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v54) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v51) S2000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v57) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S50000x128 : Shape := ⟨2, ![50000, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩

abbrev nBuf : Space → Nat
  | .hbm => 150
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S3x128x128, .f32⟩
  | 5 => ⟨S3x128, .f32⟩
  | 6 => ⟨S3x128x128, .f32⟩
  | 7 => ⟨S50000x128, .f32⟩
  | 8 => ⟨S1x128, .f32⟩
  | 9 => ⟨S50000x128, .f32⟩
  | 10 => ⟨S50000x128, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000x1, .f32⟩
  | 17 => ⟨S_, .f32⟩
  | 18 => ⟨S50000x1, .f32⟩
  | 19 => ⟨S800000x1, .i32⟩
  | 20 => ⟨S50000x1, .f32⟩
  | 21 => ⟨S_, .f32⟩
  | 22 => ⟨S50000x1, .f32⟩
  | 23 => ⟨S50000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S1x128x128, .f32⟩
  | 34 => ⟨S128x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .i1⟩
  | 54 => ⟨S_, .f32⟩
  | 55 => ⟨S50000x128, .f32⟩
  | 56 => ⟨S50000x128, .i1⟩
  | 57 => ⟨S_, .f32⟩
  | 58 => ⟨S_, .f32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S1x128x128, .f32⟩
  | 76 => ⟨S128x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .i1⟩
  | 96 => ⟨S_, .f32⟩
  | 97 => ⟨S50000x128, .f32⟩
  | 98 => ⟨S50000x128, .i1⟩
  | 99 => ⟨S_, .f32⟩
  | 100 => ⟨S_, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S1x128x128, .f32⟩
  | 118 => ⟨S128x128, .f32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x128, .f32⟩
  | 125 => ⟨S50000x128, .f32⟩
  | 126 => ⟨S1x128x128, .f32⟩
  | 127 => ⟨S128x128, .f32⟩
  | _ => ⟨S50000x64, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S50000x128, .f32⟩
  | 9 => ⟨S50000x128, .i1⟩
  | 10 => ⟨S_, .f32⟩
  | 11 => ⟨S50000x128, .f32⟩
  | 12 => ⟨S50000x128, .i1⟩
  | 13 => ⟨S_, .f32⟩
  | 14 => ⟨S_, .f32⟩
  | 15 => ⟨S50000x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v38 : Ref sig .tc := ⟨.hbm, 65, rfl⟩
abbrev main_c_4 : Ref sig .tc := ⟨.hbm, 66, rfl⟩
abbrev main_v39 : Ref sig .tc := ⟨.hbm, 67, rfl⟩
abbrev main_v40 : Ref sig .tc := ⟨.hbm, 68, rfl⟩
abbrev main_c_5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_call1_cst_1 : Ref sig .tc := ⟨.hbm, 99, rfl⟩
abbrev main_call1_call0_v0 : Ref sig .tc := ⟨.hbm, 100, rfl⟩
abbrev main_call1_call0_v1 : Ref sig .tc := ⟨.hbm, 101, rfl⟩
abbrev main_call1_v4 : Ref sig .tc := ⟨.hbm, 102, rfl⟩
abbrev main_call1_v5 : Ref sig .tc := ⟨.hbm, 103, rfl⟩
abbrev main_call1_cst_2 : Ref sig .tc := ⟨.hbm, 104, rfl⟩
abbrev main_call1_v6 : Ref sig .tc := ⟨.hbm, 105, rfl⟩
abbrev main_call1_v7 : Ref sig .tc := ⟨.hbm, 106, rfl⟩
abbrev main_v63 : Ref sig .tc := ⟨.hbm, 107, rfl⟩
abbrev main_c_7 : Ref sig .tc := ⟨.hbm, 108, rfl⟩
abbrev main_v64 : Ref sig .tc := ⟨.hbm, 109, rfl⟩
abbrev main_v65 : Ref sig .tc := ⟨.hbm, 110, rfl⟩
abbrev main_c_8 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_9 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_cst_1 : Ref sig .tc := ⟨.hbm, 141, rfl⟩
abbrev main_call2_call0_v0 : Ref sig .tc := ⟨.hbm, 142, rfl⟩
abbrev main_call2_call0_v1 : Ref sig .tc := ⟨.hbm, 143, rfl⟩
abbrev main_call2_v4 : Ref sig .tc := ⟨.hbm, 144, rfl⟩
abbrev main_call2_v5 : Ref sig .tc := ⟨.hbm, 145, rfl⟩
abbrev main_call2_cst_2 : Ref sig .tc := ⟨.hbm, 146, rfl⟩
abbrev main_call2_v6 : Ref sig .tc := ⟨.hbm, 147, rfl⟩
abbrev main_call2_v7 : Ref sig .tc := ⟨.hbm, 148, rfl⟩
abbrev main_v88 : Ref sig .tc := ⟨.hbm, 149, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  slices_S3x128x128_S1x128x128_0_0_0 : S3x128x128.Slices ![0, 0, 0] S1x128x128
  shapeCasts_S1x128x128_S128x128 : S1x128x128.ShapeCasts S128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x64_S64x128_S50000x128_1_0_0_1_n_n_wf : DotDims.WF S50000x64 S64x128 S50000x128 [1] [0] [0] [1] [] []
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The dense layers of the network as functions of whole arrays, index by index, over the extended reals.

  A table of M rows of width K times a K × N matrix: entry (r, c) is the sum over k of x(r, k) · w(k, c). A linear
  layer adds a bias row. The fused layer adds the aggregated neighbour messages to a linear layer and applies the
  exponential linear unit: p where p > 0, exp p − 1 elsewhere.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An r × c array of extended reals. -/
abbrev Mat (r c : ℕ) := FVec Ideal (⟨2, ![r, c]⟩ : Shape) .f32

/-- Rows times columns: entry (r, c) is the sum over the shared axis of x(r, k) · w(k, c). -/
def dotRows {M K N : ℕ} (x : Mat M K) (w : Mat K N) : Mat M N :=
  fun i => ∑ k : Fin K, x (ix2 (i 0) k) * w (ix2 k (i 1))

/-- A linear layer: rows times columns plus the bias row. -/
def linear {M K N : ℕ} (x : Mat M K) (w : Mat K N) (b : Mat 1 N) : Mat M N :=
  fun i => dotRows x w i + b (ix2 0 (i 1))

/-- The exponential linear unit, entry by entry: p where p > 0, exp p − 1 elsewhere. -/
def elu {M N : ℕ} (p : Mat M N) : Mat M N :=
  select (cmpf .ogt p (broadcast _ (Scalar.ofBits .f32 0x00000000#32))) p
    (subf (exp p) (broadcast _ (Scalar.ofBits .f32 0x3F800000#32)))

/-- The fused layer: the unit applied to a linear layer plus the aggregated messages. -/
def fused {M K N : ℕ} (h : Mat M K) (w : Mat K N) (b : Mat 1 N) (agg : Mat M N) : Mat M N :=
  elu (addf (linear h w b) agg)

/-! ### Where a plain product reads its operands

With no batch axes, the left operand contracted on its axis 1 and the right one on its axis 0, the remaining axes are
forced: the left operand keeps its axis 0, the right one its axis 1. At output index (r, c) and contraction position k
the left operand is then read at (r, k) and the right one at (k, c). -/

section Plain

variable {sl sr so : Shape} (d : DotDims sl sr so)

/-- On an axis the left operand keeps, its index is the output index's coordinate at that axis's place among the output
    axes: after the batch axes, in the order of the kept axes. -/
theorem lhsIdx_val_of_kept {a : Fin sl.rank} (hb : a ∉ d.lhsBatch) (hn : a ∈ d.lhsNonContracting) (j : so.Idx)
    (k : d.contr.Idx) (p : ℕ) (hp : p < so.rank) (h : d.lhsBatch.length + d.lhsNonContracting.idxOf a = p) :
    (d.lhsIdx j k a).val = (j ⟨p, hp⟩).val := by
  subst h
  unfold DotDims.lhsIdx
  rw [dif_neg hb, dif_pos hn]
  rfl

/-- On an axis the right operand keeps, its index is the output index's coordinate at that axis's place among the output
    axes: after the batch axes and the left operand's kept axes. -/
theorem rhsIdx_val_of_kept {a : Fin sr.rank} (hb : a ∉ d.rhsBatch) (hn : a ∈ d.rhsNonContracting) (j : so.Idx)
    (k : d.contr.Idx) (p : ℕ) (hp : p < so.rank)
    (h : d.lhsBatch.length + d.lhsNonContracting.length + d.rhsNonContracting.idxOf a = p) :
    (d.rhsIdx j k a).val = (j ⟨p, hp⟩).val := by
  subst h
  unfold DotDims.rhsIdx
  rw [dif_neg hb, dif_pos hn]
  rfl

end Plain

section Rank2

variable {M K N : ℕ} (d : DotDims ⟨2, ![M, K]⟩ ⟨2, ![K, N]⟩ ⟨2, ![M, N]⟩)

/-- The axes of the left operand are batch, kept and contracted axes together; with none of the first and axis 1
    contracted, axis 0 is the one kept. -/
theorem lhsKept_eq (hlb : d.lhsBatch = []) (hlc : d.lhsContracting = [1]) : d.lhsNonContracting = [0] := by
  have h := d.lhs_perm
  rw [hlb, hlc, List.nil_append] at h
  have h2 : List.finRange (⟨2, ![M, K]⟩ : Shape).rank = [0] ++ [1] := rfl
  rw [h2] at h
  exact List.perm_singleton.mp ((List.perm_append_right_iff _).mp h)

/-- Likewise the right operand, contracted on its axis 0, keeps its axis 1. -/
theorem rhsKept_eq (hrb : d.rhsBatch = []) (hrc : d.rhsContracting = [0]) : d.rhsNonContracting = [1] := by
  have h := d.rhs_perm
  rw [hrb, hrc, List.nil_append] at h
  have h2 : List.finRange (⟨2, ![K, N]⟩ : Shape).rank = [0, 1] := rfl
  rw [h2] at h
  have h3 : (d.rhsNonContracting ++ [0]).Perm ([1] ++ [0]) := h.trans (List.Perm.swap 1 0 [])
  exact List.perm_singleton.mp ((List.perm_append_right_iff _).mp h3)

/-- One axis is contracted. -/
theorem contr_rank (hlc : d.lhsContracting = [1]) : d.contr.rank = 1 := by
  rw [d.rank_contr, hlc]; rfl

/-- Its extent is the shared extent K. -/
theorem contr_size (hlc : d.lhsContracting = [1]) : d.contr.size ⟨0, by rw [contr_rank d hlc]; exact Nat.one_pos⟩ = K := by
  simp [DotDims.contr, Shape.ofList, hlc]

/-- The left operand's row coordinate is the output's row. -/
theorem lhs_axis0 (hlb : d.lhsBatch = []) (hlc : d.lhsContracting = [1]) (j : (⟨2, ![M, N]⟩ : Shape).Idx)
    (k : d.contr.Idx) : (d.lhsIdx j k 0).val = (j 0).val :=
  lhsIdx_val_of_kept d (by rw [hlb]; exact List.not_mem_nil) (by rw [lhsKept_eq d hlb hlc]; exact List.mem_singleton.mpr rfl)
    j k 0 Nat.two_pos (by rw [hlb, lhsKept_eq d hlb hlc]; rfl)

/-- The left operand's column coordinate is the contraction position. -/
theorem lhs_axis1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_axis0 (hlc : d.lhsContracting = [1]) (hrc : d.rhsContracting = [0]) (j : (⟨2, ![M, N]⟩ : Shape).Idx)
    (k : d.contr.Idx) : (d.rhsIdx j k 0).val = (k ⟨0, by rw [contr_rank d hlc]; exact Nat.one_pos⟩).val :=
  d.rhsIdx_val_of_single hrc j k

/-- The right operand's column coordinate is the output's column. -/
theorem rhs_axis1 (hlb : d.lhsBatch = []) (hrb : d.rhsBatch = []) (hlc : d.lhsContracting = [1])
    (hrc : d.rhsContracting = [0]) (j : (⟨2, ![M, N]⟩ : Shape).Idx) (k : d.contr.Idx) :
    (d.rhsIdx j k 1).val = (j 1).val :=
  rhsIdx_val_of_kept d (by rw [hrb]; exact List.not_mem_nil) (by rw [rhsKept_eq d hrb hrc]; exact List.mem_singleton.mpr rfl)
    j k 1 Nat.one_lt_two (by rw [hlb, lhsKept_eq d hlb hlc, rhsKept_eq d hrb hrc]; rfl)

end Rank2

/-- A product of a rank-2 left operand contracted on its axis 1 with a rank-2 right operand contracted on its axis 0,
    no batch axes, read at an output index: the contraction's sum is the sum over k of lhs(r, k) · rhs(k, c). -/
theorem plain_sum {M K N : ℕ} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (lhs : Mat M K) (rhs : Mat K N) (j : (⟨2, ![M, N]⟩ : Shape).Idx) :
    (∑ k : d.contr.Idx, lhs (d.lhsIdx j k) * rhs (d.rhsIdx j k)) = dotRows lhs rhs j := by
  -- the contraction positions are the values of the shared coordinate: sum over those instead
  refine (Equiv.sum_comp (contrEquiv1 d K (contr_rank d hlc) (contr_size d hlc)).symm _).symm.trans ?_
  unfold dotRows
  refine Finset.sum_congr rfl fun i _ => ?_
  have hk := contrEquiv1_symm_val d K (contr_rank d hlc) (contr_size d hlc) i
  -- at position k the left operand is read at (r, k), the right one at (k, c)
  have hl : d.lhsIdx j ((contrEquiv1 d K (contr_rank d hlc) (contr_size d hlc)).symm i) = ix2 (j 0) i := by
    funext a
    match a with
    | ⟨0, _⟩ => exact Fin.ext (lhs_axis0 d hlb hlc _ _)
    | ⟨1, _⟩ => exact Fin.ext ((lhs_axis1 d hlc _ _).trans hk)
  have hr : d.rhsIdx j ((contrEquiv1 d K (contr_rank d hlc) (contr_size d hlc)).symm i) = ix2 i (j 1) := by
    funext a
    match a with
    | ⟨0, _⟩ => exact Fin.ext ((rhs_axis0 d hlc hrc _ _).trans hk)
    | ⟨1, _⟩ => exact Fin.ext (rhs_axis1 d hlb hrb hlc hrc _ _)
  rw [hl, hr]
  rfl

/-- The matrix unit's product into a zero accumulator, read at an index. -/
theorem matmul_zero_apply {M K N : ℕ} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (prec : Option ContractPrecision) (lhs : FVec Ideal ⟨2, ![M, K]⟩ φ₁) (rhs : FVec Ideal ⟨2, ![K, N]⟩ φ₂)
    (j : (⟨2, ![M, N]⟩ : Shape).Idx) :
    matmul d prec lhs rhs (constant ⟨2, ![M, N]⟩ .f32 0x00000000#32) j = dotRows (M := M) (K := K) (N := N) lhs rhs j := by
  simp only [matmul]
  rw [Ideal.matmul_constant_zero_apply]
  exact plain_sum d hlb hrb hlc hrc lhs rhs j

/-- The host's product, read at an index. -/
theorem dotGeneral_apply {M K N : ℕ} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (prec : Option ContractPrecision) (lhs : FVec Ideal ⟨2, ![M, K]⟩ φ₁) (rhs : FVec Ideal ⟨2, ![K, N]⟩ φ₂)
    (j : (⟨2, ![M, N]⟩ : Shape).Idx) :
    Host.dotGeneral d prec lhs rhs j = dotRows (M := M) (K := K) (N := N) lhs rhs j := by
  simp only [Host.dotGeneral]
  rw [Ideal.dotGeneral_apply]
  exact plain_sum d hlb hrb hlc hrc lhs rhs j

end Cert.Spec

end
-- ==== Proof.KDefs.lean ====
/-
  What the kernel's program computes, as functions of whole arrays over the extended reals.

  The source and destination node of each edge are rows 0 and 1 of the edge table. A node's degree is the number of
  edges arriving at it, at least 1. The input projection is a linear layer. Each of the three message-passing layers
  projects every node by the neighbour weights (a linear layer with a zero bias row), takes for each edge the projected
  row of its source node — a source index below zero is counted from the end; an index that is still out of range
  reads the fill value instead of a row —, adds the edge rows arriving at each node and divides by the degree, and
  applies the fused layer to the node's own state and that mean.
-/
import proofs.«419418_j44702019617436_1_alg».proof.KernelIdeal
import proofs.«419418_j44702019617436_1_alg».proof.Proof.Gen.KernelIdeal
import proofs.«419418_j44702019617436_1_alg».proof.Proof.Spec

noncomputable section

namespace Cert.KernelIdeal.KVal

open Idealize.ShloMosaic Cert.KernelIdeal Cert.KernelIdeal.Facts₀ Cert.KernelIdeal.Facts Cert.Spec

/-- Each edge's source node: row 0 of the edge table. -/
def src (ei : IVec S2x800000 32) : IVec S800000 32 :=
  shapeCast S800000 (extractStridedSlice S1x800000 ![0, 0] ei slices_S2x800000_S1x800000_0_0) shapeCasts_S1x800000_S800000

/-- Each edge's destination node: row 1 of the edge table. -/
def dst (ei : IVec S2x800000 32) : IVec S800000 32 :=
  shapeCast S800000 (extractStridedSlice S1x800000 ![1, 0] ei slices_S2x800000_S1x800000_1_0) shapeCasts_S1x800000_S800000

/-- The destinations as a column of start indices. -/
def dstCol (ei : IVec S2x800000 32) : IVec S800000x1 32 :=
  broadcastInDim S800000x1 ![0] bcast_S800000_S800000x1_0 (dst ei)

/-- Each node's degree, at least 1: ones added at the edges' destinations, then the maximum with 1. -/
def cnt (ei : IVec S2x800000 32) : FVec Ideal S50000x1 .f32 :=
  maximumf
    (Host.scatterAdd scatter_S50000x1_S800000x1_S800000x1_1_0_0_1
      (broadcastInDim S50000x1 ![] bcast_S_S50000x1 (constant (F := Ideal) S_ .f32 0x00000000#32)) (dstCol ei)
      (broadcastInDim S800000x1 ![] bcast_S_S800000x1 (constant (F := Ideal) S_ .f32 0x3F800000#32)))
    (broadcastInDim S50000x1 ![] bcast_S_S50000x1 (constant (F := Ideal) S_ .f32 0x3F800000#32))

/-- A bias vector as a one-row array. -/
def biasRow (b : FVec Ideal S128 .f32) : Mat 1 128 := shapeCast S1x128 b shapeCasts_S128_S1x128

/-- The zero bias row of the neighbour projection. -/
def zeroRow : Mat 1 128 := broadcastInDim S1x128 ![] bcast_S_S1x128 (constant (F := Ideal) S_ .f32 0x00000000#32)

/-- Layer 0's, 1's and 2's matrix of a stack of three. -/
def mat0 (w : FVec Ideal S3x128x128 .f32) : Mat 128 128 :=
  shapeCast S128x128 (extractStridedSlice S1x128x128 ![0, 0, 0] w slices_S3x128x128_S1x128x128_0_0_0) shapeCasts_S1x128x128_S128x128
def mat1 (w : FVec Ideal S3x128x128 .f32) : Mat 128 128 :=
  shapeCast S128x128 (extractStridedSlice S1x128x128 ![1, 0, 0] w slices_S3x128x128_S1x128x128_1_0_0) shapeCasts_S1x128x128_S128x128
def mat2 (w : FVec Ideal S3x128x128 .f32) : Mat 128 128 :=
  shapeCast S128x128 (extractStridedSlice S1x128x128 ![2, 0, 0] w slices_S3x128x128_S1x128x128_2_0_0) shapeCasts_S1x128x128_S128x128

/-- Layer 0's, 1's and 2's bias vector of a stack of three. -/
def vec0 (b : FVec Ideal S3x128 .f32) : FVec Ideal S128 .f32 :=
  shapeCast S128 (extractStridedSlice S1x128 ![0, 0] b slices_S3x128_S1x128_0_0) shapeCasts_S1x128_S128
def vec1 (b : FVec Ideal S3x128 .f32) : FVec Ideal S128 .f32 :=
  shapeCast S128 (extractStridedSlice S1x128 ![1, 0] b slices_S3x128_S1x128_1_0) shapeCasts_S1x128_S128
def vec2 (b : FVec Ideal S3x128 .f32) : FVec Ideal S128 .f32 :=
  shapeCast S128 (extractStridedSlice S1x128 ![2, 0] b slices_S3x128_S1x128_2_0) shapeCasts_S1x128_S128

/-- A source index below zero is counted from the end: 50000 is added to it. -/
def wrapIdx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The wrapped source indices as a column of start indices. -/
def idxCol (s : IVec S800000 32) : IVec S800000x1 32 :=
  broadcastInDim S800000x1 ![0] bcast_S800000_S800000x1_0 (wrapIdx s)

/-- Per edge: is the wrapped source index a row of the table, 0 ≤ index ≤ 49999? -/
def inRange (s : IVec S800000 32) : IVec S800000 1 :=
  Host.reduce IntOp.andi
    (andi (cmpi .sge (idxCol s) (broadcastInDim S800000x1 ![] bcast_S_S800000x1 (constantI S_ 32 0#32)))
      (cmpi .sle (idxCol s)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- Per edge the row of the table its source index names; the fill value where the index is out of range. -/
def take (hw : Mat 50000 128) (s : IVec S800000 32) : Mat 800000 128 :=
  select (broadcastInDim S800000x128 ![0] bcast_S800000_S800000x128_0 (inRange s))
    (Host.gather gather_S50000x128_S800000x1_S800000x128_1_0_n_n_0_1_1128 hw (idxCol s))
    (broadcastInDim S800000x128 ![] bcast_S_S800000x128 (constant (F := Ideal) S_ .f32 0x7FC00000#32))

/-- The mean message per node: the edge rows added at the edges' destinations, over the degree. -/
def agg (msg : Mat 800000 128) (ei : IVec S2x800000 32) : Mat 50000 128 :=
  Host.divf
    (Host.scatterAdd scatter_S50000x128_S800000x1_S800000x128_1_0_0_1
      (broadcastInDim S50000x128 ![] bcast_S_S50000x128 (constant (F := Ideal) S_ .f32 0x00000000#32)) (dstCol ei) msg)
    (broadcastInDim S50000x128 ![0, 1] bcast_S50000x1_S50000x128_0_1 (cnt ei))

/-- One message-passing layer. -/
def layer (h : Mat 50000 128) (ei : IVec S2x800000 32) (wn ws : Mat 128 128) (b : FVec Ideal S128 .f32) : Mat 50000 128 :=
  fused h ws (biasRow b) (agg (take (linear h wn zeroRow) (src ei)) ei)

/-- The input projection. -/
def h0 (x : Mat 50000 64) (win : Mat 64 128) (bin : FVec Ideal S128 .f32) : Mat 50000 128 := linear x win (biasRow bin)

/-- The network: the input projection, then three layers. -/
def out (x : Mat 50000 64) (ei : IVec S2x800000 32) (win : Mat 64 128) (bin : FVec Ideal S128 .f32)
    (wself : FVec Ideal S3x128x128 .f32) (bself : FVec Ideal S3x128 .f32) (wnbr : FVec Ideal S3x128x128 .f32) : Mat 50000 128 :=
  layer (layer (layer (h0 x win bin) ei (mat0 wnbr) (mat0 wself) (vec0 bself)) ei (mat1 wnbr) (mat1 wself) (vec1 bself))
    ei (mat2 wnbr) (mat2 wself) (vec2 bself)

end Cert.KernelIdeal.KVal

end
-- ==== Proof.KRegion0.lean ====
/-
  Region 0, the input projection, from blocks to the whole array.

  The grid has 25 points. Point t stages rows 2000 t … 2000 t + 1999 of the 50000 × 64 table, the whole 64 × 128
  weight matrix and the whole 1 × 128 bias row, and writes back rows 2000 t … 2000 t + 1999 of the 50000 × 128
  output. The body's arithmetic on its blocks is a linear layer; an entry of a linear layer depends on one row of
  the table only, so the block a point writes is that block of the linear layer of the whole arrays; the 25 blocks
  fill the output array.
-/
import proofs.«419418_j44702019617436_1_alg».proof.Proof.Gen.KernelIdeal.Frame
import proofs.«419418_j44702019617436_1_alg».proof.Proof.KDefs
import Idealize.ShloMosaic.Lib.ValueIdx
import Idealize.ShloMosaic.Lib.ValueLayout
import Idealize.ShloMosaic.Lib.Pipeline.Value

set_option maxRecDepth 16384

noncomputable section

namespace Cert.KernelIdeal.KRegion

open Idealize.ShloMosaic Idealize.ShloMosaic.TcCoe Idealize.SL.Sem Cert.KernelIdeal Cert.KernelIdeal.Gen Cert.Spec
open Idealize.ShloMosaic.Pipeline (Dat Cfg Window)
open Idealize.ShloMosaic.ValueIdx

variable (V : (c : Dev nD) → (b : Ref sig .tc) → Buf (Elt Ideal) ((c : Thread nD τ).loc b))

/-- A whole-buffer rectangle starts at offset zero on both axes. -/
theorem zeroOff0 : (![0, 0] : Fin 2 → Nat) = fun _ => 0 :=
  funext fun a => by match a with | ⟨0, _⟩ => rfl | ⟨1, _⟩ => rfl

/-- The body's arithmetic on its three loaded blocks, entry by entry: the product of the row block with the weight
    matrix into a zero accumulator is the sum over the shared axis (narrowing the operands changes nothing over the
    extended reals), and the bias row, cast to its own shape and repeated down the rows, is added. That is the linear
    layer of the three blocks. -/
theorem pay0_eq (x0 : Mat 2000 64) (x1 : Mat 64 128) (x2 : Mat 1 128) :
    k0_pay1 (F := Ideal) x0 x1 x2 = linear x0 x1 x2 := by
  funext j
  obtain ⟨p, q, rfl⟩ : ∃ (p : Fin 2000) (q : Fin 128), j = ix2 p q := ⟨j 0, j 1, eq_ix2 j⟩
  unfold k0_pay1
  refine (addf_apply _ _ (ix2 p q)).trans ?_
  refine congrArg₂ (· + ·) ?_ ?_
  · exact matmul_zero_apply dot_S2000x64_S64x128_S2000x128_1_0_0_1_n_n rfl rfl rfl rfl none _ _ (ix2 p q)
  · refine (broadcastTo_1b_ab_apply _ _ p q).trans ?_
    exact congrFun (shapeCast_self x2 _) (ix2 (0 : Fin 1) q)

/-- The printed index maps over the 25 grid points: the two row-block windows (the input table and the output)
    sit at block t on the row axis and block 0 on the column axis; the weight and the bias window are one block
    each, at block 0 on both axes. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of a linear layer depends on one row of the table, one column of the matrix and one entry of the
    bias row: two layers agree at two entries where those agree. -/
theorem linear_entry0 (x : Mat 2000 64) (X : Mat 50000 64) (w W : Mat 64 128) (b B : Mat 1 128)
    (p : Fin 2000) (r : Fin 50000) (q : Fin 128)
    (hx : ∀ k : Fin 64, x (ix2 p k) = X (ix2 r k)) (hw : ∀ k : Fin 64, w (ix2 k q) = W (ix2 k q))
    (hb : b (ix2 0 q) = B (ix2 0 q)) :
    linear x w b (ix2 p q) = linear X W B (ix2 r q) := by
  show (∑ k : Fin 64, x (ix2 p k) * w (ix2 k q)) + b (ix2 0 q) = (∑ k : Fin 64, X (ix2 r k) * W (ix2 k q)) + B (ix2 0 q)
  rw [hb]
  exact congrArg (· + B (ix2 0 q)) (Finset.sum_congr rfl fun k _ => by rw [hx k, hw k])

/-- What grid point t writes back is block t of the linear layer of the three arrays: the point's row block of the
    table is rows 2000 t … 2000 t + 1999 of the table, its weight and bias blocks are the whole matrix and the whole
    bias row, and the output block's rows are the same rows 2000 t …. -/
theorem flushed0_eq (c : Dev nD) (t : Fin cfg0.N) :
    (dat0 (F := Ideal) V c).flushed 3 t
      = ((cfg0.win 3).blk t).view.read (Elt Ideal) (linear (V c main_arg0) (V c main_arg2) (V c main_v10)) := by
  show (cfg0.win 3).cut (grid0.coords t) ((dat0 (F := Ideal) V c).after 3 t) = _
  rw [after0_3]
  unfold out0_3
  rw [View.canon_unit_zero zeroOff0]
  simp only [View.ld_unit_zero (S := S2000x64) zeroOff0, View.ld_unit_zero (S := S64x128) zeroOff0,
    View.ld_unit_zero (S := S1x128) zeroOff0]
  refine (pay0_eq (iblk0 V c 0 t) (iblk0 V c 1 t) (iblk0 V c 2 t)).trans ?_
  obtain ⟨e0, e1, e2, e3, e4, e5, e6, e7⟩ := idx0 t
  have ht : t.val < 25 := lt_of_lt_of_eq t.isLt N_0
  funext j
  obtain ⟨p, q, rfl⟩ : ∃ (p : Fin 2000) (q : Fin 128), j = ix2 p q := ⟨j 0, j 1, eq_ix2 j⟩
  have hp : p.val < 2000 := p.isLt
  have he : ((cfg0.win 3).blk t).view.emb (ix2 p q) = ix2 (⟨t.val * 2000 + p.val, by omega⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  refine Eq.trans (linear_entry0 (iblk0 V c 0 t) (V c main_arg0) (iblk0 V c 1 t) (V c main_arg2) (iblk0 V c 2 t) (V c main_v10)
    p ⟨t.val * 2000 + p.val, by omega⟩ q ?_ ?_ ?_)
    (congrArg (linear (V c main_arg0) (V c main_arg2) (V c main_v10)) he.symm)
  · intro k
    show V c main_arg0 (((cfg0.win 0).blk t).view.emb (ix2 p k)) = V c main_arg0 (ix2 ⟨t.val * 2000 + p.val, _⟩ k)
    congr 1
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  · intro k
    show V c main_arg2 (((cfg0.win 1).blk t).view.emb (ix2 k q)) = V c main_arg2 (ix2 k q)
    congr 1
    funext a; apply Fin.ext
    match a with
    | ⟨0, _⟩ => show win0_1.index t (0 : Fin 2) * 64 + 1 * k.val = k.val; omega
    | ⟨1, _⟩ => show win0_1.index t (1 : Fin 2) * 128 + 1 * q.val = q.val; omega
  · show V c main_v10 (((cfg0.win 2).blk t).view.emb (ix2 (0 : Fin 1) q)) = V c main_v10 (ix2 (0 : Fin 1) q)
    congr 1
    funext a; apply Fin.ext
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega

/-- An index of the output array lies in point t's block exactly when each coordinate lies in the block's range. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v11).slice (win0_3.rect t)).set ↔ _
  rw [View.set_slice_whole, Rect.mem_set_unit]
  exact Iff.rfl

/-- The 25 row blocks of 2000 rows fill the 50000 × 128 array: row r lies in the block of point r / 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨e0, e1, e2, e3, e4, e5, e6, e7⟩ := idx0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- Region 0 (the input projection): after the run the output array is the linear layer of the three input arrays as the region found them. -/
theorem arrAt0 (c : Dev nD) :
    (dat0 (F := Ideal) V c).arrAt 3 cfg0.N = linear (V c main_arg0) (V c main_arg2) (V c main_v10) :=
  (dat0 (F := Ideal) V c).arrAt_eq_of_cover 3 (linear (V c main_arg0) (V c main_arg2) (V c main_v10))
    (fun t _ => flushed0_eq V c t) cover0

end Cert.KernelIdeal.KRegion

end
-- ==== Proof.KChain0.lean ====
import proofs.«419418_j44702019617436_1_alg».proof.Proof.Gen.KernelIdeal.Frame
import proofs.«419418_j44702019617436_1_alg».proof.Proof.KDefs
import proofs.«419418_j44702019617436_1_alg».proof.Proof.KRegion0
set_option maxRecDepth 16384

noncomputable section

namespace Cert.KernelIdeal.KChain

open Idealize.ShloMosaic Idealize.ShloMosaic.TcCoe Idealize.SL.Sem Cert.KernelIdeal Cert.KernelIdeal.Gen Cert.Spec
open Idealize.ShloMosaic.Pipeline (Dat Cfg Window)

variable (m : (ℓ : Loc nD τ sig) → Buf (Elt Ideal) ℓ) (ρ : Dev nD → PrngReg)

/-- A buffer that none of a stretch's host operations has as its result holds after the stretch what it held before:
    the stretch's list of result buffers is read off and the buffer is compared with each. -/
local macro "unwritten " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The boundary after the first host stretch

The first stretch writes the two rows of the edge table, the degrees and the input bias as a row; it writes no
argument. -/
namespace Entry0

theorem arg0 (c : Dev nD) : W1 m ρ c (Proc.devRef .tc main_arg0) = m ((c : Thread nD τ).loc main_arg0) :=
  calc W1 m ρ c (Proc.devRef .tc main_arg0)
    _ = W0 m ρ c (Proc.devRef .tc main_arg0) := by unwritten hostOps0
    _ = m ((c : Thread nD τ).loc main_arg0) := rfl
theorem arg2 (c : Dev nD) : W1 m ρ c (Proc.devRef .tc main_arg2) = m ((c : Thread nD τ).loc main_arg2) :=
  calc W1 m ρ c (Proc.devRef .tc main_arg2)
    _ = W0 m ρ c (Proc.devRef .tc main_arg2) := by unwritten hostOps0
    _ = m ((c : Thread nD τ).loc main_arg2) := rfl
theorem arg4 (c : Dev nD) : W1 m ρ c (Proc.devRef .tc main_arg4) = m ((c : Thread nD τ).loc main_arg4) :=
  calc W1 m ρ c (Proc.devRef .tc main_arg4)
    _ = W0 m ρ c (Proc.devRef .tc main_arg4) := by unwritten hostOps0
    _ = m ((c : Thread nD τ).loc main_arg4) := rfl
theorem arg5 (c : Dev nD) : W1 m ρ c (Proc.devRef .tc main_arg5) = m ((c : Thread nD τ).loc main_arg5) :=
  calc W1 m ρ c (Proc.devRef .tc main_arg5)
    _ = W0 m ρ c (Proc.devRef .tc main_arg5) := by unwritten hostOps0
    _ = m ((c : Thread nD τ).loc main_arg5) := rfl
theorem arg6 (c : Dev nD) : W1 m ρ c (Proc.devRef .tc main_arg6) = m ((c : Thread nD τ).loc main_arg6) :=
  calc W1 m ρ c (Proc.devRef .tc main_arg6)
    _ = W0 m ρ c (Proc.devRef .tc main_arg6) := by unwritten hostOps0
    _ = m ((c : Thread nD τ).loc main_arg6) := rfl

/-- The input bias as a row: the reshape of argument 3. -/
theorem bias (c : Dev nD) :
    W1 m ρ c (Proc.devRef .tc main_v10) = KVal.biasRow (m ((c : Thread nD τ).loc main_arg3)) := by
  show StableHlo.after hostOps0 (W0 m ρ c) (Proc.devRef .tc main_v10) = _
  after_results
  rfl

/-- The edges' sources: row 0 of the edge table, reshaped to a vector. -/
theorem src (c : Dev nD) :
    W1 m ρ c (Proc.devRef .tc main_v1) = KVal.src (m ((c : Thread nD τ).loc main_arg1)) := by
  show StableHlo.after hostOps0 (W0 m ρ c) (Proc.devRef .tc main_v1) = _
  after_results
  rfl

/-- The edges' destinations: row 1 of the edge table, reshaped to a vector. -/
theorem dst (c : Dev nD) :
    W1 m ρ c (Proc.devRef .tc main_v3) = KVal.dst (m ((c : Thread nD τ).loc main_arg1)) := by
  show StableHlo.after hostOps0 (W0 m ρ c) (Proc.devRef .tc main_v3) = _
  after_results
  rfl

/-- The degrees: ones added at the destinations, then the maximum with one. -/
theorem cnt (c : Dev nD) :
    W1 m ρ c (Proc.devRef .tc main_v9) = KVal.cnt (m ((c : Thread nD τ).loc main_arg1)) := by
  show StableHlo.after hostOps0 (W0 m ρ c) (Proc.devRef .tc main_v9) = _
  after_results
  rfl

end Entry0

/-- After region 0 the first state array is the input projection of the launch arguments. -/
theorem stage0 (c : Dev nD) :
    (W2 m ρ c (Proc.devRef .tc main_v11)) = KVal.h0 (m ((c : Thread nD τ).loc main_arg0)) (m ((c : Thread nD τ).loc main_arg2)) (m ((c : Thread nD τ).loc main_arg3)) := by
  have e : W2 m ρ c (Proc.devRef .tc main_v11)
      = linear (V1 m ρ c main_arg0) (V1 m ρ c main_arg2) (V1 m ρ c main_v10) :=
    (W2_arr m ρ c 3).trans (KRegion.arrAt0 (V1 m ρ) c)
  rw [e]
  show linear (W1 m ρ c (Proc.devRef .tc main_arg0)) (W1 m ρ c (Proc.devRef .tc main_arg2))
      (W1 m ρ c (Proc.devRef .tc main_v10)) = _
  rw [Entry0.arg0 m ρ c, Entry0.arg2 m ρ c, Entry0.bias m ρ c]
  rfl

/-! ## What the later layers read at the boundary after region 0: the edge table's rows, the degrees, the weights -/
namespace At2
theorem keep_src (c : Dev nD) : (W2 m ρ c (Proc.devRef .tc main_v1)) = KVal.src (m ((c : Thread nD τ).loc main_arg1)) :=
  (W2_of_ne m ρ c main_v1 (by decide)).trans (Entry0.src m ρ c)
theorem keep_dst (c : Dev nD) : (W2 m ρ c (Proc.devRef .tc main_v3)) = KVal.dst (m ((c : Thread nD τ).loc main_arg1)) :=
  (W2_of_ne m ρ c main_v3 (by decide)).trans (Entry0.dst m ρ c)
theorem keep_cnt (c : Dev nD) : (W2 m ρ c (Proc.devRef .tc main_v9)) = KVal.cnt (m ((c : Thread nD τ).loc main_arg1)) :=
  (W2_of_ne m ρ c main_v9 (by decide)).trans (Entry0.cnt m ρ c)
theorem keep_arg4 (c : Dev nD) : (W2 m ρ c (Proc.devRef .tc main_arg4)) = m ((c : Thread nD τ).loc main_arg4) :=
  (W2_of_ne m ρ c main_arg4 (by decide)).trans (Entry0.arg4 m ρ c)
theorem keep_arg5 (c : Dev nD) : (W2 m ρ c (Proc.devRef .tc main_arg5)) = m ((c : Thread nD τ).loc main_arg5) :=
  (W2_of_ne m ρ c main_arg5 (by decide)).trans (Entry0.arg5 m ρ c)
theorem keep_arg6 (c : Dev nD) : (W2 m ρ c (Proc.devRef .tc main_arg6)) = m ((c : Thread nD τ).loc main_arg6) :=
  (W2_of_ne m ρ c main_arg6 (by decide)).trans (Entry0.arg6 m ρ c)
end At2

end Cert.KernelIdeal.KChain

end
-- ==== Proof.KRegion1.lean ====
/-
  Region 1, layer 0's neighbour projection, from blocks to the whole array.

  The grid has 25 points. Point t stages rows 2000 t … 2000 t + 1999 of the 50000 × 128 table, the whole 128 × 128
  weight matrix and the whole 1 × 128 bias row, and writes back rows 2000 t … 2000 t + 1999 of the 50000 × 128
  output. The body's arithmetic on its blocks is a linear layer; an entry of a linear layer depends on one row of
  the table only, so the block a point writes is that block of the linear layer of the whole arrays; the 25 blocks
  fill the output array.
-/
import proofs.«419418_j44702019617436_1_alg».proof.Proof.Gen.KernelIdeal.Frame
import proofs.«419418_j44702019617436_1_alg».proof.Proof.KDefs
import Idealize.ShloMosaic.Lib.ValueIdx
import Idealize.ShloMosaic.Lib.ValueLayout
import Idealize.ShloMosaic.Lib.Pipeline.Value

set_option maxRecDepth 16384

noncomputable section

namespace Cert.KernelIdeal.KRegion

open Idealize.ShloMosaic Idealize.ShloMosaic.TcCoe Idealize.SL.Sem Cert.KernelIdeal Cert.KernelIdeal.Gen Cert.Spec
open Idealize.ShloMosaic.Pipeline (Dat Cfg Window)
open Idealize.ShloMosaic.ValueIdx

variable (V : (c : Dev nD) → (b : Ref sig .tc) → Buf (Elt Ideal) ((c : Thread nD τ).loc b))

/-- A whole-buffer rectangle starts at offset zero on both axes. -/
theorem zeroOff_r1 : (![0, 0] : Fin 2 → Nat) = fun _ => 0 :=
  funext fun a => by match a with | ⟨0, _⟩ => rfl | ⟨1, _⟩ => rfl

/-- The body's arithmetic on its three loaded blocks, entry by entry: the row block and the weight matrix are each
    cast to their own shape, which changes nothing; their product into a zero accumulator is the sum over the shared
    axis (narrowing the operands changes nothing over the extended reals); and the bias row, cast to its own shape and
    repeated down the rows, is added. That is the linear layer of the three blocks. -/
theorem pay_r1 (x0 : Mat 2000 128) (x1 : Mat 128 128) (x2 : Mat 1 128) :
    k1_pay1 (F := Ideal) x0 x1 x2 = linear x0 x1 x2 := by
  funext j
  obtain ⟨p, q, rfl⟩ : ∃ (p : Fin 2000) (q : Fin 128), j = ix2 p q := ⟨j 0, j 1, eq_ix2 j⟩
  unfold k1_pay1
  refine (addf_apply _ _ (ix2 p q)).trans ?_
  refine congrArg₂ (· + ·) ?_ ?_
  · refine (matmul_zero_apply dot_S2000x128_S128x128_S2000x128_1_0_0_1_n_n rfl rfl rfl rfl none _ _ (ix2 p q)).trans ?_
    exact congrArg₂ (fun a b => dotRows a b (ix2 p q)) (shapeCast_self x0 _) (shapeCast_self x1 _)
  · refine (broadcastTo_1b_ab_apply _ _ p q).trans ?_
    exact congrFun (shapeCast_self x2 _) (ix2 (0 : Fin 1) q)

/-- The printed index maps over the 25 grid points: the two row-block windows (the input table and the output)
    sit at block t on the row axis and block 0 on the column axis; the weight and the bias window are one block
    each, at block 0 on both axes. -/
theorem idx_r1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of a linear layer depends on one row of the table, one column of the matrix and one entry of the
    bias row: two layers agree at two entries where those agree. -/
theorem linear_entry_r1 (x : Mat 2000 128) (X : Mat 50000 128) (w W : Mat 128 128) (b B : Mat 1 128)
    (p : Fin 2000) (r : Fin 50000) (q : Fin 128)
    (hx : ∀ k : Fin 128, x (ix2 p k) = X (ix2 r k)) (hw : ∀ k : Fin 128, w (ix2 k q) = W (ix2 k q))
    (hb : b (ix2 0 q) = B (ix2 0 q)) :
    linear x w b (ix2 p q) = linear X W B (ix2 r q) := by
  show (∑ k : Fin 128, x (ix2 p k) * w (ix2 k q)) + b (ix2 0 q) = (∑ k : Fin 128, X (ix2 r k) * W (ix2 k q)) + B (ix2 0 q)
  rw [hb]
  exact congrArg (· + B (ix2 0 q)) (Finset.sum_congr rfl fun k _ => by rw [hx k, hw k])

/-- What grid point t writes back is block t of the linear layer of the three arrays: the point's row block of the
    table is rows 2000 t … 2000 t + 1999 of the table, its weight and bias blocks are the whole matrix and the whole
    bias row, and the output block's rows are the same rows 2000 t …. -/
theorem flushed_r1 (c : Dev nD) (t : Fin cfg1.N) :
    (dat1 (F := Ideal) V c).flushed 3 t
      = ((cfg1.win 3).blk t).view.read (Elt Ideal) (linear (V c main_v11) (V c main_v14) (V c main_v12)) := by
  show (cfg1.win 3).cut (grid1.coords t) ((dat1 (F := Ideal) V c).after 3 t) = _
  rw [after1_3]
  unfold out1_3
  rw [View.canon_unit_zero zeroOff_r1]
  simp only [View.ld_unit_zero (S := S2000x128) zeroOff_r1, View.ld_unit_zero (S := S128x128) zeroOff_r1,
    View.ld_unit_zero (S := S1x128) zeroOff_r1]
  refine (pay_r1 (iblk1 V c 0 t) (iblk1 V c 1 t) (iblk1 V c 2 t)).trans ?_
  obtain ⟨e0, e1, e2, e3, e4, e5, e6, e7⟩ := idx_r1 t
  have ht : t.val < 25 := lt_of_lt_of_eq t.isLt N_1
  funext j
  obtain ⟨p, q, rfl⟩ : ∃ (p : Fin 2000) (q : Fin 128), j = ix2 p q := ⟨j 0, j 1, eq_ix2 j⟩
  have hp : p.val < 2000 := p.isLt
  have he : ((cfg1.win 3).blk t).view.emb (ix2 p q) = ix2 (⟨t.val * 2000 + p.val, by omega⟩ : Fin 50000) q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  refine Eq.trans (linear_entry_r1 (iblk1 V c 0 t) (V c main_v11) (iblk1 V c 1 t) (V c main_v14) (iblk1 V c 2 t) (V c main_v12)
    p ⟨t.val * 2000 + p.val, by omega⟩ q ?_ ?_ ?_)
    (congrArg (linear (V c main_v11) (V c main_v14) (V c main_v12)) he.symm)
  · intro k
    show V c main_v11 (((cfg1.win 0).blk t).view.emb (ix2 p k)) = V c main_v11 (ix2 ⟨t.val * 2000 + p.val, _⟩ k)
    congr 1
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k
    show V c main_v14 (((cfg1.win 1).blk t).view.emb (ix2 k q)) = V c main_v14 (ix2 k q)
    congr 1
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  · show V c main_v12 (((cfg1.win 2).blk t).view.emb (ix2 (0 : Fin 1) q)) = V c main_v12 (ix2 (0 : Fin 1) q)
    congr 1
    funext a; apply Fin.ext
    match a with
    | ⟨0, _⟩ => show win1_2.index t (0 : Fin 2) * 1 + 1 * (0 : Fin 1).val = (0 : Fin 1).val; omega
    | ⟨1, _⟩ => show win1_2.index t (1 : Fin 2) * 128 + 1 * q.val = q.val; omega

/-- An index of the output array lies in point t's block exactly when each coordinate lies in the block's range. -/
theorem mem_blk_r1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v15).slice (win1_3.rect t)).set ↔ _
  rw [View.set_slice_whole, Rect.mem_set_unit]
  exact Iff.rfl

/-- The 25 row blocks of 2000 rows fill the 50000 × 128 array: row r lies in the block of point r / 2000. -/
theorem cover_r1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨e0, e1, e2, e3, e4, e5, e6, e7⟩ := idx_r1 t
  refine ⟨t, flush1_3 t, ?_⟩
  rw [mem_blk_r1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- Region 1 (layer 0's neighbour projection): the output array is the linear layer of the input arrays as the region found them. -/
theorem arrAt1 (c : Dev nD) :
    (dat1 (F := Ideal) V c).arrAt 3 cfg1.N = linear (V c main_v11) (V c main_v14) (V c main_v12) :=
  (dat1 (F := Ideal) V c).arrAt_eq_of_cover 3 (linear (V c main_v11) (V c main_v14) (V c main_v12))
    (fun t _ => flushed_r1 V c t) cover_r1

end Cert.KernelIdeal.KRegion

end
-- ==== Proof.KRegion2.lean ====
import proofs.«419418_j44702019617436_1_alg».proof.Proof.Gen.KernelIdeal.Frame
import proofs.«419418_j44702019617436_1_alg».proof.Proof.KDefs
import Idealize.ShloMosaic.Lib.ValueIdx
import Idealize.ShloMosaic.Lib.ValueLayout
import Idealize.ShloMosaic.Lib.Pipeline.Value

set_option maxRecDepth 16384

noncomputable section

namespace Cert.KernelIdeal.KRegion

open Idealize.ShloMosaic Idealize.ShloMosaic.TcCoe Idealize.SL.Sem Cert.KernelIdeal Cert.KernelIdeal.Gen Cert.Spec
open Idealize.ShloMosaic.Pipeline (Dat Cfg Window)
open Idealize.ShloMosaic.ValueIdx

/-! ## The body's arithmetic on one block

The body multiplies a 2000-row block of node states by the 128 × 128 weights, adds the bias row to every row and
the block of aggregated messages entry by entry, and applies the exponential linear unit. -/

/-- The value the unit is applied to, as the body computes it from the four loaded blocks: the product into a zero
    accumulator, plus the bias row spread over the rows, plus the aggregate block. -/
def pre2 (x0 : Vec Ideal S2000x128 .f32) (x1 : Vec Ideal S128x128 .f32) (x2 : Vec Ideal S1x128 .f32)
    (x3 : Vec Ideal S2000x128 .f32) : FVec Ideal S2000x128 .f32 :=
  addf
    (addf
      (matmul dot_S2000x128_S128x128_S2000x128_1_0_0_1_n_n none
        (truncf .bf16 (shapeCast S2000x128 x0 shapeCasts_S2000x128_S2000x128) bitsLt_bf16_f32)
        (truncf .bf16 (shapeCast S128x128 x1 shapeCasts_S128x128_S128x128) bitsLt_bf16_f32)
        (constant S2000x128 .f32 0x00000000#32))
      (broadcastTo S2000x128 (shapeCast S1x128 x2 shapeCasts_S1x128_S1x128) broadcasts_S1x128_S2000x128))
    (shapeCast S2000x128 x3 shapeCasts_S2000x128_S2000x128)

/-- The body's result is the unit applied to that value: the comparison with zero, the exponential and the
    subtraction of one are the unit's own three operations, on the same operand. -/
theorem pay2_eq_elu (x0 : Vec Ideal S2000x128 .f32) (x1 : Vec Ideal S128x128 .f32) (x2 : Vec Ideal S1x128 .f32)
    (x3 : Vec Ideal S2000x128 .f32) : k2_pay1 (F := Ideal) x0 x1 x2 x3 = elu (M := 2000) (N := 128) (pre2 x0 x1 x2 x3) := rfl

/-- Entry (p, q) of that value: row p of the block times column q of the weights, plus entry q of the bias row, plus
    entry (p, q) of the aggregate block. The reshapes to the same shape and the narrowing of the factors change
    nothing over the extended reals. -/
theorem pre2_apply (x0 : Vec Ideal S2000x128 .f32) (x1 : Vec Ideal S128x128 .f32) (x2 : Vec Ideal S1x128 .f32)
    (x3 : Vec Ideal S2000x128 .f32) (p : Fin 2000) (q : Fin 128) :
    pre2 x0 x1 x2 x3 (ix2 p q)
      = dotRows (M := 2000) (K := 128) (N := 128) x0 x1 (ix2 p q) + x2 (ix2 (0 : Fin 1) q) + x3 (ix2 p q) := by
  unfold pre2
  rw [addf_apply, addf_apply, shapeCast_self, shapeCast_self, shapeCast_self, shapeCast_self, broadcastTo_1b_ab_apply,
    matmul_zero_apply (M := 2000) (K := 128) (N := 128) dot_S2000x128_S128x128_S2000x128_1_0_0_1_n_n rfl rfl rfl rfl]
  rfl

/-- The unit at an index looks only at its operand's entry there. -/
theorem elu_congr2 {M N M' N' : ℕ} (P : Mat M N) (P' : Mat M' N') (i : (⟨2, ![M, N]⟩ : Shape).Idx)
    (i' : (⟨2, ![M', N']⟩ : Shape).Idx) (h : P i = P' i') : elu P i = elu P' i' := by
  show Scalar.select (FloatOps.cmpf .ogt (P i) _) (P i) (FloatOps.exp (P i) - _)
    = Scalar.select (FloatOps.cmpf .ogt (P' i') _) (P' i') (FloatOps.exp (P' i') - _)
  rw [h]
  rfl

/-- THE BODY ON ONE BLOCK IS THE LAYER ON THE ARRAYS, ROW BY ROW: when row p of the state block is row (i 0) of the
    state array, the weights and the bias row are the arrays' own, and entry (p, q) of the aggregate block is entry i
    of the aggregate array, with q the column of i, then entry (p, q) of the body's result is entry i of the fused
    layer of the arrays. -/
theorem pay2_rows (H : Mat 50000 128) (W : Mat 128 128) (B : Mat 1 128) (G : Mat 50000 128)
    (x0 : Vec Ideal S2000x128 .f32) (x1 : Vec Ideal S128x128 .f32) (x2 : Vec Ideal S1x128 .f32)
    (x3 : Vec Ideal S2000x128 .f32) (p : Fin 2000) (q : Fin 128) (i : S50000x128.Idx)
    (h0 : ∀ k : Fin 128, x0 (ix2 p k) = H (ix2 (i 0) k)) (h1 : x1 = W) (h2 : x2 = B) (h3 : x3 (ix2 p q) = G i)
    (hq : i 1 = q) :
    k2_pay1 (F := Ideal) x0 x1 x2 x3 (ix2 p q) = fused H W B G i := by
  rw [pay2_eq_elu]
  refine elu_congr2 (pre2 x0 x1 x2 x3) (addf (linear H W B) G) (ix2 p q) i ?_
  rw [pre2_apply, addf_apply, h1, h2, h3]
  show dotRows x0 W (ix2 p q) + B (ix2 (0 : Fin 1) q) + G i = dotRows H W i + B (ix2 0 (i 1)) + G i
  rw [hq]
  congr 2
  show (∑ k : Fin 128, x0 (ix2 p k) * W (ix2 k q)) = ∑ k : Fin 128, H (ix2 (i 0) k) * W (ix2 k (i 1))
  rw [hq]
  exact Finset.sum_congr rfl fun k _ => by rw [h0 k]

variable (V : (c : Dev nD) → (b : Ref sig .tc) → Buf (Elt Ideal) ((c : Thread nD τ).loc b))

/-! ## From the blocks to the array

The grid has 25 points. Point t stages rows 2000·t … 2000·t + 1999 of the state array and of the aggregate array, the
whole weights and the whole bias row, and writes back rows 2000·t … 2000·t + 1999 of the output. -/

theorem zero_offset2 : (![0, 0] : Fin 2 → Nat) = fun _ => 0 := funext fun a => by fin_cases a <;> rfl

/-- The printed index maps, decided over the grid: the state, aggregate and output windows are at row block t, column
    block 0; the weight and bias windows stay at block (0, 0). -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- WHAT POINT t WRITES BACK is block t of the fused layer of the arrays as the region finds them. -/
theorem flushed2_eq (c : Dev nD) (t : Fin cfg2.N) :
    (dat2 (F := Ideal) V c).flushed 4 t
      = ((cfg2.win 4).blk t).view.read (Elt Ideal) (fused (V c main_v11) (V c main_v26) (V c main_v24) (V c main_v21)) := by
  show (cfg2.win 4).cut (grid2.coords t) ((dat2 (F := Ideal) V c).after 4 t) = _
  rw [after2_4]
  unfold out2_4
  rw [View.canon_unit_zero zero_offset2]
  simp only [View.ld_unit_zero (S := S2000x128) zero_offset2, View.ld_unit_zero (S := S128x128) zero_offset2,
    View.ld_unit_zero (S := S1x128) zero_offset2]
  obtain ⟨e00, e01, e10, e11, e20, e21, e30, e31, e40, e41⟩ := index_facts2 t
  funext j
  obtain ⟨p, q, rfl⟩ : ∃ (p : Fin 2000) (q : Fin 128), j = ix2 p q := ⟨j 0, j 1, eq_ix2 j⟩
  refine pay2_rows (V c main_v11) (V c main_v26) (V c main_v24) (V c main_v21)
    (iblk2 V c 0 t) (iblk2 V c 1 t) (iblk2 V c 2 t) (iblk2 V c 3 t) p q (((cfg2.win 4).blk t).view.emb (ix2 p q))
    ?_ ?_ ?_ ?_ ?_
  · intro k
    show V c main_v11 (((cfg2.win 0).blk t).view.emb (ix2 p k)) = V c main_v11 _
    refine congrArg (V c main_v11) (funext fun a => Fin.ext ?_)
    match a with
    | ⟨0, _⟩ =>
      show win2_0.index t (0 : Fin 2) * 2000 + 1 * p.val = win2_4.index t (0 : Fin 2) * 2000 + 1 * p.val
      omega
    | ⟨1, _⟩ =>
      show win2_0.index t (1 : Fin 2) * 128 + 1 * k.val = k.val
      omega
  · funext y
    show V c main_v26 (((cfg2.win 1).blk t).view.emb y) = V c main_v26 y
    refine congrArg (V c main_v26) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · funext y
    show V c main_v24 (((cfg2.win 2).blk t).view.emb y) = V c main_v24 y
    refine congrArg (V c main_v24) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · show V c main_v21 (((cfg2.win 3).blk t).view.emb (ix2 p q)) = V c main_v21 _
    refine congrArg (V c main_v21) (funext fun a => Fin.ext ?_)
    match a with
    | ⟨0, _⟩ =>
      show win2_3.index t (0 : Fin 2) * 2000 + 1 * p.val = win2_4.index t (0 : Fin 2) * 2000 + 1 * p.val
      omega
    | ⟨1, _⟩ =>
      show win2_3.index t (1 : Fin 2) * 128 + 1 * q.val = win2_4.index t (1 : Fin 2) * 128 + 1 * q.val
      omega
  · apply Fin.ext
    show win2_4.index t (1 : Fin 2) * 128 + 1 * q.val = q.val
    omega

/-- An index of the output array is in point t's block iff each coordinate is in the block's range on its axis. -/
theorem mem_blk2 (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v27).slice (win2_4.rect t)).set ↔ _
  rw [View.set_slice_whole, Rect.mem_set_unit]
  exact Iff.rfl

/-- EVERY INDEX IS WRITTEN BACK BY SOME POINT: row r lies in the block of point r / 2000, and 25 blocks of 2000 rows
    fill the 50000 rows. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have ht : t.val = (i 0).val / 2000 := rfl
  obtain ⟨e00, e01, e10, e11, e20, e21, e30, e31, e40, e41⟩ := index_facts2 t
  refine ⟨t, flush2_4 t, ?_⟩
  rw [mem_blk2]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 128 ≤ (i 1).val ∧ (i 1).val < win2_4.index t (1 : Fin 2) * 128 + 128
    omega

/-- Region 2 (layer 0's fused update): the output array is the fused layer of the input arrays as the region found them. -/
theorem arrAt2 (c : Dev nD) :
    (dat2 (F := Ideal) V c).arrAt 4 cfg2.N = fused (V c main_v11) (V c main_v26) (V c main_v24) (V c main_v21) :=
  (dat2 (F := Ideal) V c).arrAt_eq_of_cover 4 (fused (V c main_v11) (V c main_v26) (V c main_v24) (V c main_v21))
    (fun t _ => flushed2_eq V c t) cover2

end Cert.KernelIdeal.KRegion

end
-- ==== Proof.KChain1.lean ====
import proofs.«419418_j44702019617436_1_alg».proof.Proof.Gen.KernelIdeal.Frame
import proofs.«419418_j44702019617436_1_alg».proof.Proof.KDefs
import proofs.«419418_j44702019617436_1_alg».proof.Proof.KChain0
import proofs.«419418_j44702019617436_1_alg».proof.Proof.KRegion1
import proofs.«419418_j44702019617436_1_alg».proof.Proof.KRegion2
set_option maxRecDepth 16384

noncomputable section

namespace Cert.KernelIdeal.KChain

open Idealize.ShloMosaic Idealize.ShloMosaic.TcCoe Idealize.SL.Sem Cert.KernelIdeal Cert.KernelIdeal.Gen Cert.Spec
open Idealize.ShloMosaic.Pipeline (Dat Cfg Window)

variable (m : (ℓ : Loc nD τ sig) → Buf (Elt Ideal) ℓ) (ρ : Dev nD → PrngReg)

/-- A buffer that none of a run of host operations writes holds after them what it held before. -/
local macro "host_keep " ops:ident b:term : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

namespace Stage1

/-! ## Buffers that nothing between the two boundaries writes

The edges' sources, destinations and degrees and the three stacked weight arguments are written by no host operation
after region 0 and are no array of regions 1 and 2: at each later boundary they hold what they held after region 0. -/

/-- The edges' sources. -/
theorem W3_v1 (c : Dev nD) : W3 m ρ c (Proc.devRef .tc main_v1) = W2 m ρ c (Proc.devRef .tc main_v1) := by
  host_keep hostOps1 main_v1
theorem W4_v1 (c : Dev nD) : W4 m ρ c (Proc.devRef .tc main_v1) = W2 m ρ c (Proc.devRef .tc main_v1) :=
  (W4_of_ne m ρ c main_v1 (by decide)).trans (W3_v1 m ρ c)
theorem W5_v1 (c : Dev nD) : W5 m ρ c (Proc.devRef .tc main_v1) = W2 m ρ c (Proc.devRef .tc main_v1) := by
  refine Eq.trans ?_ (W4_v1 m ρ c)
  host_keep hostOps2 main_v1
theorem W6_v1 (c : Dev nD) : W6 m ρ c (Proc.devRef .tc main_v1) = W2 m ρ c (Proc.devRef .tc main_v1) := by
  refine Eq.trans ?_ (W5_v1 m ρ c)
  host_keep hostOps2_1 main_v1
theorem W7_v1 (c : Dev nD) : W7 m ρ c (Proc.devRef .tc main_v1) = W2 m ρ c (Proc.devRef .tc main_v1) :=
  (W7_of_ne m ρ c main_v1 (by decide)).trans (W6_v1 m ρ c)

/-- The edges' destinations. -/
theorem W3_v3 (c : Dev nD) : W3 m ρ c (Proc.devRef .tc main_v3) = W2 m ρ c (Proc.devRef .tc main_v3) := by
  host_keep hostOps1 main_v3
theorem W4_v3 (c : Dev nD) : W4 m ρ c (Proc.devRef .tc main_v3) = W2 m ρ c (Proc.devRef .tc main_v3) :=
  (W4_of_ne m ρ c main_v3 (by decide)).trans (W3_v3 m ρ c)
theorem W5_v3 (c : Dev nD) : W5 m ρ c (Proc.devRef .tc main_v3) = W2 m ρ c (Proc.devRef .tc main_v3) := by
  refine Eq.trans ?_ (W4_v3 m ρ c)
  host_keep hostOps2 main_v3
theorem W6_v3 (c : Dev nD) : W6 m ρ c (Proc.devRef .tc main_v3) = W2 m ρ c (Proc.devRef .tc main_v3) := by
  refine Eq.trans ?_ (W5_v3 m ρ c)
  host_keep hostOps2_1 main_v3
theorem W7_v3 (c : Dev nD) : W7 m ρ c (Proc.devRef .tc main_v3) = W2 m ρ c (Proc.devRef .tc main_v3) :=
  (W7_of_ne m ρ c main_v3 (by decide)).trans (W6_v3 m ρ c)

/-- The degrees. -/
theorem W3_v9 (c : Dev nD) : W3 m ρ c (Proc.devRef .tc main_v9) = W2 m ρ c (Proc.devRef .tc main_v9) := by
  host_keep hostOps1 main_v9
theorem W4_v9 (c : Dev nD) : W4 m ρ c (Proc.devRef .tc main_v9) = W2 m ρ c (Proc.devRef .tc main_v9) :=
  (W4_of_ne m ρ c main_v9 (by decide)).trans (W3_v9 m ρ c)
theorem W5_v9 (c : Dev nD) : W5 m ρ c (Proc.devRef .tc main_v9) = W2 m ρ c (Proc.devRef .tc main_v9) := by
  refine Eq.trans ?_ (W4_v9 m ρ c)
  host_keep hostOps2 main_v9
theorem W6_v9 (c : Dev nD) : W6 m ρ c (Proc.devRef .tc main_v9) = W2 m ρ c (Proc.devRef .tc main_v9) := by
  refine Eq.trans ?_ (W5_v9 m ρ c)
  host_keep hostOps2_1 main_v9
theorem W7_v9 (c : Dev nD) : W7 m ρ c (Proc.devRef .tc main_v9) = W2 m ρ c (Proc.devRef .tc main_v9) :=
  (W7_of_ne m ρ c main_v9 (by decide)).trans (W6_v9 m ρ c)

/-- The stacked self weights. -/
theorem W3_arg4 (c : Dev nD) : W3 m ρ c (Proc.devRef .tc main_arg4) = W2 m ρ c (Proc.devRef .tc main_arg4) := by
  host_keep hostOps1 main_arg4
theorem W4_arg4 (c : Dev nD) : W4 m ρ c (Proc.devRef .tc main_arg4) = W2 m ρ c (Proc.devRef .tc main_arg4) :=
  (W4_of_ne m ρ c main_arg4 (by decide)).trans (W3_arg4 m ρ c)
theorem W5_arg4 (c : Dev nD) : W5 m ρ c (Proc.devRef .tc main_arg4) = W2 m ρ c (Proc.devRef .tc main_arg4) := by
  refine Eq.trans ?_ (W4_arg4 m ρ c)
  host_keep hostOps2 main_arg4
theorem W6_arg4 (c : Dev nD) : W6 m ρ c (Proc.devRef .tc main_arg4) = W2 m ρ c (Proc.devRef .tc main_arg4) := by
  refine Eq.trans ?_ (W5_arg4 m ρ c)
  host_keep hostOps2_1 main_arg4
theorem W7_arg4 (c : Dev nD) : W7 m ρ c (Proc.devRef .tc main_arg4) = W2 m ρ c (Proc.devRef .tc main_arg4) :=
  (W7_of_ne m ρ c main_arg4 (by decide)).trans (W6_arg4 m ρ c)

/-- The stacked self biases. -/
theorem W3_arg5 (c : Dev nD) : W3 m ρ c (Proc.devRef .tc main_arg5) = W2 m ρ c (Proc.devRef .tc main_arg5) := by
  host_keep hostOps1 main_arg5
theorem W4_arg5 (c : Dev nD) : W4 m ρ c (Proc.devRef .tc main_arg5) = W2 m ρ c (Proc.devRef .tc main_arg5) :=
  (W4_of_ne m ρ c main_arg5 (by decide)).trans (W3_arg5 m ρ c)
theorem W5_arg5 (c : Dev nD) : W5 m ρ c (Proc.devRef .tc main_arg5) = W2 m ρ c (Proc.devRef .tc main_arg5) := by
  refine Eq.trans ?_ (W4_arg5 m ρ c)
  host_keep hostOps2 main_arg5
theorem W6_arg5 (c : Dev nD) : W6 m ρ c (Proc.devRef .tc main_arg5) = W2 m ρ c (Proc.devRef .tc main_arg5) := by
  refine Eq.trans ?_ (W5_arg5 m ρ c)
  host_keep hostOps2_1 main_arg5
theorem W7_arg5 (c : Dev nD) : W7 m ρ c (Proc.devRef .tc main_arg5) = W2 m ρ c (Proc.devRef .tc main_arg5) :=
  (W7_of_ne m ρ c main_arg5 (by decide)).trans (W6_arg5 m ρ c)

/-- The stacked neighbour weights. -/
theorem W3_arg6 (c : Dev nD) : W3 m ρ c (Proc.devRef .tc main_arg6) = W2 m ρ c (Proc.devRef .tc main_arg6) := by
  host_keep hostOps1 main_arg6
theorem W4_arg6 (c : Dev nD) : W4 m ρ c (Proc.devRef .tc main_arg6) = W2 m ρ c (Proc.devRef .tc main_arg6) :=
  (W4_of_ne m ρ c main_arg6 (by decide)).trans (W3_arg6 m ρ c)
theorem W5_arg6 (c : Dev nD) : W5 m ρ c (Proc.devRef .tc main_arg6) = W2 m ρ c (Proc.devRef .tc main_arg6) := by
  refine Eq.trans ?_ (W4_arg6 m ρ c)
  host_keep hostOps2 main_arg6
theorem W6_arg6 (c : Dev nD) : W6 m ρ c (Proc.devRef .tc main_arg6) = W2 m ρ c (Proc.devRef .tc main_arg6) := by
  refine Eq.trans ?_ (W5_arg6 m ρ c)
  host_keep hostOps2_1 main_arg6
theorem W7_arg6 (c : Dev nD) : W7 m ρ c (Proc.devRef .tc main_arg6) = W2 m ρ c (Proc.devRef .tc main_arg6) :=
  (W7_of_ne m ρ c main_arg6 (by decide)).trans (W6_arg6 m ρ c)

/-! ## The state after region 0: an input of regions 1 and 2, written by neither and by no host operation -/

theorem W3_v11 (c : Dev nD) : W3 m ρ c (Proc.devRef .tc main_v11) = W2 m ρ c (Proc.devRef .tc main_v11) := by
  host_keep hostOps1 main_v11
/-- Region 1 only reads its first array. -/
theorem W4_v11 (c : Dev nD) : W4 m ρ c (Proc.devRef .tc main_v11) = W2 m ρ c (Proc.devRef .tc main_v11) :=
  ((W4_arr m ρ c 0).trans (((dat1 (V3 m ρ) c).arrAt_in 0 rfl _).trans (A_eq1 (V3 m ρ) c 0))).trans (W3_v11 m ρ c)
theorem W5_v11 (c : Dev nD) : W5 m ρ c (Proc.devRef .tc main_v11) = W2 m ρ c (Proc.devRef .tc main_v11) := by
  refine Eq.trans ?_ (W4_v11 m ρ c)
  host_keep hostOps2 main_v11
theorem W6_v11 (c : Dev nD) : W6 m ρ c (Proc.devRef .tc main_v11) = W2 m ρ c (Proc.devRef .tc main_v11) := by
  refine Eq.trans ?_ (W5_v11 m ρ c)
  host_keep hostOps2_1 main_v11

/-! ## The zero bias row: a broadcast of the constant 0 before region 1, read by region 1, untouched afterwards -/

theorem W3_v12 (c : Dev nD) : W3 m ρ c (Proc.devRef .tc main_v12) = KVal.zeroRow := by
  show StableHlo.after hostOps1 (W2 m ρ c) (Proc.devRef .tc main_v12) = _
  after_results
  rfl
/-- Region 1 only reads its third array. -/
theorem W4_v12 (c : Dev nD) : W4 m ρ c (Proc.devRef .tc main_v12) = KVal.zeroRow :=
  ((W4_arr m ρ c 2).trans (((dat1 (V3 m ρ) c).arrAt_in 2 rfl _).trans (A_eq1 (V3 m ρ) c 2))).trans (W3_v12 m ρ c)
theorem W5_v12 (c : Dev nD) : W5 m ρ c (Proc.devRef .tc main_v12) = KVal.zeroRow := by
  refine Eq.trans ?_ (W4_v12 m ρ c)
  host_keep hostOps2 main_v12
theorem W6_v12 (c : Dev nD) : W6 m ρ c (Proc.devRef .tc main_v12) = KVal.zeroRow := by
  refine Eq.trans ?_ (W5_v12 m ρ c)
  host_keep hostOps2_1 main_v12
theorem W7_v12 (c : Dev nD) : W7 m ρ c (Proc.devRef .tc main_v12) = KVal.zeroRow :=
  (W7_of_ne m ρ c main_v12 (by decide)).trans (W6_v12 m ρ c)

/-! ## Layer 0's neighbour projection (region 1) -/

/-- The neighbour weights of layer 0: the first matrix of the stack, sliced before region 1. -/
theorem W3_v14 (c : Dev nD) :
    W3 m ρ c (Proc.devRef .tc main_v14) = KVal.mat0 (m ((c : Thread nD τ).loc main_arg6)) := by
  rw [← At2.keep_arg6 m ρ c]
  show StableHlo.after hostOps1 (W2 m ρ c) (Proc.devRef .tc main_v14) = _
  after_results
  rfl

/-- Region 1's output: the linear layer of the state by the neighbour weights, with the zero bias row. -/
theorem W4_v15 (c : Dev nD) :
    W4 m ρ c (Proc.devRef .tc main_v15)
      = linear (W2 m ρ c (Proc.devRef .tc main_v11)) (KVal.mat0 (m ((c : Thread nD τ).loc main_arg6))) KVal.zeroRow := by
  have h : W4 m ρ c (Proc.devRef .tc main_v15)
      = linear (W3 m ρ c (Proc.devRef .tc main_v11)) (W3 m ρ c (Proc.devRef .tc main_v14))
          (W3 m ρ c (Proc.devRef .tc main_v12)) :=
    (W4_arr m ρ c 3).trans (KRegion.arrAt1 (V3 m ρ) c)
  rw [h, W3_v11 m ρ c, W3_v14 m ρ c, W3_v12 m ρ c]

/-! ## The rows taken along the edges (the host operations after region 1) -/

/-- Reading a typed buffer reference's contents back at the value's own type undoes storing them there. -/
theorem ofBuf_toBuf {T : BufTy} (x : StableHlo.TRef sig T) (v : T.Contents (Elt Ideal)) :
    x.ofBuf (x.toBuf v) = v := by
  obtain ⟨r, h, h2, h3⟩ := x
  subst h
  rfl
/-- At the three buffers the taking meets from outside, the buffer's type is the value's type: the transport is the identity. -/
theorem toBuf_v16 (v : (⟨S800000x128, .f32⟩ : BufTy).Contents (Elt Ideal)) :
    (.of main_v16 : StableHlo.TRef sig ⟨S800000x128, .f32⟩).toBuf v = v := rfl
theorem ofBuf_v1 (v : (⟨S800000, .i32⟩ : BufTy).Contents (Elt Ideal)) :
    (.of main_v1 : StableHlo.TRef sig ⟨S800000, .i32⟩).ofBuf v = v := rfl
theorem ofBuf_v15 (v : (⟨S50000x128, .f32⟩ : BufTy).Contents (Elt Ideal)) :
    (.of main_v15 : StableHlo.TRef sig ⟨S50000x128, .f32⟩).ofBuf v = v := rfl

/-- The 23 operations of the inlined taking compose to the taking of rows: wrap the negative indices, test the range,
    gather, and fill where the index is out of range. -/
theorem W5_v16_raw (c : Dev nD) :
    W5 m ρ c (Proc.devRef .tc main_v16)
      = KVal.take (W4 m ρ c (Proc.devRef .tc main_v15)) (W4 m ρ c (Proc.devRef .tc main_v1)) := by
  show StableHlo.after hostOps2 (W4 m ρ c) (Proc.devRef .tc main_v16) = _
  after_results_simp
  simp only [ofBuf_toBuf]
  simp only [toBuf_v16, ofBuf_v1, ofBuf_v15]
  unfold KVal.take KVal.inRange KVal.idxCol KVal.wrapIdx
  rfl

theorem W5_v16 (c : Dev nD) :
    W5 m ρ c (Proc.devRef .tc main_v16)
      = KVal.take (linear (W2 m ρ c (Proc.devRef .tc main_v11)) (KVal.mat0 (m ((c : Thread nD τ).loc main_arg6))) KVal.zeroRow)
          (KVal.src (m ((c : Thread nD τ).loc main_arg1))) := by
  rw [W5_v16_raw m ρ c, W4_v15 m ρ c, W4_v1 m ρ c, At2.keep_src m ρ c]

/-! ## The mean message and layer 0's self weights (the host operations before region 2) -/

theorem W5_dst (c : Dev nD) : W5 m ρ c (Proc.devRef .tc main_v3) = KVal.dst (m ((c : Thread nD τ).loc main_arg1)) :=
  (W5_v3 m ρ c).trans (At2.keep_dst m ρ c)
theorem W5_cnt (c : Dev nD) : W5 m ρ c (Proc.devRef .tc main_v9) = KVal.cnt (m ((c : Thread nD τ).loc main_arg1)) :=
  (W5_v9 m ρ c).trans (At2.keep_cnt m ρ c)

/-- The taken rows added at the edges' destinations, over the degrees. -/
theorem W6_v21_raw (c : Dev nD) :
    W6 m ρ c (Proc.devRef .tc main_v21)
      = KVal.agg (W5 m ρ c (Proc.devRef .tc main_v16)) (m ((c : Thread nD τ).loc main_arg1)) := by
  have hd := W5_dst m ρ c
  have hn := W5_cnt m ρ c
  show StableHlo.after hostOps2_1 (W5 m ρ c) (Proc.devRef .tc main_v21)
    = KVal.agg (W5 m ρ c (Proc.devRef .tc main_v16)) _
  generalize W5 m ρ c = V at hd hn ⊢
  after_results
  rw [hd, hn]
  unfold KVal.agg KVal.dstCol
  rfl

/-- The self weights of layer 0: the first matrix of the stack. -/
theorem W6_v26 (c : Dev nD) :
    W6 m ρ c (Proc.devRef .tc main_v26) = KVal.mat0 (m ((c : Thread nD τ).loc main_arg4)) := by
  rw [← At2.keep_arg4 m ρ c, ← W5_arg4 m ρ c]
  show StableHlo.after hostOps2_1 (W5 m ρ c) (Proc.devRef .tc main_v26)
    = KVal.mat0 (W5 m ρ c (Proc.devRef .tc main_arg4))
  generalize W5 m ρ c = V
  after_results
  rfl

/-- The self bias of layer 0 as a row: the first vector of the stack, reshaped. -/
theorem W6_v24 (c : Dev nD) :
    W6 m ρ c (Proc.devRef .tc main_v24) = KVal.biasRow (KVal.vec0 (m ((c : Thread nD τ).loc main_arg5))) := by
  rw [← At2.keep_arg5 m ρ c, ← W5_arg5 m ρ c]
  show StableHlo.after hostOps2_1 (W5 m ρ c) (Proc.devRef .tc main_v24)
    = KVal.biasRow (KVal.vec0 (W5 m ρ c (Proc.devRef .tc main_arg5)))
  generalize W5 m ρ c = V
  after_results
  rfl

/-- Region 2's output: the fused layer of its four input arrays. -/
theorem W7_v27 (c : Dev nD) :
    W7 m ρ c (Proc.devRef .tc main_v27)
      = fused (W6 m ρ c (Proc.devRef .tc main_v11)) (W6 m ρ c (Proc.devRef .tc main_v26))
          (W6 m ρ c (Proc.devRef .tc main_v24)) (W6 m ρ c (Proc.devRef .tc main_v21)) :=
  (W7_arr m ρ c 4).trans (KRegion.arrAt2 (V6 m ρ) c)

end Stage1

/-- After region 2 the state array is layer 0 of the state after region 0 and the launch arguments. -/
theorem stage1 (c : Dev nD) :
    (W7 m ρ c (Proc.devRef .tc main_v27)) = KVal.layer (W2 m ρ c (Proc.devRef .tc main_v11)) (m ((c : Thread nD τ).loc main_arg1)) (KVal.mat0 (m ((c : Thread nD τ).loc main_arg6))) (KVal.mat0 (m ((c : Thread nD τ).loc main_arg4))) (KVal.vec0 (m ((c : Thread nD τ).loc main_arg5))) := by
  rw [Stage1.W7_v27 m ρ c, Stage1.W6_v11 m ρ c, Stage1.W6_v26 m ρ c, Stage1.W6_v24 m ρ c, Stage1.W6_v21_raw m ρ c,
    Stage1.W5_v16 m ρ c]
  unfold KVal.layer
  rfl

/-! ## What the later layers read at the boundary after region 2 -/
namespace At7
theorem keep_src (c : Dev nD) : (W7 m ρ c (Proc.devRef .tc main_v1)) = KVal.src (m ((c : Thread nD τ).loc main_arg1)) :=
  (Stage1.W7_v1 m ρ c).trans (At2.keep_src m ρ c)
theorem keep_dst (c : Dev nD) : (W7 m ρ c (Proc.devRef .tc main_v3)) = KVal.dst (m ((c : Thread nD τ).loc main_arg1)) :=
  (Stage1.W7_v3 m ρ c).trans (At2.keep_dst m ρ c)
theorem keep_cnt (c : Dev nD) : (W7 m ρ c (Proc.devRef .tc main_v9)) = KVal.cnt (m ((c : Thread nD τ).loc main_arg1)) :=
  (Stage1.W7_v9 m ρ c).trans (At2.keep_cnt m ρ c)
theorem keep_arg4 (c : Dev nD) : (W7 m ρ c (Proc.devRef .tc main_arg4)) = m ((c : Thread nD τ).loc main_arg4) :=
  (Stage1.W7_arg4 m ρ c).trans (At2.keep_arg4 m ρ c)
theorem keep_arg5 (c : Dev nD) : (W7 m ρ c (Proc.devRef .tc main_arg5)) = m ((c : Thread nD τ).loc main_arg5) :=
  (Stage1.W7_arg5 m ρ c).trans (At2.keep_arg5 m ρ c)
theorem keep_arg6 (c : Dev nD) : (W7 m ρ c (Proc.devRef .tc main_arg6)) = m ((c : Thread nD τ).loc main_arg6) :=
  (Stage1.W7_arg6 m ρ c).trans (At2.keep_arg6 m ρ c)
theorem keep_zero (c : Dev nD) : (W7 m ρ c (Proc.devRef .tc main_v12)) = KVal.zeroRow :=
  Stage1.W7_v12 m ρ c
end At7

end Cert.KernelIdeal.KChain

end
-- ==== Proof.KRegion3.lean ====
/-
  Region 3, layer 1's neighbour projection, from blocks to the whole array.

  The grid has 25 points. Point t stages rows 2000 t … 2000 t + 1999 of the 50000 × 128 table, the whole 128 × 128
  weight matrix and the whole 1 × 128 bias row, and writes back rows 2000 t … 2000 t + 1999 of the 50000 × 128
  output. The body's arithmetic on its blocks is a linear layer; an entry of a linear layer depends on one row of
  the table only, so the block a point writes is that block of the linear layer of the whole arrays; the 25 blocks
  fill the output array.
-/
import proofs.«419418_j44702019617436_1_alg».proof.Proof.Gen.KernelIdeal.Frame
import proofs.«419418_j44702019617436_1_alg».proof.Proof.KDefs
import Idealize.ShloMosaic.Lib.ValueIdx
import Idealize.ShloMosaic.Lib.ValueLayout
import Idealize.ShloMosaic.Lib.Pipeline.Value

set_option maxRecDepth 16384

noncomputable section

namespace Cert.KernelIdeal.KRegion

open Idealize.ShloMosaic Idealize.ShloMosaic.TcCoe Idealize.SL.Sem Cert.KernelIdeal Cert.KernelIdeal.Gen Cert.Spec
open Idealize.ShloMosaic.Pipeline (Dat Cfg Window)
open Idealize.ShloMosaic.ValueIdx

variable (V : (c : Dev nD) → (b : Ref sig .tc) → Buf (Elt Ideal) ((c : Thread nD τ).loc b))

/-- A whole-buffer rectangle starts at offset zero on both axes. -/
theorem zeroOff_r3 : (![0, 0] : Fin 2 → Nat) = fun _ => 0 :=
  funext fun a => by match a with | ⟨0, _⟩ => rfl | ⟨1, _⟩ => rfl

/-- The body's arithmetic on its three loaded blocks, entry by entry: the row block and the weight matrix are each
    cast to their own shape, which changes nothing; their product into a zero accumulator is the sum over the shared
    axis (narrowing the operands changes nothing over the extended reals); and the bias row, cast to its own shape and
    repeated down the rows, is added. That is the linear layer of the three blocks. -/
theorem pay_r3 (x0 : Mat 2000 128) (x1 : Mat 128 128) (x2 : Mat 1 128) :
    k3_pay1 (F := Ideal) x0 x1 x2 = linear x0 x1 x2 := by
  funext j
  obtain ⟨p, q, rfl⟩ : ∃ (p : Fin 2000) (q : Fin 128), j = ix2 p q := ⟨j 0, j 1, eq_ix2 j⟩
  unfold k3_pay1
  refine (addf_apply _ _ (ix2 p q)).trans ?_
  refine congrArg₂ (· + ·) ?_ ?_
  · refine (matmul_zero_apply dot_S2000x128_S128x128_S2000x128_1_0_0_1_n_n rfl rfl rfl rfl none _ _ (ix2 p q)).trans ?_
    exact congrArg₂ (fun a b => dotRows a b (ix2 p q)) (shapeCast_self x0 _) (shapeCast_self x1 _)
  · refine (broadcastTo_1b_ab_apply _ _ p q).trans ?_
    exact congrFun (shapeCast_self x2 _) (ix2 (0 : Fin 1) q)

/-- The printed index maps over the 25 grid points: the two row-block windows (the input table and the output)
    sit at block t on the row axis and block 0 on the column axis; the weight and the bias window are one block
    each, at block 0 on both axes. -/
theorem idx_r3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- An entry of a linear layer depends on one row of the table, one column of the matrix and one entry of the
    bias row: two layers agree at two entries where those agree. -/
theorem linear_entry_r3 (x : Mat 2000 128) (X : Mat 50000 128) (w W : Mat 128 128) (b B : Mat 1 128)
    (p : Fin 2000) (r : Fin 50000) (q : Fin 128)
    (hx : ∀ k : Fin 128, x (ix2 p k) = X (ix2 r k)) (hw : ∀ k : Fin 128, w (ix2 k q) = W (ix2 k q))
    (hb : b (ix2 0 q) = B (ix2 0 q)) :
    linear x w b (ix2 p q) = linear X W B (ix2 r q) := by
  show (∑ k : Fin 128, x (ix2 p k) * w (ix2 k q)) + b (ix2 0 q) = (∑ k : Fin 128, X (ix2 r k) * W (ix2 k q)) + B (ix2 0 q)
  rw [hb]
  exact congrArg (· + B (ix2 0 q)) (Finset.sum_congr rfl fun k _ => by rw [hx k, hw k])

/-- What grid point t writes back is block t of the linear layer of the three arrays: the point's row block of the
    table is rows 2000 t … 2000 t + 1999 of the table, its weight and bias blocks are the whole matrix and the whole
    bias row, and the output block's rows are the same rows 2000 t …. -/
theorem flushed_r3 (c : Dev nD) (t : Fin cfg3.N) :
    (dat3 (F := Ideal) V c).flushed 3 t
      = ((cfg3.win 3).blk t).view.read (Elt Ideal) (linear (V c main_v27) (V c main_v29) (V c main_v12)) := by
  show (cfg3.win 3).cut (grid3.coords t) ((dat3 (F := Ideal) V c).after 3 t) = _
  rw [after3_3]
  unfold out3_3
  rw [View.canon_unit_zero zeroOff_r3]
  simp only [View.ld_unit_zero (S := S2000x128) zeroOff_r3, View.ld_unit_zero (S := S128x128) zeroOff_r3,
    View.ld_unit_zero (S := S1x128) zeroOff_r3]
  refine (pay_r3 (iblk3 V c 0 t) (iblk3 V c 1 t) (iblk3 V c 2 t)).trans ?_
  obtain ⟨e0, e1, e2, e3, e4, e5, e6, e7⟩ := idx_r3 t
  have ht : t.val < 25 := lt_of_lt_of_eq t.isLt N_3
  funext j
  obtain ⟨p, q, rfl⟩ : ∃ (p : Fin 2000) (q : Fin 128), j = ix2 p q := ⟨j 0, j 1, eq_ix2 j⟩
  have hp : p.val < 2000 := p.isLt
  have he : ((cfg3.win 3).blk t).view.emb (ix2 p q) = ix2 (⟨t.val * 2000 + p.val, by omega⟩ : Fin 50000) q := by
    funext a; apply Fin.ext
    match a with
    | ⟨0, _⟩ => show win3_3.index t (0 : Fin 2) * 2000 + 1 * p.val = t.val * 2000 + p.val; omega
    | ⟨1, _⟩ => show win3_3.index t (1 : Fin 2) * 128 + 1 * q.val = q.val; omega
  refine Eq.trans (linear_entry_r3 (iblk3 V c 0 t) (V c main_v27) (iblk3 V c 1 t) (V c main_v29) (iblk3 V c 2 t) (V c main_v12)
    p ⟨t.val * 2000 + p.val, by omega⟩ q ?_ ?_ ?_)
    (congrArg (linear (V c main_v27) (V c main_v29) (V c main_v12)) he.symm)
  · intro k
    show V c main_v27 (((cfg3.win 0).blk t).view.emb (ix2 p k)) = V c main_v27 (ix2 ⟨t.val * 2000 + p.val, _⟩ k)
    congr 1
    funext a; apply Fin.ext
    match a with
    | ⟨0, _⟩ => show win3_0.index t (0 : Fin 2) * 2000 + 1 * p.val = t.val * 2000 + p.val; omega
    | ⟨1, _⟩ => show win3_0.index t (1 : Fin 2) * 128 + 1 * k.val = k.val; omega
  · intro k
    show V c main_v29 (((cfg3.win 1).blk t).view.emb (ix2 k q)) = V c main_v29 (ix2 k q)
    congr 1
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  · show V c main_v12 (((cfg3.win 2).blk t).view.emb (ix2 (0 : Fin 1) q)) = V c main_v12 (ix2 (0 : Fin 1) q)
    congr 1
    funext a; apply Fin.ext
    match a with
    | ⟨0, _⟩ => show win3_2.index t (0 : Fin 2) * 1 + 1 * (0 : Fin 1).val = (0 : Fin 1).val; omega
    | ⟨1, _⟩ => show win3_2.index t (1 : Fin 2) * 128 + 1 * q.val = q.val; omega

/-- An index of the output array lies in point t's block exactly when each coordinate lies in the block's range. -/
theorem mem_blk_r3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v30).slice (win3_3.rect t)).set ↔ _
  rw [View.set_slice_whole, Rect.mem_set_unit]
  exact Iff.rfl

/-- The 25 row blocks of 2000 rows fill the 50000 × 128 array: row r lies in the block of point r / 2000. -/
theorem cover_r3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨e0, e1, e2, e3, e4, e5, e6, e7⟩ := idx_r3 t
  refine ⟨t, flush3_3 t, ?_⟩
  rw [mem_blk_r3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 128 ≤ (i 1).val ∧ (i 1).val < win3_3.index t (1 : Fin 2) * 128 + 128
    omega

/-- Region 3 (layer 1's neighbour projection): the output array is the linear layer of the input arrays as the region found them. -/
theorem arrAt3 (c : Dev nD) :
    (dat3 (F := Ideal) V c).arrAt 3 cfg3.N = linear (V c main_v27) (V c main_v29) (V c main_v12) :=
  (dat3 (F := Ideal) V c).arrAt_eq_of_cover 3 (linear (V c main_v27) (V c main_v29) (V c main_v12))
    (fun t _ => flushed_r3 V c t) cover_r3

end Cert.KernelIdeal.KRegion

end
-- ==== Proof.KRegion4.lean ====
import proofs.«419418_j44702019617436_1_alg».proof.Proof.Gen.KernelIdeal.Frame
import proofs.«419418_j44702019617436_1_alg».proof.Proof.KDefs
import Idealize.ShloMosaic.Lib.ValueIdx
import Idealize.ShloMosaic.Lib.ValueLayout
import Idealize.ShloMosaic.Lib.Pipeline.Value

set_option maxRecDepth 16384

noncomputable section

namespace Cert.KernelIdeal.KRegion

open Idealize.ShloMosaic Idealize.ShloMosaic.TcCoe Idealize.SL.Sem Cert.KernelIdeal Cert.KernelIdeal.Gen Cert.Spec
open Idealize.ShloMosaic.Pipeline (Dat Cfg Window)
open Idealize.ShloMosaic.ValueIdx

/-! ## The body's arithmetic on one block

The body multiplies a 2000-row block of node states by the 128 × 128 weights, adds the bias row to every row and
the block of aggregated messages entry by entry, and applies the exponential linear unit. -/

/-- The value the unit is applied to, as the body computes it from the four loaded blocks: the product into a zero
    accumulator, plus the bias row spread over the rows, plus the aggregate block. -/
def pre4 (x0 : Vec Ideal S2000x128 .f32) (x1 : Vec Ideal S128x128 .f32) (x2 : Vec Ideal S1x128 .f32)
    (x3 : Vec Ideal S2000x128 .f32) : FVec Ideal S2000x128 .f32 :=
  addf
    (addf
      (matmul dot_S2000x128_S128x128_S2000x128_1_0_0_1_n_n none
        (truncf .bf16 (shapeCast S2000x128 x0 shapeCasts_S2000x128_S2000x128) bitsLt_bf16_f32)
        (truncf .bf16 (shapeCast S128x128 x1 shapeCasts_S128x128_S128x128) bitsLt_bf16_f32)
        (constant S2000x128 .f32 0x00000000#32))
      (broadcastTo S2000x128 (shapeCast S1x128 x2 shapeCasts_S1x128_S1x128) broadcasts_S1x128_S2000x128))
    (shapeCast S2000x128 x3 shapeCasts_S2000x128_S2000x128)

/-- The body's result is the unit applied to that value: the comparison with zero, the exponential and the
    subtraction of one are the unit's own three operations, on the same operand. -/
theorem pay4_eq_elu (x0 : Vec Ideal S2000x128 .f32) (x1 : Vec Ideal S128x128 .f32) (x2 : Vec Ideal S1x128 .f32)
    (x3 : Vec Ideal S2000x128 .f32) : k4_pay1 (F := Ideal) x0 x1 x2 x3 = elu (M := 2000) (N := 128) (pre4 x0 x1 x2 x3) := rfl

/-- Entry (p, q) of that value: row p of the block times column q of the weights, plus entry q of the bias row, plus
    entry (p, q) of the aggregate block. The reshapes to the same shape and the narrowing of the factors change
    nothing over the extended reals. -/
theorem pre4_apply (x0 : Vec Ideal S2000x128 .f32) (x1 : Vec Ideal S128x128 .f32) (x2 : Vec Ideal S1x128 .f32)
    (x3 : Vec Ideal S2000x128 .f32) (p : Fin 2000) (q : Fin 128) :
    pre4 x0 x1 x2 x3 (ix2 p q)
      = dotRows (M := 2000) (K := 128) (N := 128) x0 x1 (ix2 p q) + x2 (ix2 (0 : Fin 1) q) + x3 (ix2 p q) := by
  unfold pre4
  rw [addf_apply, addf_apply, shapeCast_self, shapeCast_self, shapeCast_self, shapeCast_self, broadcastTo_1b_ab_apply,
    matmul_zero_apply (M := 2000) (K := 128) (N := 128) dot_S2000x128_S128x128_S2000x128_1_0_0_1_n_n rfl rfl rfl rfl]
  rfl

/-- The unit at an index looks only at its operand's entry there. -/
theorem elu_congr4 {M N M' N' : ℕ} (P : Mat M N) (P' : Mat M' N') (i : (⟨2, ![M, N]⟩ : Shape).Idx)
    (i' : (⟨2, ![M', N']⟩ : Shape).Idx) (h : P i = P' i') : elu P i = elu P' i' := by
  show Scalar.select (FloatOps.cmpf .ogt (P i) _) (P i) (FloatOps.exp (P i) - _)
    = Scalar.select (FloatOps.cmpf .ogt (P' i') _) (P' i') (FloatOps.exp (P' i') - _)
  rw [h]
  rfl

/-- THE BODY ON ONE BLOCK IS THE LAYER ON THE ARRAYS, ROW BY ROW: when row p of the state block is row (i 0) of the
    state array, the weights and the bias row are the arrays' own, and entry (p, q) of the aggregate block is entry i
    of the aggregate array, with q the column of i, then entry (p, q) of the body's result is entry i of the fused
    layer of the arrays. -/
theorem pay4_rows (H : Mat 50000 128) (W : Mat 128 128) (B : Mat 1 128) (G : Mat 50000 128)
    (x0 : Vec Ideal S2000x128 .f32) (x1 : Vec Ideal S128x128 .f32) (x2 : Vec Ideal S1x128 .f32)
    (x3 : Vec Ideal S2000x128 .f32) (p : Fin 2000) (q : Fin 128) (i : S50000x128.Idx)
    (h0 : ∀ k : Fin 128, x0 (ix2 p k) = H (ix2 (i 0) k)) (h1 : x1 = W) (h2 : x2 = B) (h3 : x3 (ix2 p q) = G i)
    (hq : i 1 = q) :
    k4_pay1 (F := Ideal) x0 x1 x2 x3 (ix2 p q) = fused H W B G i := by
  rw [pay4_eq_elu]
  refine elu_congr4 (pre4 x0 x1 x2 x3) (addf (linear H W B) G) (ix2 p q) i ?_
  rw [pre4_apply, addf_apply, h1, h2, h3]
  show dotRows x0 W (ix2 p q) + B (ix2 (0 : Fin 1) q) + G i = dotRows H W i + B (ix2 0 (i 1)) + G i
  rw [hq]
  congr 2
  show (∑ k : Fin 128, x0 (ix2 p k) * W (ix2 k q)) = ∑ k : Fin 128, H (ix2 (i 0) k) * W (ix2 k (i 1))
  rw [hq]
  exact Finset.sum_congr rfl fun k _ => by rw [h0 k]

variable (V : (c : Dev nD) → (b : Ref sig .tc) → Buf (Elt Ideal) ((c : Thread nD τ).loc b))

/-! ## From the blocks to the array

The grid has 25 points. Point t stages rows 2000·t … 2000·t + 1999 of the state array and of the aggregate array, the
whole weights and the whole bias row, and writes back rows 2000·t … 2000·t + 1999 of the output. -/

theorem zero_offset4 : (![0, 0] : Fin 2 → Nat) = fun _ => 0 := funext fun a => by fin_cases a <;> rfl

/-- The printed index maps, decided over the grid: the state, aggregate and output windows are at row block t, column
    block 0; the weight and bias windows stay at block (0, 0). -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- WHAT POINT t WRITES BACK is block t of the fused layer of the arrays as the region finds them. -/
theorem flushed4_eq (c : Dev nD) (t : Fin cfg4.N) :
    (dat4 (F := Ideal) V c).flushed 4 t
      = ((cfg4.win 4).blk t).view.read (Elt Ideal) (fused (V c main_v27) (V c main_v41) (V c main_v39) (V c main_v36)) := by
  show (cfg4.win 4).cut (grid4.coords t) ((dat4 (F := Ideal) V c).after 4 t) = _
  rw [after4_4]
  unfold out4_4
  rw [View.canon_unit_zero zero_offset4]
  simp only [View.ld_unit_zero (S := S2000x128) zero_offset4, View.ld_unit_zero (S := S128x128) zero_offset4,
    View.ld_unit_zero (S := S1x128) zero_offset4]
  obtain ⟨e00, e01, e10, e11, e20, e21, e30, e31, e40, e41⟩ := index_facts4 t
  funext j
  obtain ⟨p, q, rfl⟩ : ∃ (p : Fin 2000) (q : Fin 128), j = ix2 p q := ⟨j 0, j 1, eq_ix2 j⟩
  refine pay4_rows (V c main_v27) (V c main_v41) (V c main_v39) (V c main_v36)
    (iblk4 V c 0 t) (iblk4 V c 1 t) (iblk4 V c 2 t) (iblk4 V c 3 t) p q (((cfg4.win 4).blk t).view.emb (ix2 p q))
    ?_ ?_ ?_ ?_ ?_
  · intro k
    show V c main_v27 (((cfg4.win 0).blk t).view.emb (ix2 p k)) = V c main_v27 _
    refine congrArg (V c main_v27) (funext fun a => Fin.ext ?_)
    match a with
    | ⟨0, _⟩ =>
      show win4_0.index t (0 : Fin 2) * 2000 + 1 * p.val = win4_4.index t (0 : Fin 2) * 2000 + 1 * p.val
      omega
    | ⟨1, _⟩ =>
      show win4_0.index t (1 : Fin 2) * 128 + 1 * k.val = k.val
      omega
  · funext y
    show V c main_v41 (((cfg4.win 1).blk t).view.emb y) = V c main_v41 y
    refine congrArg (V c main_v41) (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · funext y
    show V c main_v39 (((cfg4.win 2).blk t).view.emb y) = V c main_v39 y
    refine congrArg (V c main_v39) (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  · show V c main_v36 (((cfg4.win 3).blk t).view.emb (ix2 p q)) = V c main_v36 _
    refine congrArg (V c main_v36) (funext fun a => Fin.ext ?_)
    match a with
    | ⟨0, _⟩ =>
      show win4_3.index t (0 : Fin 2) * 2000 + 1 * p.val = win4_4.index t (0 : Fin 2) * 2000 + 1 * p.val
      omega
    | ⟨1, _⟩ =>
      show win4_3.index t (1 : Fin 2) * 128 + 1 * q.val = win4_4.index t (1 : Fin 2) * 128 + 1 * q.val
      omega
  · apply Fin.ext
    show win4_4.index t (1 : Fin 2) * 128 + 1 * q.val = q.val
    omega

/-- An index of the output array is in point t's block iff each coordinate is in the block's range on its axis. -/
theorem mem_blk4 (t : Fin cfg4.N) (i : S50000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v42).slice (win4_4.rect t)).set ↔ _
  rw [View.set_slice_whole, Rect.mem_set_unit]
  exact Iff.rfl

/-- EVERY INDEX IS WRITTEN BACK BY SOME POINT: row r lies in the block of point r / 2000, and 25 blocks of 2000 rows
    fill the 50000 rows. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  have ht : t.val = (i 0).val / 2000 := rfl
  obtain ⟨e00, e01, e10, e11, e20, e21, e30, e31, e40, e41⟩ := index_facts4 t
  refine ⟨t, flush4_4 t, ?_⟩
  rw [mem_blk4]
  intro a
  match a with
  | ⟨0, _⟩ =>
    show win4_4.index t (0 : Fin 2) * 2000 ≤ (i 0).val ∧ (i 0).val < win4_4.index t (0 : Fin 2) * 2000 + 2000
    omega
  | ⟨1, _⟩ =>
    show win4_4.index t (1 : Fin 2) * 128 ≤ (i 1).val ∧ (i 1).val < win4_4.index t (1 : Fin 2) * 128 + 128
    omega

/-- Region 4 (layer 1's fused update): the output array is the fused layer of the input arrays as the region found them. -/
theorem arrAt4 (c : Dev nD) :
    (dat4 (F := Ideal) V c).arrAt 4 cfg4.N = fused (V c main_v27) (V c main_v41) (V c main_v39) (V c main_v36) :=
  (dat4 (F := Ideal) V c).arrAt_eq_of_cover 4 (fused (V c main_v27) (V c main_v41) (V c main_v39) (V c main_v36))
    (fun t _ => flushed4_eq V c t) cover4

end Cert.KernelIdeal.KRegion

end
-- ==== Proof.KChain2.lean ====
import proofs.«419418_j44702019617436_1_alg».proof.Proof.Gen.KernelIdeal.Frame
import proofs.«419418_j44702019617436_1_alg».proof.Proof.KDefs
import proofs.«419418_j44702019617436_1_alg».proof.Proof.KChain1
import proofs.«419418_j44702019617436_1_alg».proof.Proof.KRegion3
import proofs.«419418_j44702019617436_1_alg».proof.Proof.KRegion4
set_option maxRecDepth 16384

noncomputable section

namespace Cert.KernelIdeal.KChain

open Idealize.ShloMosaic Idealize.ShloMosaic.TcCoe Idealize.SL.Sem Cert.KernelIdeal Cert.KernelIdeal.Gen Cert.Spec
open Idealize.ShloMosaic.Pipeline (Dat Cfg Window)

variable (m : (ℓ : Loc nD τ sig) → Buf (Elt Ideal) ℓ) (ρ : Dev nD → PrngReg)

/-! ## Reading the fold

Between the boundary after region 2 and the boundary after region 4 lie the slice of layer 1's neighbour weights,
region 3 (the neighbour projection), the row-taking stretch, the stretch that averages the taken rows per node and
slices layer 1's own weights and bias, and region 4 (the fused layer). A buffer's contents at a boundary are read
backwards: a host stretch that does not write it and a region whose arrays do not include it leave it as it was; a
region hands an input array back as it entered; a buffer a stretch writes is the stretch's operations applied to the
contents before the stretch; a region's output array is what its blocks compute. -/

/-- A buffer that no operation of a host stretch writes holds after the stretch what it held before. -/
local macro "host_skip" ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- From before the averaging stretch back to the boundary after region 2, for a buffer that the row-taking stretch,
    region 3 and the weight slice before it all leave alone. -/
local macro "walk10_7" m:ident ρ:ident c:ident b:ident : term =>
  `(calc W10 $m $ρ $c (Proc.devRef .tc $b)
      _ = W9 $m $ρ $c (Proc.devRef .tc $b) := host_skip hostOps4 $b
      _ = W8 $m $ρ $c (Proc.devRef .tc $b) := W9_of_ne $m $ρ $c $b (by decide)
      _ = W7 $m $ρ $c (Proc.devRef .tc $b) := host_skip hostOps3 $b)

/-- From the boundary after region 4 back to before the averaging stretch, for a buffer that region 4 and the
    averaging stretch leave alone. -/
local macro "walk12_10" m:ident ρ:ident c:ident b:ident : term =>
  `(calc W12 $m $ρ $c (Proc.devRef .tc $b)
      _ = W11 $m $ρ $c (Proc.devRef .tc $b) := W12_of_ne $m $ρ $c $b (by decide)
      _ = W10 $m $ρ $c (Proc.devRef .tc $b) := host_skip hostOps4_1 $b)

/-! ### What the host stretches write, from any contents `V` before them

The row-taking stretch is an inlined function: its operations carry each value at the type the function gives it and
move it to and from its buffer's own type. For a literal buffer the two types are the same, so the moves are
identities. -/

/-- Contents moved to a typed buffer's own type and back are the contents. -/
theorem l1_ofBuf_toBuf {T : BufTy} (x : StableHlo.TRef sig T) (v : T.Contents (Elt Ideal)) : x.ofBuf (x.toBuf v) = v := by
  obtain ⟨r, h, _, _⟩ := x
  subst h
  rfl

/-- The three buffers where the stretch meets the rest of the program: the sources and region 3's output, which it
    reads, and the taken rows, which it writes. -/
theorem l1_ofBuf_v1 (p1 p2 p3) (u : (main_v1 : Ref sig .tc).ty.Contents (Elt Ideal)) :
    StableHlo.TRef.ofBuf (StableHlo.TRef.of (T := ⟨S800000, .i32⟩) main_v1 p1 p2 p3) u = u := rfl
theorem l1_ofBuf_v30 (p1 p2 p3) (u : (main_v30 : Ref sig .tc).ty.Contents (Elt Ideal)) :
    StableHlo.TRef.ofBuf (StableHlo.TRef.of (T := ⟨S50000x128, .f32⟩) main_v30 p1 p2 p3) u = u := rfl
theorem l1_toBuf_v31 (p1 p2 p3) (u : (⟨S800000x128, .f32⟩ : BufTy).Contents (Elt Ideal)) :
    StableHlo.TRef.toBuf (StableHlo.TRef.of (T := ⟨S800000x128, .f32⟩) main_v31 p1 p2 p3) u = u := rfl

section Stretches

variable (V : Valuation τ sig (Elt Ideal))

/-- The stretch before region 3 leaves layer 1's matrix of the neighbour weights in region 3's weight array. -/
theorem after3_v29 :
    StableHlo.after hostOps3 V (Proc.devRef .tc main_v29) = KVal.mat1 (V (Proc.devRef .tc main_arg6)) := by
  after_results
  rfl

/-- The row-taking stretch leaves, per edge, the row of region 3's output that the edge's source names. -/
theorem after4_v31 :
    StableHlo.after hostOps4 V (Proc.devRef .tc main_v31)
      = KVal.take (V (Proc.devRef .tc main_v30)) (V (Proc.devRef .tc main_v1)) := by
  after_results_simp
  simp only [l1_ofBuf_toBuf, l1_ofBuf_v1, l1_ofBuf_v30, l1_toBuf_v31]
  unfold KVal.take KVal.inRange KVal.idxCol KVal.wrapIdx
  rfl

/-- The averaging stretch leaves the mean message per node, once the destinations and the degrees it reads are those of
    the edge table `ei`. -/
theorem after41_v36 (ei : IVec S2x800000 32) (hd : V (Proc.devRef .tc main_v3) = KVal.dst ei)
    (hc : V (Proc.devRef .tc main_v9) = KVal.cnt ei) :
    StableHlo.after hostOps4_1 V (Proc.devRef .tc main_v36) = KVal.agg (V (Proc.devRef .tc main_v31)) ei := by
  after_results
  rw [hd, hc]
  rfl

/-- The same stretch leaves layer 1's own bias vector as a row … -/
theorem after41_v39 :
    StableHlo.after hostOps4_1 V (Proc.devRef .tc main_v39)
      = KVal.biasRow (KVal.vec1 (V (Proc.devRef .tc main_arg5))) := by
  after_results
  rfl

/-- … and layer 1's matrix of the own weights. -/
theorem after41_v41 :
    StableHlo.after hostOps4_1 V (Proc.devRef .tc main_v41) = KVal.mat1 (V (Proc.devRef .tc main_arg4)) := by
  after_results
  rfl

end Stretches

/-! ### The buffers the layer reads, before the averaging stretch and before the row-taking stretch -/

theorem w10_v3 (c : Dev nD) :
    W10 m ρ c (Proc.devRef .tc main_v3) = KVal.dst (m ((c : Thread nD τ).loc main_arg1)) :=
  (walk10_7 m ρ c main_v3).trans (At7.keep_dst m ρ c)

theorem w10_v9 (c : Dev nD) :
    W10 m ρ c (Proc.devRef .tc main_v9) = KVal.cnt (m ((c : Thread nD τ).loc main_arg1)) :=
  (walk10_7 m ρ c main_v9).trans (At7.keep_cnt m ρ c)

theorem w10_arg4 (c : Dev nD) :
    W10 m ρ c (Proc.devRef .tc main_arg4) = m ((c : Thread nD τ).loc main_arg4) :=
  (walk10_7 m ρ c main_arg4).trans (At7.keep_arg4 m ρ c)

theorem w10_arg5 (c : Dev nD) :
    W10 m ρ c (Proc.devRef .tc main_arg5) = m ((c : Thread nD τ).loc main_arg5) :=
  (walk10_7 m ρ c main_arg5).trans (At7.keep_arg5 m ρ c)

theorem w10_arg6 (c : Dev nD) :
    W10 m ρ c (Proc.devRef .tc main_arg6) = m ((c : Thread nD τ).loc main_arg6) :=
  (walk10_7 m ρ c main_arg6).trans (At7.keep_arg6 m ρ c)

theorem w10_v1 (c : Dev nD) :
    W10 m ρ c (Proc.devRef .tc main_v1) = KVal.src (m ((c : Thread nD τ).loc main_arg1)) :=
  (walk10_7 m ρ c main_v1).trans (At7.keep_src m ρ c)

/-- The sources are not touched by the row-taking stretch either way: before it they are the edge table's row 0. -/
theorem w9_v1 (c : Dev nD) :
    W9 m ρ c (Proc.devRef .tc main_v1) = KVal.src (m ((c : Thread nD τ).loc main_arg1)) :=
  calc W9 m ρ c (Proc.devRef .tc main_v1)
    _ = W8 m ρ c (Proc.devRef .tc main_v1) := W9_of_ne m ρ c main_v1 (by decide)
    _ = W7 m ρ c (Proc.devRef .tc main_v1) := host_skip hostOps3 main_v1
    _ = _ := At7.keep_src m ρ c

/-! ### Region 3: the neighbour projection of the state after region 2 -/

theorem w8_v27 (c : Dev nD) : W8 m ρ c (Proc.devRef .tc main_v27) = W7 m ρ c (Proc.devRef .tc main_v27) :=
  host_skip hostOps3 main_v27

theorem w8_v12 (c : Dev nD) : W8 m ρ c (Proc.devRef .tc main_v12) = KVal.zeroRow :=
  (host_skip hostOps3 main_v12).trans (At7.keep_zero m ρ c)

theorem w8_v29 (c : Dev nD) :
    W8 m ρ c (Proc.devRef .tc main_v29) = KVal.mat1 (m ((c : Thread nD τ).loc main_arg6)) :=
  (after3_v29 (W7 m ρ c)).trans (congrArg KVal.mat1 (At7.keep_arg6 m ρ c))

/-- Region 3's output: the state after region 2 times layer 1's neighbour weights, with the zero bias row. -/
theorem w9_v30 (c : Dev nD) :
    W9 m ρ c (Proc.devRef .tc main_v30)
      = linear (W7 m ρ c (Proc.devRef .tc main_v27)) (KVal.mat1 (m ((c : Thread nD τ).loc main_arg6))) KVal.zeroRow :=
  calc W9 m ρ c (Proc.devRef .tc main_v30)
    _ = (dat3 (V8 m ρ) c).arrAt 3 cfg3.N := W9_arr m ρ c 3
    _ = linear (V8 m ρ c main_v27) (V8 m ρ c main_v29) (V8 m ρ c main_v12) := KRegion.arrAt3 (V8 m ρ) c
    _ = _ := by
      show linear (W8 m ρ c (Proc.devRef .tc main_v27)) (W8 m ρ c (Proc.devRef .tc main_v29))
        (W8 m ρ c (Proc.devRef .tc main_v12)) = _
      rw [w8_v27, w8_v29, w8_v12]

/-! ### The taken rows and their mean per node -/

theorem w10_v31 (c : Dev nD) :
    W10 m ρ c (Proc.devRef .tc main_v31)
      = KVal.take (linear (W7 m ρ c (Proc.devRef .tc main_v27)) (KVal.mat1 (m ((c : Thread nD τ).loc main_arg6))) KVal.zeroRow)
          (KVal.src (m ((c : Thread nD τ).loc main_arg1))) :=
  (after4_v31 (W9 m ρ c)).trans (by rw [w9_v30, w9_v1])

theorem w11_v36 (c : Dev nD) :
    W11 m ρ c (Proc.devRef .tc main_v36)
      = KVal.agg (KVal.take (linear (W7 m ρ c (Proc.devRef .tc main_v27)) (KVal.mat1 (m ((c : Thread nD τ).loc main_arg6))) KVal.zeroRow)
          (KVal.src (m ((c : Thread nD τ).loc main_arg1)))) (m ((c : Thread nD τ).loc main_arg1)) :=
  (after41_v36 (W10 m ρ c) (m ((c : Thread nD τ).loc main_arg1)) (w10_v3 m ρ c) (w10_v9 m ρ c)).trans
    (by rw [w10_v31])

/-! ### Region 4's other inputs -/

theorem w11_v39 (c : Dev nD) :
    W11 m ρ c (Proc.devRef .tc main_v39) = KVal.biasRow (KVal.vec1 (m ((c : Thread nD τ).loc main_arg5))) :=
  (after41_v39 (W10 m ρ c)).trans (by rw [w10_arg5])

theorem w11_v41 (c : Dev nD) :
    W11 m ρ c (Proc.devRef .tc main_v41) = KVal.mat1 (m ((c : Thread nD τ).loc main_arg4)) :=
  (after41_v41 (W10 m ρ c)).trans (by rw [w10_arg4])

/-- The state after region 2 reaches region 4 unchanged: neither stretch writes it and region 3 only reads it. -/
theorem w11_v27 (c : Dev nD) : W11 m ρ c (Proc.devRef .tc main_v27) = W7 m ρ c (Proc.devRef .tc main_v27) :=
  calc W11 m ρ c (Proc.devRef .tc main_v27)
    _ = W10 m ρ c (Proc.devRef .tc main_v27) := host_skip hostOps4_1 main_v27
    _ = W9 m ρ c (Proc.devRef .tc main_v27) := host_skip hostOps4 main_v27
    _ = W8 m ρ c (Proc.devRef .tc main_v27) :=
        (W9_arr m ρ c 0).trans (((dat3 (V8 m ρ) c).arrAt_in 0 rfl _).trans (A_eq3 (V8 m ρ) c 0))
    _ = W7 m ρ c (Proc.devRef .tc main_v27) := host_skip hostOps3 main_v27

/-- After region 4 the state array is layer 1 of the state after region 2 and the launch arguments. -/
theorem stage2 (c : Dev nD) :
    (W12 m ρ c (Proc.devRef .tc main_v42)) = KVal.layer (W7 m ρ c (Proc.devRef .tc main_v27)) (m ((c : Thread nD τ).loc main_arg1)) (KVal.mat1 (m ((c : Thread nD τ).loc main_arg6))) (KVal.mat1 (m ((c : Thread nD τ).loc main_arg4))) (KVal.vec1 (m ((c : Thread nD τ).loc main_arg5))) :=
  calc W12 m ρ c (Proc.devRef .tc main_v42)
    _ = (dat4 (V11 m ρ) c).arrAt 4 cfg4.N := W12_arr m ρ c 4
    _ = fused (V11 m ρ c main_v27) (V11 m ρ c main_v41) (V11 m ρ c main_v39) (V11 m ρ c main_v36) :=
        KRegion.arrAt4 (V11 m ρ) c
    _ = _ := by
      show fused (W11 m ρ c (Proc.devRef .tc main_v27)) (W11 m ρ c (Proc.devRef .tc main_v41))
        (W11 m ρ c (Proc.devRef .tc main_v39)) (W11 m ρ c (Proc.devRef .tc main_v36)) = _
      rw [w11_v27, w11_v41, w11_v39, w11_v36]
      rfl

/-! ## What the last layer reads at the boundary after region 4 -/
namespace At12
theorem keep_src (c : Dev nD) : (W12 m ρ c (Proc.devRef .tc main_v1)) = KVal.src (m ((c : Thread nD τ).loc main_arg1)) :=
  (walk12_10 m ρ c main_v1).trans (w10_v1 m ρ c)
theorem keep_dst (c : Dev nD) : (W12 m ρ c (Proc.devRef .tc main_v3)) = KVal.dst (m ((c : Thread nD τ).loc main_arg1)) :=
  (walk12_10 m ρ c main_v3).trans (w10_v3 m ρ c)
theorem keep_cnt (c : Dev nD) : (W12 m ρ c (Proc.devRef .tc main_v9)) = KVal.cnt (m ((c : Thread nD τ).loc main_arg1)) :=
  (walk12_10 m ρ c main_v9).trans (w10_v9 m ρ c)
theorem keep_arg4 (c : Dev nD) : (W12 m ρ c (Proc.devRef .tc main_arg4)) = m ((c : Thread nD τ).loc main_arg4) :=
  (walk12_10 m ρ c main_arg4).trans (w10_arg4 m ρ c)
theorem keep_arg5 (c : Dev nD) : (W12 m ρ c (Proc.devRef .tc main_arg5)) = m ((c : Thread nD τ).loc main_arg5) :=
  (walk12_10 m ρ c main_arg5).trans (w10_arg5 m ρ c)
theorem keep_arg6 (c : Dev nD) : (W12 m ρ c (Proc.devRef .tc main_arg6)) = m ((c : Thread nD τ).loc main_arg6) :=
  (walk12_10 m ρ c main_arg6).trans (w10_arg6 m ρ c)
/-- The zero bias row is an input array of region 3, which hands it back as it entered; nothing else writes it. -/
theorem keep_zero (c : Dev nD) : (W12 m ρ c (Proc.devRef .tc main_v12)) = KVal.zeroRow :=
  calc W12 m ρ c (Proc.devRef .tc main_v12)
    _ = W11 m ρ c (Proc.devRef .tc main_v12) := W12_of_ne m ρ c main_v12 (by decide)
    _ = W10 m ρ c (Proc.devRef .tc main_v12) := host_skip hostOps4_1 main_v12
    _ = W9 m ρ c (Proc.devRef .tc main_v12) := host_skip hostOps4 main_v12
    _ = W8 m ρ c (Proc.devRef .tc main_v12) :=
        (W9_arr m ρ c 2).trans (((dat3 (V8 m ρ) c).arrAt_in 2 rfl _).trans (A_eq3 (V8 m ρ) c 2))
    _ = _ := w8_v12 m ρ c
end At12

end Cert.KernelIdeal.KChain

end
-- ==== Proof.KRegion5.lean ====
/-
  Region 5, layer 2's neighbour projection, from blocks to the whole array.

  The grid has 25 points. Point t stages rows 2000 t … 2000 t + 1999 of the 50000 × 128 table, the whole 128 × 128
  weight matrix and the whole 1 × 128 bias row, and writes back rows 2000 t … 2000 t + 1999 of the 50000 × 128
  output. The body's arithmetic on its blocks is a linear layer; an entry of a linear layer depends on one row of
  the table only, so the block a point writes is that block of the linear layer of the whole arrays; the 25 blocks
  fill the output array.
-/
import proofs.«419418_j44702019617436_1_alg».proof.Proof.Gen.KernelIdeal.Frame
import proofs.«419418_j44702019617436_1_alg».proof.Proof.KDefs
import Idealize.ShloMosaic.Lib.ValueIdx
import Idealize.ShloMosaic.Lib.ValueLayout
import Idealize.ShloMosaic.Lib.Pipeline.Value

set_option maxRecDepth 16384

noncomputable section

namespace Cert.KernelIdeal.KRegion

open Idealize.ShloMosaic Idealize.ShloMosaic.TcCoe Idealize.SL.Sem Cert.KernelIdeal Cert.KernelIdeal.Gen Cert.Spec
open Idealize.ShloMosaic.Pipeline (Dat Cfg Window)
open Idealize.ShloMosaic.ValueIdx

variable (V : (c : Dev nD) → (b : Ref sig .tc) → Buf (Elt Ideal) ((c : Thread nD τ).loc b))

/-- A whole-buffer rectangle starts at offset zero on both axes. -/
theorem zeroOff_r5 : (![0, 0] : Fin 2 → Nat) = fun _ => 0 :=
  funext fun a => by match a with | ⟨0, _⟩ => rfl | ⟨1, _⟩ => rfl

/-- The body's arithmetic on its three loaded blocks, entry by entry: the row block and the weight matrix are each
    cast to their own shape, which changes nothing; their product into a zero accumulator is the sum over the shared
    axis (narrowing the operands changes nothing over the extended reals); and the bias row, cast to its own shape and
    repeated down the rows, is added. That is the linear layer of the three blocks. -/
theorem pay_r5 (x0 : Mat 2000 128) (x1 : Mat 128 128) (x2 : Mat 1 128) :
    k5_pay1 (F := Ideal) x0 x1 x2 = linear x0 x1 x2 := by
  funext j
  obtain ⟨p, q, rfl⟩ : ∃ (p : Fin 2000) (q : Fin 128), j = ix2 p q := ⟨j 0, j 1, eq_ix2 j⟩
  unfold k5_pay1
  refine (addf_apply _ _ (ix2 p q)).trans ?_
  refine congrArg₂ (· + ·) ?_ ?_
  · refine (matmul_zero_apply dot_S2000x128_S128x128_S2000x128_1_0_0_1_n_n rfl rfl rfl rfl none _ _ (ix2 p q)).trans ?_
    exact congrArg₂ (fun a b => dotRows a b (ix2 p q)) (shapeCast_self x0 _) (shapeCast_self x1 _)
  · refine (broadcastTo_1b_ab_apply _ _ p q).trans ?_
    exact congrFun (shapeCast_self x2 _) (ix2 (0 : Fin 1) q)

/-- The printed index maps over the 25 grid points: the two row-block windows (the input table and the output)
    sit at block t on the row axis and block 0 on the column axis; the weight and the bias window are one block
    each, at block 0 on both axes. -/
theorem idx_r5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- An entry of a linear layer depends on one row of the table, one column of the matrix and one entry of the
    bias row: two layers agree at two entries where those agree. -/
theorem linear_entry_r5 (x : Mat 2000 128) (X : Mat 50000 128) (w W : Mat 128 128) (b B : Mat 1 128)
    (p : Fin 2000) (r : Fin 50000) (q : Fin 128)
    (hx : ∀ k : Fin 128, x (ix2 p k) = X (ix2 r k)) (hw : ∀ k : Fin 128, w (ix2 k q) = W (ix2 k q))
    (hb : b (ix2 0 q) = B (ix2 0 q)) :
    linear x w b (ix2 p q) = linear X W B (ix2 r q) := by
  show (∑ k : Fin 128, x (ix2 p k) * w (ix2 k q)) + b (ix2 0 q) = (∑ k : Fin 128, X (ix2 r k) * W (ix2 k q)) + B (ix2 0 q)
  rw [hb]
  exact congrArg (· + B (ix2 0 q)) (Finset.sum_congr rfl fun k _ => by rw [hx k, hw k])

/-- What grid point t writes back is block t of the linear layer of the three arrays: the point's row block of the
    table is rows 2000 t … 2000 t + 1999 of the table, its weight and bias blocks are the whole matrix and the whole
    bias row, and the output block's rows are the same rows 2000 t …. -/
theorem flushed_r5 (c : Dev nD) (t : Fin cfg5.N) :
    (dat5 (F := Ideal) V c).flushed 3 t
      = ((cfg5.win 3).blk t).view.read (Elt Ideal) (linear (V c main_v42) (V c main_v44) (V c main_v12)) := by
  show (cfg5.win 3).cut (grid5.coords t) ((dat5 (F := Ideal) V c).after 3 t) = _
  rw [after5_3]
  unfold out5_3
  rw [View.canon_unit_zero zeroOff_r5]
  simp only [View.ld_unit_zero (S := S2000x128) zeroOff_r5, View.ld_unit_zero (S := S128x128) zeroOff_r5,
    View.ld_unit_zero (S := S1x128) zeroOff_r5]
  refine (pay_r5 (iblk5 V c 0 t) (iblk5 V c 1 t) (iblk5 V c 2 t)).trans ?_
  obtain ⟨e0, e1, e2, e3, e4, e5, e6, e7⟩ := idx_r5 t
  have ht : t.val < 25 := lt_of_lt_of_eq t.isLt N_5
  funext j
  obtain ⟨p, q, rfl⟩ : ∃ (p : Fin 2000) (q : Fin 128), j = ix2 p q := ⟨j 0, j 1, eq_ix2 j⟩
  have hp : p.val < 2000 := p.isLt
  have he : ((cfg5.win 3).blk t).view.emb (ix2 p q) = ix2 (⟨t.val * 2000 + p.val, by omega⟩ : Fin 50000) q := by
    funext a; apply Fin.ext
    match a with
    | ⟨0, _⟩ => show win5_3.index t (0 : Fin 2) * 2000 + 1 * p.val = t.val * 2000 + p.val; omega
    | ⟨1, _⟩ => show win5_3.index t (1 : Fin 2) * 128 + 1 * q.val = q.val; omega
  refine Eq.trans (linear_entry_r5 (iblk5 V c 0 t) (V c main_v42) (iblk5 V c 1 t) (V c main_v44) (iblk5 V c 2 t) (V c main_v12)
    p ⟨t.val * 2000 + p.val, by omega⟩ q ?_ ?_ ?_)
    (congrArg (linear (V c main_v42) (V c main_v44) (V c main_v12)) he.symm)
  · intro k
    show V c main_v42 (((cfg5.win 0).blk t).view.emb (ix2 p k)) = V c main_v42 (ix2 ⟨t.val * 2000 + p.val, _⟩ k)
    congr 1
    funext a; apply Fin.ext
    match a with
    | ⟨0, _⟩ => show win5_0.index t (0 : Fin 2) * 2000 + 1 * p.val = t.val * 2000 + p.val; omega
    | ⟨1, _⟩ => show win5_0.index t (1 : Fin 2) * 128 + 1 * k.val = k.val; omega
  · intro k
    show V c main_v44 (((cfg5.win 1).blk t).view.emb (ix2 k q)) = V c main_v44 (ix2 k q)
    congr 1
    funext a; apply Fin.ext
    match a with
    | ⟨0, _⟩ => show win5_1.index t (0 : Fin 2) * 128 + 1 * k.val = k.val; omega
    | ⟨1, _⟩ => show win5_1.index t (1 : Fin 2) * 128 + 1 * q.val = q.val; omega
  · show V c main_v12 (((cfg5.win 2).blk t).view.emb (ix2 (0 : Fin 1) q)) = V c main_v12 (ix2 (0 : Fin 1) q)
    congr 1
    funext a; apply Fin.ext
    match a with
    | ⟨0, _⟩ => show win5_2.index t (0 : Fin 2) * 1 + 1 * (0 : Fin 1).val = (0 : Fin 1).val; omega
    | ⟨1, _⟩ => show win5_2.index t (1 : Fin 2) * 128 + 1 * q.val = q.val; omega

/-- An index of the output array lies in point t's block exactly when each coordinate lies in the block's range. -/
theorem mem_blk_r5 (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v45).slice (win5_3.rect t)).set ↔ _
  rw [View.set_slice_whole, Rect.mem_set_unit]
  exact Iff.rfl

/-- The 25 row blocks of 2000 rows fill the 50000 × 128 array: row r lies in the block of point r / 2000. -/
theorem cover_r5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ : ∃ t : Fin cfg5.N, t.val = (i 0).val / 2000 :=
    ⟨⟨(i 0).val / 2000, lt_of_lt_of_eq (by omega : (i 0).val / 2000 < 25) N_5.symm⟩, rfl⟩
  obtain ⟨e0, e1, e2, e3, e4, e5, e6, e7⟩ := idx_r5 t
  refine ⟨t, flush5_3 t, ?_⟩
  rw [mem_blk_r5]
  intro a
  match a with
  | ⟨0, _⟩ =>
    show win5_3.index t (0 : Fin 2) * 2000 ≤ (i 0).val ∧ (i 0).val < win5_3.index t (0 : Fin 2) * 2000 + 2000
    omega
  | ⟨1, _⟩ =>
    show win5_3.index t (1 : Fin 2) * 128 ≤ (i 1).val ∧ (i 1).val < win5_3.index t (1 : Fin 2) * 128 + 128
    omega

/-- Region 5 (layer 2's neighbour projection): the output array is the linear layer of the input arrays as the region found them. -/
theorem arrAt5 (c : Dev nD) :
    (dat5 (F := Ideal) V c).arrAt 3 cfg5.N = linear (V c main_v42) (V c main_v44) (V c main_v12) :=
  (dat5 (F := Ideal) V c).arrAt_eq_of_cover 3 (linear (V c main_v42) (V c main_v44) (V c main_v12))
    (fun t _ => flushed_r5 V c t) cover_r5

end Cert.KernelIdeal.KRegion

end
-- ==== Proof.KRegion6.lean ====
import proofs.«419418_j44702019617436_1_alg».proof.Proof.Gen.KernelIdeal.Frame
import proofs.«419418_j44702019617436_1_alg».proof.Proof.KDefs
import Idealize.ShloMosaic.Lib.ValueIdx
import Idealize.ShloMosaic.Lib.ValueLayout
import Idealize.ShloMosaic.Lib.Pipeline.Value

set_option maxRecDepth 16384

noncomputable section

namespace Cert.KernelIdeal.KRegion

open Idealize.ShloMosaic Idealize.ShloMosaic.TcCoe Idealize.SL.Sem Cert.KernelIdeal Cert.KernelIdeal.Gen Cert.Spec
open Idealize.ShloMosaic.Pipeline (Dat Cfg Window)
open Idealize.ShloMosaic.ValueIdx

/-! ## The body's arithmetic on one block

The body multiplies a 2000-row block of node states by the 128 × 128 weights, adds the bias row to every row and
the block of aggregated messages entry by entry, and applies the exponential linear unit. -/

/-- The value the unit is applied to, as the body computes it from the four loaded blocks: the product into a zero
    accumulator, plus the bias row spread over the rows, plus the aggregate block. -/
def pre6 (x0 : Vec Ideal S2000x128 .f32) (x1 : Vec Ideal S128x128 .f32) (x2 : Vec Ideal S1x128 .f32)
    (x3 : Vec Ideal S2000x128 .f32) : FVec Ideal S2000x128 .f32 :=
  addf
    (addf
      (matmul dot_S2000x128_S128x128_S2000x128_1_0_0_1_n_n none
        (truncf .bf16 (shapeCast S2000x128 x0 shapeCasts_S2000x128_S2000x128) bitsLt_bf16_f32)
        (truncf .bf16 (shapeCast S128x128 x1 shapeCasts_S128x128_S128x128) bitsLt_bf16_f32)
        (constant S2000x128 .f32 0x00000000#32))
      (broadcastTo S2000x128 (shapeCast S1x128 x2 shapeCasts_S1x128_S1x128) broadcasts_S1x128_S2000x128))
    (shapeCast S2000x128 x3 shapeCasts_S2000x128_S2000x128)

/-- The body's result is the unit applied to that value: the comparison with zero, the exponential and the
    subtraction of one are the unit's own three operations, on the same operand. -/
theorem pay6_eq_elu (x0 : Vec Ideal S2000x128 .f32) (x1 : Vec Ideal S128x128 .f32) (x2 : Vec Ideal S1x128 .f32)
    (x3 : Vec Ideal S2000x128 .f32) : k6_pay1 (F := Ideal) x0 x1 x2 x3 = elu (M := 2000) (N := 128) (pre6 x0 x1 x2 x3) := rfl

/-- Entry (p, q) of that value: row p of the block times column q of the weights, plus entry q of the bias row, plus
    entry (p, q) of the aggregate block. The reshapes to the same shape and the narrowing of the factors change
    nothing over the extended reals. -/
theorem pre6_apply (x0 : Vec Ideal S2000x128 .f32) (x1 : Vec Ideal S128x128 .f32) (x2 : Vec Ideal S1x128 .f32)
    (x3 : Vec Ideal S2000x128 .f32) (p : Fin 2000) (q : Fin 128) :
    pre6 x0 x1 x2 x3 (ix2 p q)
      = dotRows (M := 2000) (K := 128) (N := 128) x0 x1 (ix2 p q) + x2 (ix2 (0 : Fin 1) q) + x3 (ix2 p q) := by
  unfold pre6
  rw [addf_apply, addf_apply, shapeCast_self, shapeCast_self, shapeCast_self, shapeCast_self, broadcastTo_1b_ab_apply,
    matmul_zero_apply (M := 2000) (K := 128) (N := 128) dot_S2000x128_S128x128_S2000x128_1_0_0_1_n_n rfl rfl rfl rfl]
  rfl

/-- The unit at an index looks only at its operand's entry there. -/
theorem elu_congr6 {M N M' N' : ℕ} (P : Mat M N) (P' : Mat M' N') (i : (⟨2, ![M, N]⟩ : Shape).Idx)
    (i' : (⟨2, ![M', N']⟩ : Shape).Idx) (h : P i = P' i') : elu P i = elu P' i' := by
  show Scalar.select (FloatOps.cmpf .ogt (P i) _) (P i) (FloatOps.exp (P i) - _)
    = Scalar.select (FloatOps.cmpf .ogt (P' i') _) (P' i') (FloatOps.exp (P' i') - _)
  rw [h]
  rfl

/-- THE BODY ON ONE BLOCK IS THE LAYER ON THE ARRAYS, ROW BY ROW: when row p of the state block is row (i 0) of the
    state array, the weights and the bias row are the arrays' own, and entry (p, q) of the aggregate block is entry i
    of the aggregate array, with q the column of i, then entry (p, q) of the body's result is entry i of the fused
    layer of the arrays. -/
theorem pay6_rows (H : Mat 50000 128) (W : Mat 128 128) (B : Mat 1 128) (G : Mat 50000 128)
    (x0 : Vec Ideal S2000x128 .f32) (x1 : Vec Ideal S128x128 .f32) (x2 : Vec Ideal S1x128 .f32)
    (x3 : Vec Ideal S2000x128 .f32) (p : Fin 2000) (q : Fin 128) (i : S50000x128.Idx)
    (h0 : ∀ k : Fin 128, x0 (ix2 p k) = H (ix2 (i 0) k)) (h1 : x1 = W) (h2 : x2 = B) (h3 : x3 (ix2 p q) = G i)
    (hq : i 1 = q) :
    k6_pay1 (F := Ideal) x0 x1 x2 x3 (ix2 p q) = fused H W B G i := by
  rw [pay6_eq_elu]
  refine elu_congr6 (pre6 x0 x1 x2 x3) (addf (linear H W B) G) (ix2 p q) i ?_
  rw [pre6_apply, addf_apply, h1, h2, h3]
  show dotRows x0 W (ix2 p q) + B (ix2 (0 : Fin 1) q) + G i = dotRows H W i + B (ix2 0 (i 1)) + G i
  rw [hq]
  congr 2
  show (∑ k : Fin 128, x0 (ix2 p k) * W (ix2 k q)) = ∑ k : Fin 128, H (ix2 (i 0) k) * W (ix2 k (i 1))
  rw [hq]
  exact Finset.sum_congr rfl fun k _ => by rw [h0 k]

variable (V : (c : Dev nD) → (b : Ref sig .tc) → Buf (Elt Ideal) ((c : Thread nD τ).loc b))

/-! ## From the blocks to the array

The grid has 25 points. Point t stages rows 2000·t … 2000·t + 1999 of the state array and of the aggregate array, the
whole weights and the whole bias row, and writes back rows 2000·t … 2000·t + 1999 of the output. -/

theorem zero_offset6 : (![0, 0] : Fin 2 → Nat) = fun _ => 0 := funext fun a => by fin_cases a <;> rfl

/-- The printed index maps, decided over the grid: the state, aggregate and output windows are at row block t, column
    block 0; the weight and bias windows stay at block (0, 0). -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- WHAT POINT t WRITES BACK is block t of the fused layer of the arrays as the region finds them. -/
theorem flushed6_eq (c : Dev nD) (t : Fin cfg6.N) :
    (dat6 (F := Ideal) V c).flushed 4 t
      = ((cfg6.win 4).blk t).view.read (Elt Ideal) (fused (V c main_v42) (V c main_v56) (V c main_v54) (V c main_v51)) := by
  show (cfg6.win 4).cut (grid6.coords t) ((dat6 (F := Ideal) V c).after 4 t) = _
  rw [after6_4]
  unfold out6_4
  rw [View.canon_unit_zero zero_offset6]
  simp only [View.ld_unit_zero (S := S2000x128) zero_offset6, View.ld_unit_zero (S := S128x128) zero_offset6,
    View.ld_unit_zero (S := S1x128) zero_offset6]
  obtain ⟨e00, e01, e10, e11, e20, e21, e30, e31, e40, e41⟩ := index_facts6 t
  funext j
  obtain ⟨p, q, rfl⟩ : ∃ (p : Fin 2000) (q : Fin 128), j = ix2 p q := ⟨j 0, j 1, eq_ix2 j⟩
  refine pay6_rows (V c main_v42) (V c main_v56) (V c main_v54) (V c main_v51)
    (iblk6 V c 0 t) (iblk6 V c 1 t) (iblk6 V c 2 t) (iblk6 V c 3 t) p q (((cfg6.win 4).blk t).view.emb (ix2 p q))
    ?_ ?_ ?_ ?_ ?_
  · intro k
    show V c main_v42 (((cfg6.win 0).blk t).view.emb (ix2 p k)) = V c main_v42 _
    refine congrArg (V c main_v42) (funext fun a => Fin.ext ?_)
    match a with
    | ⟨0, _⟩ =>
      show win6_0.index t (0 : Fin 2) * 2000 + 1 * p.val = win6_4.index t (0 : Fin 2) * 2000 + 1 * p.val
      omega
    | ⟨1, _⟩ =>
      show win6_0.index t (1 : Fin 2) * 128 + 1 * k.val = k.val
      omega
  · funext y
    show V c main_v56 (((cfg6.win 1).blk t).view.emb y) = V c main_v56 y
    refine congrArg (V c main_v56) (funext fun a => Fin.ext ?_)
    match a with
    | ⟨0, _⟩ => show win6_1.index t (0 : Fin 2) * 128 + 1 * (y 0).val = (y 0).val; omega
    | ⟨1, _⟩ => show win6_1.index t (1 : Fin 2) * 128 + 1 * (y 1).val = (y 1).val; omega
  · funext y
    show V c main_v54 (((cfg6.win 2).blk t).view.emb y) = V c main_v54 y
    refine congrArg (V c main_v54) (funext fun a => Fin.ext ?_)
    match a with
    | ⟨0, _⟩ => show win6_2.index t (0 : Fin 2) * 1 + 1 * (y 0).val = (y 0).val; omega
    | ⟨1, _⟩ => show win6_2.index t (1 : Fin 2) * 128 + 1 * (y 1).val = (y 1).val; omega
  · show V c main_v51 (((cfg6.win 3).blk t).view.emb (ix2 p q)) = V c main_v51 _
    refine congrArg (V c main_v51) (funext fun a => Fin.ext ?_)
    match a with
    | ⟨0, _⟩ =>
      show win6_3.index t (0 : Fin 2) * 2000 + 1 * p.val = win6_4.index t (0 : Fin 2) * 2000 + 1 * p.val
      omega
    | ⟨1, _⟩ =>
      show win6_3.index t (1 : Fin 2) * 128 + 1 * q.val = win6_4.index t (1 : Fin 2) * 128 + 1 * q.val
      omega
  · apply Fin.ext
    show win6_4.index t (1 : Fin 2) * 128 + 1 * q.val = q.val
    omega

/-- An index of the output array is in point t's block iff each coordinate is in the block's range on its axis. -/
theorem mem_blk6 (t : Fin cfg6.N) (i : S50000x128.Idx) :
    i ∈ ((cfg6.win 4).blk t).view.set ↔ ∀ a : Fin 2, win6_4.index t a * S2000x128.size a ≤ (i a).val
      ∧ (i a).val < win6_4.index t a * S2000x128.size a + S2000x128.size a := by
  show i ∈ ((View.whole main_v57).slice (win6_4.rect t)).set ↔ _
  rw [View.set_slice_whole, Rect.mem_set_unit]
  exact Iff.rfl

/-- EVERY INDEX IS WRITTEN BACK BY SOME POINT: row r lies in the block of point r / 2000, and 25 blocks of 2000 rows
    fill the 50000 rows. -/
theorem cover6 (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 25 := N_6
  let t : Fin cfg6.N := ⟨(i 0).val / 2000, by rw [hN]; omega⟩
  have ht : t.val = (i 0).val / 2000 := rfl
  obtain ⟨e00, e01, e10, e11, e20, e21, e30, e31, e40, e41⟩ := index_facts6 t
  refine ⟨t, flush6_4 t, ?_⟩
  rw [mem_blk6]
  intro a
  match a with
  | ⟨0, _⟩ =>
    show win6_4.index t (0 : Fin 2) * 2000 ≤ (i 0).val ∧ (i 0).val < win6_4.index t (0 : Fin 2) * 2000 + 2000
    omega
  | ⟨1, _⟩ =>
    show win6_4.index t (1 : Fin 2) * 128 ≤ (i 1).val ∧ (i 1).val < win6_4.index t (1 : Fin 2) * 128 + 128
    omega

/-- Region 6 (layer 2's fused update): the output array is the fused layer of the input arrays as the region found them. -/
theorem arrAt6 (c : Dev nD) :
    (dat6 (F := Ideal) V c).arrAt 4 cfg6.N = fused (V c main_v42) (V c main_v56) (V c main_v54) (V c main_v51) :=
  (dat6 (F := Ideal) V c).arrAt_eq_of_cover 4 (fused (V c main_v42) (V c main_v56) (V c main_v54) (V c main_v51))
    (fun t _ => flushed6_eq V c t) cover6

end Cert.KernelIdeal.KRegion

end
-- ==== Proof.KChain3.lean ====
import proofs.«419418_j44702019617436_1_alg».proof.Proof.Gen.KernelIdeal.Frame
import proofs.«419418_j44702019617436_1_alg».proof.Proof.KDefs
import proofs.«419418_j44702019617436_1_alg».proof.Proof.KChain2
import proofs.«419418_j44702019617436_1_alg».proof.Proof.KRegion5
import proofs.«419418_j44702019617436_1_alg».proof.Proof.KRegion6
set_option maxRecDepth 16384

noncomputable section

namespace Cert.KernelIdeal.KChain

open Idealize.ShloMosaic Idealize.ShloMosaic.TcCoe Idealize.SL.Sem Cert.KernelIdeal Cert.KernelIdeal.Gen Cert.Spec
open Idealize.ShloMosaic.Pipeline (Dat Cfg Window)

variable (m : (ℓ : Loc nD τ sig) → Buf (Elt Ideal) ℓ) (ρ : Dev nD → PrngReg)

/-- A buffer that no operation of a host stretch writes holds after the stretch what it held before. -/
local macro "host_keeps" : tactic =>
  `(tactic| (refine StableHlo.after_of_forall_not_mem _ _ (List.forall_iff_forall_mem.mp ?_)
             simp only [hostOps5, hostOps6, hostOps6_1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

namespace Stage3

/-! ### Buffers the last layer only reads: each still holds what it held after region 4 -/

/-- The state after region 4 is untouched by the neighbour-weight slice. -/
theorem state_13 (c : Dev nD) :
    W13 m ρ c (Proc.devRef .tc main_v42) = W12 m ρ c (Proc.devRef .tc main_v42) := by
  host_keeps

/-- Region 5 only reads the state: it leaves it as entered. -/
theorem state_14 (c : Dev nD) :
    W14 m ρ c (Proc.devRef .tc main_v42) = W12 m ρ c (Proc.devRef .tc main_v42) :=
  ((W14_arr m ρ c 0).trans (((dat5 (V13 m ρ) c).arrAt_in 0 rfl _).trans (A_eq5 (V13 m ρ) c 0))).trans (state_13 m ρ c)

theorem state_15 (c : Dev nD) :
    W15 m ρ c (Proc.devRef .tc main_v42) = W12 m ρ c (Proc.devRef .tc main_v42) :=
  (show W15 m ρ c (Proc.devRef .tc main_v42) = W14 m ρ c (Proc.devRef .tc main_v42) by host_keeps).trans (state_14 m ρ c)

theorem state_16 (c : Dev nD) :
    W16 m ρ c (Proc.devRef .tc main_v42) = W12 m ρ c (Proc.devRef .tc main_v42) :=
  (show W16 m ρ c (Proc.devRef .tc main_v42) = W15 m ρ c (Proc.devRef .tc main_v42) by host_keeps).trans (state_15 m ρ c)

/-- The zero bias row at region 5's entry. -/
theorem zero_13 (c : Dev nD) : W13 m ρ c (Proc.devRef .tc main_v12) = KVal.zeroRow :=
  (show W13 m ρ c (Proc.devRef .tc main_v12) = W12 m ρ c (Proc.devRef .tc main_v12) by host_keeps).trans (At12.keep_zero m ρ c)

/-- The edges' sources at region 5's exit. -/
theorem src_14 (c : Dev nD) :
    W14 m ρ c (Proc.devRef .tc main_v1) = KVal.src (m ((c : Thread nD τ).loc main_arg1)) :=
  calc W14 m ρ c (Proc.devRef .tc main_v1)
    _ = W13 m ρ c (Proc.devRef .tc main_v1) := W14_of_ne m ρ c main_v1 (by decide)
    _ = W12 m ρ c (Proc.devRef .tc main_v1) := by host_keeps
    _ = _ := At12.keep_src m ρ c

/-- The edges' destinations after the take. -/
theorem dst_15 (c : Dev nD) :
    W15 m ρ c (Proc.devRef .tc main_v3) = KVal.dst (m ((c : Thread nD τ).loc main_arg1)) :=
  calc W15 m ρ c (Proc.devRef .tc main_v3)
    _ = W14 m ρ c (Proc.devRef .tc main_v3) := by host_keeps
    _ = W13 m ρ c (Proc.devRef .tc main_v3) := W14_of_ne m ρ c main_v3 (by decide)
    _ = W12 m ρ c (Proc.devRef .tc main_v3) := by host_keeps
    _ = _ := At12.keep_dst m ρ c

/-- The degrees after the take. -/
theorem cnt_15 (c : Dev nD) :
    W15 m ρ c (Proc.devRef .tc main_v9) = KVal.cnt (m ((c : Thread nD τ).loc main_arg1)) :=
  calc W15 m ρ c (Proc.devRef .tc main_v9)
    _ = W14 m ρ c (Proc.devRef .tc main_v9) := by host_keeps
    _ = W13 m ρ c (Proc.devRef .tc main_v9) := W14_of_ne m ρ c main_v9 (by decide)
    _ = W12 m ρ c (Proc.devRef .tc main_v9) := by host_keeps
    _ = _ := At12.keep_cnt m ρ c

/-- The stacked self weights after the take. -/
theorem arg4_15 (c : Dev nD) :
    W15 m ρ c (Proc.devRef .tc main_arg4) = m ((c : Thread nD τ).loc main_arg4) :=
  calc W15 m ρ c (Proc.devRef .tc main_arg4)
    _ = W14 m ρ c (Proc.devRef .tc main_arg4) := by host_keeps
    _ = W13 m ρ c (Proc.devRef .tc main_arg4) := W14_of_ne m ρ c main_arg4 (by decide)
    _ = W12 m ρ c (Proc.devRef .tc main_arg4) := by host_keeps
    _ = _ := At12.keep_arg4 m ρ c

/-- The stacked self biases after the take. -/
theorem arg5_15 (c : Dev nD) :
    W15 m ρ c (Proc.devRef .tc main_arg5) = m ((c : Thread nD τ).loc main_arg5) :=
  calc W15 m ρ c (Proc.devRef .tc main_arg5)
    _ = W14 m ρ c (Proc.devRef .tc main_arg5) := by host_keeps
    _ = W13 m ρ c (Proc.devRef .tc main_arg5) := W14_of_ne m ρ c main_arg5 (by decide)
    _ = W12 m ρ c (Proc.devRef .tc main_arg5) := by host_keeps
    _ = _ := At12.keep_arg5 m ρ c

/-! ### Buffers the last layer writes -/

/-- The layer's neighbour weights at region 5's entry: the third matrix of the stack. -/
theorem wn_13 (c : Dev nD) :
    W13 m ρ c (Proc.devRef .tc main_v44) = KVal.mat2 (m ((c : Thread nD τ).loc main_arg6)) := by
  have e : W13 m ρ c (Proc.devRef .tc main_v44) = KVal.mat2 (W12 m ρ c (Proc.devRef .tc main_arg6)) := by
    show StableHlo.after hostOps5 (W12 m ρ c) (Proc.devRef .tc main_v44) = _
    after_results
    rfl
  rw [e, At12.keep_arg6]

/-- Region 5 leaves the neighbour projection of the state. -/
theorem proj_14 (c : Dev nD) :
    W14 m ρ c (Proc.devRef .tc main_v45)
      = linear (W12 m ρ c (Proc.devRef .tc main_v42)) (KVal.mat2 (m ((c : Thread nD τ).loc main_arg6))) KVal.zeroRow := by
  have e : W14 m ρ c (Proc.devRef .tc main_v45)
      = linear (W13 m ρ c (Proc.devRef .tc main_v42)) (W13 m ρ c (Proc.devRef .tc main_v44))
          (W13 m ρ c (Proc.devRef .tc main_v12)) :=
    (W14_arr m ρ c 3).trans (KRegion.arrAt5 (V13 m ρ) c)
  rw [e, state_13, wn_13, zero_13]

/-! The inlined take is written over typed references: a value is moved to its buffer's own type when it is stored and
    back when it is read. Both moves are along an equation of types that holds by computation. -/

/-- Contents moved to a buffer's own type and back are the contents. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At the three literal buffers where the take meets its caller the move is the identity. -/
theorem ofBuf_v45 (h1 h2 h3) (v : main_v45.ty.Contents (Elt Ideal)) :
    (StableHlo.TRef.of (T := ⟨S50000x128, .f32⟩) main_v45 h1 h2 h3).ofBuf v = v := rfl
theorem ofBuf_v1 (h1 h2 h3) (v : main_v1.ty.Contents (Elt Ideal)) :
    (StableHlo.TRef.of (T := ⟨S800000, .i32⟩) main_v1 h1 h2 h3).ofBuf v = v := rfl
theorem toBuf_v46 (h1 h2 h3) (v : (⟨S800000x128, .f32⟩ : BufTy).Contents (Elt Ideal)) :
    (StableHlo.TRef.of (T := ⟨S800000x128, .f32⟩) main_v46 h1 h2 h3).toBuf v = v := rfl

/-- The taken edge rows: for each edge the row of the projection that its source index names, the index wrapped
    once from the end, and the fill value where it is still out of range. -/
theorem take_15 (c : Dev nD) :
    W15 m ρ c (Proc.devRef .tc main_v46)
      = KVal.take (W14 m ρ c (Proc.devRef .tc main_v45)) (W14 m ρ c (Proc.devRef .tc main_v1)) := by
  show StableHlo.after hostOps6 (W14 m ρ c) (Proc.devRef .tc main_v46) = _
  after_results_simp
  simp only [ofBuf_toBuf, ofBuf_v45, ofBuf_v1, toBuf_v46]
  unfold KVal.take KVal.inRange KVal.idxCol KVal.wrapIdx
  with_reducible rfl

/-- The mean messages: the taken rows added at the edges' destinations, over the degrees. -/
theorem agg_16 (c : Dev nD) :
    W16 m ρ c (Proc.devRef .tc main_v51)
      = KVal.agg (W15 m ρ c (Proc.devRef .tc main_v46)) (m ((c : Thread nD τ).loc main_arg1)) := by
  show StableHlo.after hostOps6_1 (W15 m ρ c) (Proc.devRef .tc main_v51) = _
  have e3 := dst_15 m ρ c
  have e9 := cnt_15 m ρ c
  generalize W15 m ρ c = V at e3 e9 ⊢
  after_results
  rw [e3, e9]
  unfold KVal.agg KVal.dstCol
  with_reducible rfl

/-- The layer's self weights: the third matrix of the stack. -/
theorem ws_16 (c : Dev nD) :
    W16 m ρ c (Proc.devRef .tc main_v56) = KVal.mat2 (m ((c : Thread nD τ).loc main_arg4)) := by
  show StableHlo.after hostOps6_1 (W15 m ρ c) (Proc.devRef .tc main_v56) = _
  have e4 := arg4_15 m ρ c
  generalize W15 m ρ c = V at e4 ⊢
  after_results
  rw [e4]
  rfl

/-- The layer's self bias as a row: the third vector of the stack. -/
theorem bias_16 (c : Dev nD) :
    W16 m ρ c (Proc.devRef .tc main_v54) = KVal.biasRow (KVal.vec2 (m ((c : Thread nD τ).loc main_arg5))) := by
  show StableHlo.after hostOps6_1 (W15 m ρ c) (Proc.devRef .tc main_v54) = _
  have e5 := arg5_15 m ρ c
  generalize W15 m ρ c = V at e5 ⊢
  after_results
  rw [e5]
  rfl

/-- Region 6 leaves the fused layer of what it finds. -/
theorem out_17 (c : Dev nD) :
    W17 m ρ c (Proc.devRef .tc main_v57)
      = fused (W16 m ρ c (Proc.devRef .tc main_v42)) (W16 m ρ c (Proc.devRef .tc main_v56))
          (W16 m ρ c (Proc.devRef .tc main_v54)) (W16 m ρ c (Proc.devRef .tc main_v51)) :=
  (W17_arr m ρ c 4).trans (KRegion.arrAt6 (V16 m ρ) c)

end Stage3

/-- After region 6 the result array is layer 2 of the state after region 4 and the launch arguments. -/
theorem stage3 (c : Dev nD) :
    (W17 m ρ c (Proc.devRef .tc main_v57)) = KVal.layer (W12 m ρ c (Proc.devRef .tc main_v42)) (m ((c : Thread nD τ).loc main_arg1)) (KVal.mat2 (m ((c : Thread nD τ).loc main_arg6))) (KVal.mat2 (m ((c : Thread nD τ).loc main_arg4))) (KVal.vec2 (m ((c : Thread nD τ).loc main_arg5))) := by
  rw [Stage3.out_17, Stage3.state_16, Stage3.ws_16, Stage3.bias_16, Stage3.agg_16, Stage3.take_15, Stage3.proj_14, Stage3.src_14]
  rfl

end Cert.KernelIdeal.KChain

end
-- ==== Proof.KChain.lean ====
import proofs.«419418_j44702019617436_1_alg».proof.Proof.Gen.KernelIdeal.Frame
import proofs.«419418_j44702019617436_1_alg».proof.Proof.KDefs
import proofs.«419418_j44702019617436_1_alg».proof.Proof.KChain0
import proofs.«419418_j44702019617436_1_alg».proof.Proof.KChain1
import proofs.«419418_j44702019617436_1_alg».proof.Proof.KChain2
import proofs.«419418_j44702019617436_1_alg».proof.Proof.KChain3
set_option maxRecDepth 16384

noncomputable section

namespace Cert.KernelIdeal.KChain

open Idealize.ShloMosaic Idealize.ShloMosaic.TcCoe Idealize.SL.Sem Cert.KernelIdeal Cert.KernelIdeal.Gen Cert.Spec
open Idealize.ShloMosaic.Pipeline (Dat Cfg Window)

variable (m : (ℓ : Loc nD τ sig) → Buf (Elt Ideal) ℓ) (ρ : Dev nD → PrngReg)

/-- The result array at the last boundary of the run is the network of the launch arguments: the four stages composed. -/
theorem out_eq (c : Dev nD) :
    (W17 m ρ c (Proc.devRef .tc main_v57)) = KVal.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [stage3 m ρ c, stage2 m ρ c, stage1 m ρ c, stage0 m ρ c]
  rfl

end Cert.KernelIdeal.KChain

end
-- ==== Proof.RDefs.lean ====
/-
  What the reference program computes, as functions of whole arrays over the extended reals.

  The input projection is a product plus the bias broadcast over the rows. Each layer gathers for every edge the state
  row of its source node (an index below zero counted from the end; the gather clamps what is still out of range),
  multiplies the edge rows by the neighbour weights, adds them at the edges' destinations, divides by the degree, and
  applies the exponential linear unit — p where p > 0, else 1 · expm1 of p with the positive entries zeroed — to the
  node's own projection plus bias plus that mean.
-/
import proofs.«419418_j44702019617436_1_alg».proof.ReferenceIdeal
import proofs.«419418_j44702019617436_1_alg».proof.Proof.Gen.ReferenceIdeal
import proofs.«419418_j44702019617436_1_alg».proof.Proof.Spec

noncomputable section

namespace Cert.ReferenceIdeal.RVal

open Idealize.ShloMosaic Cert.ReferenceIdeal Cert.ReferenceIdeal.Facts₀ Cert.ReferenceIdeal.Facts Cert.Spec

/-- Each edge's source node: row 0 of the edge table. -/
def src (ei : IVec S2x800000 32) : IVec S800000 32 :=
  shapeCast S800000 (extractStridedSlice S1x800000 ![0, 0] ei slices_S2x800000_S1x800000_0_0) shapeCasts_S1x800000_S800000

/-- Each edge's destination node: row 1 of the edge table. -/
def dst (ei : IVec S2x800000 32) : IVec S800000 32 :=
  shapeCast S800000 (extractStridedSlice S1x800000 ![1, 0] ei slices_S2x800000_S1x800000_1_0) shapeCasts_S1x800000_S800000

/-- The destinations as a column of start indices. -/
def dstCol (ei : IVec S2x800000 32) : IVec S800000x1 32 :=
  broadcastInDim S800000x1 ![0] bcast_S800000_S800000x1_0 (dst ei)

/-- Each node's degree, at least 1. -/
def cnt (ei : IVec S2x800000 32) : FVec Ideal S50000x1 .f32 :=
  maximumf
    (Host.scatterAdd scatter_S50000x1_S800000x1_S800000x1_1_0_0_1
      (broadcastInDim S50000x1 ![] bcast_S_S50000x1 (constant (F := Ideal) S_ .f32 0x00000000#32)) (dstCol ei)
      (broadcastInDim S800000x1 ![] bcast_S_S800000x1 (constant (F := Ideal) S_ .f32 0x3F800000#32)))
    (broadcastInDim S50000x1 ![] bcast_S_S50000x1 (constant (F := Ideal) S_ .f32 0x3F800000#32))

/-- Layer 0's, 1's and 2's matrix of a stack of three. -/
def mat0 (w : FVec Ideal S3x128x128 .f32) : Mat 128 128 :=
  shapeCast S128x128 (extractStridedSlice S1x128x128 ![0, 0, 0] w slices_S3x128x128_S1x128x128_0_0_0) shapeCasts_S1x128x128_S128x128
def mat1 (w : FVec Ideal S3x128x128 .f32) : Mat 128 128 :=
  shapeCast S128x128 (extractStridedSlice S1x128x128 ![1, 0, 0] w slices_S3x128x128_S1x128x128_1_0_0) shapeCasts_S1x128x128_S128x128
def mat2 (w : FVec Ideal S3x128x128 .f32) : Mat 128 128 :=
  shapeCast S128x128 (extractStridedSlice S1x128x128 ![2, 0, 0] w slices_S3x128x128_S1x128x128_2_0_0) shapeCasts_S1x128x128_S128x128

/-- Layer 0's, 1's and 2's bias vector of a stack of three. -/
def vec0 (b : FVec Ideal S3x128 .f32) : FVec Ideal S128 .f32 :=
  shapeCast S128 (extractStridedSlice S1x128 ![0, 0] b slices_S3x128_S1x128_0_0) shapeCasts_S1x128_S128
def vec1 (b : FVec Ideal S3x128 .f32) : FVec Ideal S128 .f32 :=
  shapeCast S128 (extractStridedSlice S1x128 ![1, 0] b slices_S3x128_S1x128_1_0) shapeCasts_S1x128_S128
def vec2 (b : FVec Ideal S3x128 .f32) : FVec Ideal S128 .f32 :=
  shapeCast S128 (extractStridedSlice S1x128 ![2, 0] b slices_S3x128_S1x128_2_0) shapeCasts_S1x128_S128

/-- A bias vector broadcast over the 50000 rows. -/
def biasRows (b : FVec Ideal S128 .f32) : Mat 50000 128 :=
  broadcastInDim S50000x128 ![0, 1] bcast_S1x128_S50000x128_0_1 (broadcastInDim S1x128 ![1] bcast_S128_S1x128_1 b)

/-- A source index below zero is counted from the end: 50000 is added to it. -/
def wrapIdx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The wrapped source indices as a column of start indices. -/
def idxCol (s : IVec S800000 32) : IVec S800000x1 32 :=
  broadcastInDim S800000x1 ![0] bcast_S800000_S800000x1_0 (wrapIdx s)

/-- The mean message per node: the edge rows added at the edges' destinations, over the degree. -/
def agg (msg : Mat 800000 128) (ei : IVec S2x800000 32) : Mat 50000 128 :=
  Host.divf
    (Host.scatterAdd scatter_S50000x128_S800000x1_S800000x128_1_0_0_1
      (broadcastInDim S50000x128 ![] bcast_S_S50000x128 (constant (F := Ideal) S_ .f32 0x00000000#32)) (dstCol ei) msg)
    (broadcastInDim S50000x128 ![0, 1] bcast_S50000x1_S50000x128_0_1 (cnt ei))

/-- The exponential linear unit as jax spells it: p where p > 0, else 1 · expm1 of p with the positive entries zeroed. -/
def elu (p : Mat 50000 128) : Mat 50000 128 :=
  select (cmpf .ogt p (broadcastInDim S50000x128 ![] bcast_S_S50000x128 (constant (F := Ideal) S_ .f32 0x00000000#32))) p
    (mulf (broadcastInDim S50000x128 ![] bcast_S_S50000x128 (constant (F := Ideal) S_ .f32 0x3F800000#32))
      (Host.expm1
        (select (cmpf .ogt p (broadcastInDim S50000x128 ![] bcast_S_S50000x128 (constant (F := Ideal) S_ .f32 0x00000000#32)))
          (broadcastInDim S50000x128 ![] bcast_S_S50000x128 (id (constant (F := Ideal) S_ .f32 0x00000000#32))) p)))

/-- One message-passing layer. -/
def layer (h : Mat 50000 128) (ei : IVec S2x800000 32) (wn ws : Mat 128 128) (b : FVec Ideal S128 .f32) : Mat 50000 128 :=
  elu (addf
    (addf (Host.dotGeneral dot_S50000x128_S128x128_S50000x128_1_0_0_1_n_n none h ws) (biasRows b))
    (agg (Host.dotGeneral dot_S800000x128_S128x128_S800000x128_1_0_0_1_n_n none
      (Host.gather gather_S50000x128_S800000x1_S800000x128_1_0_n_n_0_1_1128 h (idxCol (src ei))) wn) ei))

/-- The input projection. -/
def h0 (x : Mat 50000 64) (win : Mat 64 128) (bin : FVec Ideal S128 .f32) : Mat 50000 128 :=
  addf (Host.dotGeneral dot_S50000x64_S64x128_S50000x128_1_0_0_1_n_n none x win) (biasRows bin)

/-- The network: the input projection, then three layers. -/
def out (x : Mat 50000 64) (ei : IVec S2x800000 32) (win : Mat 64 128) (bin : FVec Ideal S128 .f32)
    (wself : FVec Ideal S3x128x128 .f32) (bself : FVec Ideal S3x128 .f32) (wnbr : FVec Ideal S3x128x128 .f32) : Mat 50000 128 :=
  layer (layer (layer (h0 x win bin) ei (mat0 wnbr) (mat0 wself) (vec0 bself)) ei (mat1 wnbr) (mat1 wself) (vec1 bself))
    ei (mat2 wnbr) (mat2 wself) (vec2 bself)

end Cert.ReferenceIdeal.RVal

end
-- ==== Proof.RRun.lean ====
/-
  The reference program's run: a straight line of host operations. Every weakly fair execution terminates, nothing
  faulting; the result array ends at the reference's function of the launch arguments and the arguments as launched.

  The line is listed in five stretches — the prologue, layer 0, layer 1 in two parts (the printed text is cut there),
  layer 2 —, each call of the exponential linear unit written out over the call's own buffers at its call site. The run
  leaves every buffer at the fold of the operations' results over the launch contents; the fold is then read stretch by
  stretch: the prologue leaves the input projection, the edge table's two rows and the degrees; each layer reads those,
  leaves them as they are, and writes the next state rows.
-/
import proofs.«419418_j44702019617436_1_alg».proof.ReferenceIdeal
import proofs.«419418_j44702019617436_1_alg».proof.Proof.Gen.ReferenceIdeal
import proofs.«419418_j44702019617436_1_alg».proof.Proof.RDefs
import Idealize.ShloMosaic.Lib.StableHlo.Run

noncomputable section

namespace Cert.ReferenceIdeal.RRun

open Idealize.ShloMosaic Idealize.ShloMosaic.TcCoe Idealize.SL.Sem Cert.ReferenceIdeal Cert.Spec
open Idealize.ShloMosaic.StableHlo Cert.ReferenceIdeal.Facts₀ Cert.ReferenceIdeal.Facts

variable {F : FTy → Type} [FloatOps F]

/-! ## The operations, in order -/

/-- The prologue: the input projection (its rows in main_v3), the edge table's two rows (main_v5 the sources, main_v7 the destinations) and the degrees (main_v13). -/
def opsP : List (HloOp τ sig (Elt F)) :=
  [ binary main_arg0 main_arg2 main_v0 (fun l r => Host.dotGeneral dot_S50000x64_S64x128_S50000x128_1_0_0_1_n_n none l r),
    unary main_arg3 main_v1 (broadcastInDim S1x128 ![1] bcast_S128_S1x128_1),
    unary main_v1 main_v2 (broadcastInDim S50000x128 ![0, 1] bcast_S1x128_S50000x128_0_1),
    binary main_v0 main_v2 main_v3 addf,
    unary main_arg1 main_v4 (extractStridedSlice S1x800000 ![0, 0] · slices_S2x800000_S1x800000_0_0),
    reshape main_v4 main_v5 rfl shapeCasts_S1x800000_S800000,
    unary main_arg1 main_v6 (extractStridedSlice S1x800000 ![1, 0] · slices_S2x800000_S1x800000_1_0),
    reshape main_v6 main_v7 rfl shapeCasts_S1x800000_S800000,
    nullary main_cst (constant S_ .f32 0x3F800000#32),
    unary main_cst main_v8 (broadcastInDim S800000x1 ![] bcast_S_S800000x1),
    nullary main_cst_0 (constant S_ .f32 0x00000000#32),
    unary main_cst_0 main_v9 (broadcastInDim S50000x1 ![] bcast_S_S50000x1),
    unary main_v7 main_v10 (broadcastInDim S800000x1 ![0] bcast_S800000_S800000x1_0),
    ternary main_v9 main_v10 main_v8 main_v11 (fun x i u => Host.scatterAdd scatter_S50000x1_S800000x1_S800000x1_1_0_0_1 x i u),
    nullary main_cst_1 (constant S_ .f32 0x3F800000#32),
    unary main_cst_1 main_v12 (broadcastInDim S50000x1 ![] bcast_S_S50000x1),
    binary main_v11 main_v12 main_v13 maximumf ]

/-- Layer 0: the wrapped source column, the gathered rows times the neighbour matrix, their mean per destination, the node's own projection plus bias, the sum, and the exponential linear unit's operations over the call's buffers (result in main_v38). -/
def opsL0 : List (HloOp τ sig (Elt F)) :=
  [ nullary main_c (constantI S_ 32 0#32),
    unary main_c main_v14 (broadcastInDim S800000 ![] bcast_S_S800000),
    binary main_v5 main_v14 main_v15 (cmpi .slt),
    nullary main_c_2 (constantI S_ 32 50000#32),
    unary main_c_2 main_v16 (broadcastInDim S800000 ![] bcast_S_S800000),
    binary main_v5 main_v16 main_v17 addi,
    ternary main_v15 main_v17 main_v5 main_v18 select,
    unary main_v18 main_v19 (broadcastInDim S800000x1 ![0] bcast_S800000_S800000x1_0),
    binary main_v3 main_v19 main_v20 (fun x i => Host.gather gather_S50000x128_S800000x1_S800000x128_1_0_n_n_0_1_1128 x i),
    unary main_arg6 main_v21 (extractStridedSlice S1x128x128 ![0, 0, 0] · slices_S3x128x128_S1x128x128_0_0_0),
    reshape main_v21 main_v22 rfl shapeCasts_S1x128x128_S128x128,
    binary main_v20 main_v22 main_v23 (fun l r => Host.dotGeneral dot_S800000x128_S128x128_S800000x128_1_0_0_1_n_n none l r),
    nullary main_cst_3 (constant S_ .f32 0x00000000#32),
    unary main_cst_3 main_v24 (broadcastInDim S50000x128 ![] bcast_S_S50000x128),
    unary main_v7 main_v25 (broadcastInDim S800000x1 ![0] bcast_S800000_S800000x1_0),
    ternary main_v24 main_v25 main_v23 main_v26 (fun x i u => Host.scatterAdd scatter_S50000x128_S800000x1_S800000x128_1_0_0_1 x i u),
    unary main_v13 main_v27 (broadcastInDim S50000x128 ![0, 1] bcast_S50000x1_S50000x128_0_1),
    binary main_v26 main_v27 main_v28 Host.divf,
    unary main_arg4 main_v29 (extractStridedSlice S1x128x128 ![0, 0, 0] · slices_S3x128x128_S1x128x128_0_0_0),
    reshape main_v29 main_v30 rfl shapeCasts_S1x128x128_S128x128,
    binary main_v3 main_v30 main_v31 (fun l r => Host.dotGeneral dot_S50000x128_S128x128_S50000x128_1_0_0_1_n_n none l r),
    unary main_arg5 main_v32 (extractStridedSlice S1x128 ![0, 0] · slices_S3x128_S1x128_0_0),
    reshape main_v32 main_v33 rfl shapeCasts_S1x128_S128,
    unary main_v33 main_v34 (broadcastInDim S1x128 ![1] bcast_S128_S1x128_1),
    unary main_v34 main_v35 (broadcastInDim S50000x128 ![0, 1] bcast_S1x128_S50000x128_0_1),
    binary main_v31 main_v35 main_v36 addf,
    binary main_v36 main_v28 main_v37 addf,
    TRef.nullary main_call0.cst (constant S_ .f32 0x00000000#32),
    TRef.unary main_call0.cst main_call0.v0 (broadcastInDim S50000x128 ![] bcast_S_S50000x128),
    TRef.binary (.of main_v37) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (.of main_v37) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (.of main_v37) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (.of main_v37) main_call0.v7 main_call0.call1.v0 select ]

/-- Layer 1, first part (up to the destination column). -/
def opsL1a : List (HloOp τ sig (Elt F)) :=
  [ nullary main_c_4 (constantI S_ 32 0#32),
    unary main_c_4 main_v39 (broadcastInDim S800000 ![] bcast_S_S800000),
    binary main_v5 main_v39 main_v40 (cmpi .slt),
    nullary main_c_5 (constantI S_ 32 50000#32),
    unary main_c_5 main_v41 (broadcastInDim S800000 ![] bcast_S_S800000),
    binary main_v5 main_v41 main_v42 addi,
    ternary main_v40 main_v42 main_v5 main_v43 select,
    unary main_v43 main_v44 (broadcastInDim S800000x1 ![0] bcast_S800000_S800000x1_0),
    binary main_v38 main_v44 main_v45 (fun x i => Host.gather gather_S50000x128_S800000x1_S800000x128_1_0_n_n_0_1_1128 x i),
    unary main_arg6 main_v46 (extractStridedSlice S1x128x128 ![1, 0, 0] · slices_S3x128x128_S1x128x128_1_0_0),
    reshape main_v46 main_v47 rfl shapeCasts_S1x128x128_S128x128,
    binary main_v45 main_v47 main_v48 (fun l r => Host.dotGeneral dot_S800000x128_S128x128_S800000x128_1_0_0_1_n_n none l r),
    nullary main_cst_6 (constant S_ .f32 0x00000000#32),
    unary main_cst_6 main_v49 (broadcastInDim S50000x128 ![] bcast_S_S50000x128),
    unary main_v7 main_v50 (broadcastInDim S800000x1 ![0] bcast_S800000_S800000x1_0) ]

/-- Layer 1, second part (result in main_v63). -/
def opsL1b : List (HloOp τ sig (Elt F)) :=
  [ ternary main_v49 main_v50 main_v48 main_v51 (fun x i u => Host.scatterAdd scatter_S50000x128_S800000x1_S800000x128_1_0_0_1 x i u),
    unary main_v13 main_v52 (broadcastInDim S50000x128 ![0, 1] bcast_S50000x1_S50000x128_0_1),
    binary main_v51 main_v52 main_v53 Host.divf,
    unary main_arg4 main_v54 (extractStridedSlice S1x128x128 ![1, 0, 0] · slices_S3x128x128_S1x128x128_1_0_0),
    reshape main_v54 main_v55 rfl shapeCasts_S1x128x128_S128x128,
    binary main_v38 main_v55 main_v56 (fun l r => Host.dotGeneral dot_S50000x128_S128x128_S50000x128_1_0_0_1_n_n none l r),
    unary main_arg5 main_v57 (extractStridedSlice S1x128 ![1, 0] · slices_S3x128_S1x128_1_0),
    reshape main_v57 main_v58 rfl shapeCasts_S1x128_S128,
    unary main_v58 main_v59 (broadcastInDim S1x128 ![1] bcast_S128_S1x128_1),
    unary main_v59 main_v60 (broadcastInDim S50000x128 ![0, 1] bcast_S1x128_S50000x128_0_1),
    binary main_v56 main_v60 main_v61 addf,
    binary main_v61 main_v53 main_v62 addf,
    TRef.nullary main_call1.cst (constant S_ .f32 0x00000000#32),
    TRef.unary main_call1.cst main_call1.v0 (broadcastInDim S50000x128 ![] bcast_S_S50000x128),
    TRef.binary (.of main_v62) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v62) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v62) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v62) main_call1.v7 main_call1.call1.v0 select ]

/-- Layer 2 (result in main_v88). -/
def opsL2 : List (HloOp τ sig (Elt F)) :=
  [ nullary main_c_7 (constantI S_ 32 0#32),
    unary main_c_7 main_v64 (broadcastInDim S800000 ![] bcast_S_S800000),
    binary main_v5 main_v64 main_v65 (cmpi .slt),
    nullary main_c_8 (constantI S_ 32 50000#32),
    unary main_c_8 main_v66 (broadcastInDim S800000 ![] bcast_S_S800000),
    binary main_v5 main_v66 main_v67 addi,
    ternary main_v65 main_v67 main_v5 main_v68 select,
    unary main_v68 main_v69 (broadcastInDim S800000x1 ![0] bcast_S800000_S800000x1_0),
    binary main_v63 main_v69 main_v70 (fun x i => Host.gather gather_S50000x128_S800000x1_S800000x128_1_0_n_n_0_1_1128 x i),
    unary main_arg6 main_v71 (extractStridedSlice S1x128x128 ![2, 0, 0] · slices_S3x128x128_S1x128x128_2_0_0),
    reshape main_v71 main_v72 rfl shapeCasts_S1x128x128_S128x128,
    binary main_v70 main_v72 main_v73 (fun l r => Host.dotGeneral dot_S800000x128_S128x128_S800000x128_1_0_0_1_n_n none l r),
    nullary main_cst_9 (constant S_ .f32 0x00000000#32),
    unary main_cst_9 main_v74 (broadcastInDim S50000x128 ![] bcast_S_S50000x128),
    unary main_v7 main_v75 (broadcastInDim S800000x1 ![0] bcast_S800000_S800000x1_0),
    ternary main_v74 main_v75 main_v73 main_v76 (fun x i u => Host.scatterAdd scatter_S50000x128_S800000x1_S800000x128_1_0_0_1 x i u),
    unary main_v13 main_v77 (broadcastInDim S50000x128 ![0, 1] bcast_S50000x1_S50000x128_0_1),
    binary main_v76 main_v77 main_v78 Host.divf,
    unary main_arg4 main_v79 (extractStridedSlice S1x128x128 ![2, 0, 0] · slices_S3x128x128_S1x128x128_2_0_0),
    reshape main_v79 main_v80 rfl shapeCasts_S1x128x128_S128x128,
    binary main_v63 main_v80 main_v81 (fun l r => Host.dotGeneral dot_S50000x128_S128x128_S50000x128_1_0_0_1_n_n none l r),
    unary main_arg5 main_v82 (extractStridedSlice S1x128 ![2, 0] · slices_S3x128_S1x128_2_0),
    reshape main_v82 main_v83 rfl shapeCasts_S1x128_S128,
    unary main_v83 main_v84 (broadcastInDim S1x128 ![1] bcast_S128_S1x128_1),
    unary main_v84 main_v85 (broadcastInDim S50000x128 ![0, 1] bcast_S1x128_S50000x128_0_1),
    binary main_v81 main_v85 main_v86 addf,
    binary main_v86 main_v78 main_v87 addf,
    TRef.nullary main_call2.cst (constant S_ .f32 0x00000000#32),
    TRef.unary main_call2.cst main_call2.v0 (broadcastInDim S50000x128 ![] bcast_S_S50000x128),
    TRef.binary (.of main_v87) main_call2.v0 main_call2.v1 (cmpf .ogt),
    TRef.nullary main_call2.cst_0 (constant S_ .f32 0x00000000#32),
    TRef.unary main_call2.cst_0 main_call2.v2 (broadcastInDim S50000x128 ![] bcast_S_S50000x128),
    TRef.binary (.of main_v87) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x128 ![] bcast_S_S50000x128),
    TRef.ternary main_call2.v3 main_call2.call0.v1 (.of main_v87) main_call2.call0.v2 select,
    TRef.unary main_call2.call0.v2 main_call2.v5 Host.expm1,
    TRef.nullary main_call2.cst_2 (constant S_ .f32 0x3F800000#32),
    TRef.unary main_call2.cst_2 main_call2.v6 (broadcastInDim S50000x128 ![] bcast_S_S50000x128),
    TRef.binary main_call2.v6 main_call2.v5 main_call2.v7 mulf,
    TRef.ternary main_call2.v1 (.of main_v87) main_call2.v7 main_call2.call1.v0 select ]

/-- @main's operations: the five stretches in a row. -/
def ops : List (HloOp τ sig (Elt F)) := opsP ++ (opsL0 ++ (opsL1a ++ (opsL1b ++ opsL2)))

/-! ## @main is that line -/

-- the binds of a stretch of seventy-odd statements are unfolded one inside the other
set_option maxRecDepth 100000 in
set_option maxHeartbeats 4000000 in
/-- The first printed part is the prologue, layer 0 and the first part of layer 1: both sides are the same chain of
    steps once the calls' bodies and the records' fields are unfolded. -/
theorem main_part0_eq (d : Dev nD) : main_part0 (F := F) d = seq (opsP ++ (opsL0 ++ opsL1a)) := rfl

set_option maxRecDepth 100000 in
set_option maxHeartbeats 4000000 in
/-- The second printed part is the rest of layer 1 and layer 2. -/
theorem main_part1_eq (d : Dev nD) : main_part1 (F := F) d = seq (opsL1b ++ opsL2) := rfl

/-- @main runs its two parts in order; two lines run in order are their concatenation run as one. -/
theorem main_eq (d : Dev nD) : main (F := F) d = seq ops := by
  have h : (ops (F := F)) = (opsP ++ (opsL0 ++ opsL1a)) ++ (opsL1b ++ opsL2) := by
    simp only [ops, List.append_assoc]
  rw [h, seq_append, ← main_part0_eq d, ← main_part1_eq d]
  rfl

/-! ## Every operation stays among the TensorCore's buffers and determines its result -/

theorem scopedRefs_eq : (Finset.univ.filter fun b : Ref sig .tc => b.isScoped) = ∅ := by decide
theorem scopedSems_eq : (Finset.univ.filter fun sm : SemLoc sig => sm.isScoped .tc) = ∅ := by decide

theorem opsP_sub : (opsP (F := F)).Forall fun op => op.bufs ⊆ tcRefs τ sig :=
  ⟨binary_bufs_sub .., unary_bufs_sub .., unary_bufs_sub .., binary_bufs_sub .., unary_bufs_sub .., reshape_bufs_sub ..,
    unary_bufs_sub .., reshape_bufs_sub .., nullary_bufs_sub .., unary_bufs_sub .., nullary_bufs_sub .., unary_bufs_sub ..,
    unary_bufs_sub .., ternary_bufs_sub .., nullary_bufs_sub .., unary_bufs_sub .., binary_bufs_sub ..⟩

theorem opsL0_sub : (opsL0 (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub ..,
    nullary_bufs_sub .., unary_bufs_sub .., unary_bufs_sub .., ternary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsL1a_sub : (opsL1a (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub ..,
    nullary_bufs_sub .., unary_bufs_sub .., unary_bufs_sub ..⟩

theorem opsL1b_sub : (opsL1b (F := F)).Forall fun op => op.bufs ⊆ tcRefs τ sig :=
  ⟨ternary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem opsL2_sub : (opsL2 (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub ..,
    nullary_bufs_sub .., unary_bufs_sub .., unary_bufs_sub .., ternary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

/-- A property of every entry of two lists holds of every entry of their concatenation. -/
theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops (F := F)).Forall fun op => op.bufs ⊆ tcRefs τ sig :=
  forall_append opsP_sub (forall_append opsL0_sub (forall_append opsL1a_sub (forall_append opsL1b_sub opsL2_sub)))

theorem opsP_fresh : ∀ op ∈ (opsP (F := F)), op.fresh = ∅ := by
  intro _ h; unfold opsP at h; (repeat (cases h with | head => rfl | tail _ h => ?_)); exact nomatch h

theorem opsL0_fresh : ∀ op ∈ (opsL0 (F := F)), op.fresh = ∅ := by
  intro _ h; unfold opsL0 at h; (repeat (cases h with | head => rfl | tail _ h => ?_)); exact nomatch h

theorem opsL1a_fresh : ∀ op ∈ (opsL1a (F := F)), op.fresh = ∅ := by
  intro _ h; unfold opsL1a at h; (repeat (cases h with | head => rfl | tail _ h => ?_)); exact nomatch h

theorem opsL1b_fresh : ∀ op ∈ (opsL1b (F := F)), op.fresh = ∅ := by
  intro _ h; unfold opsL1b at h; (repeat (cases h with | head => rfl | tail _ h => ?_)); exact nomatch h

theorem opsL2_fresh : ∀ op ∈ (opsL2 (F := F)), op.fresh = ∅ := by
  intro _ h; unfold opsL2 at h; (repeat (cases h with | head => rfl | tail _ h => ?_)); exact nomatch h

theorem ops_fresh : ∀ op ∈ (ops (F := F)), op.fresh = ∅ := by
  intro op h
  simp only [ops, List.mem_append] at h
  rcases h with h | h | h | h | h
  exacts [opsP_fresh op h, opsL0_fresh op h, opsL1a_fresh op h, opsL1b_fresh op h, opsL2_fresh op h]

/-- From any memory with zero counters every weakly fair execution of @main terminates, and every final state has each
    TensorCore buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, read stretch by stretch -/

/-- The fold over two lines in a row is the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What every stretch after the prologue finds and leaves, `V` being the launch contents and `W` the contents by
    then: the edges' sources, their destinations, the degrees, and the seven arguments as launched. -/
def Kept (V W : Valuation τ sig (Elt Ideal)) : Prop :=
  W (main_v5 : DevRef τ sig) = RVal.src (V (main_arg1 : DevRef τ sig))
  ∧ W (main_v7 : DevRef τ sig) = RVal.dst (V (main_arg1 : DevRef τ sig))
  ∧ W (main_v13 : DevRef τ sig) = RVal.cnt (V (main_arg1 : DevRef τ sig))
  ∧ W (main_arg0 : DevRef τ sig) = V (main_arg0 : DevRef τ sig)
  ∧ W (main_arg1 : DevRef τ sig) = V (main_arg1 : DevRef τ sig)
  ∧ W (main_arg2 : DevRef τ sig) = V (main_arg2 : DevRef τ sig)
  ∧ W (main_arg3 : DevRef τ sig) = V (main_arg3 : DevRef τ sig)
  ∧ W (main_arg4 : DevRef τ sig) = V (main_arg4 : DevRef τ sig)
  ∧ W (main_arg5 : DevRef τ sig) = V (main_arg5 : DevRef τ sig)
  ∧ W (main_arg6 : DevRef τ sig) = V (main_arg6 : DevRef τ sig)

/-- The prologue writes the two rows of the edge table and the degrees, and no argument. -/
theorem opsP_kept (V : Valuation τ sig (Elt Ideal)) : Kept V (after opsP V) := by
  refine ⟨?_, ?_, ?_, ?_, ?_, ?_, ?_, ?_, ?_, ?_⟩ <;> (unfold opsP; after_results_simp) <;> rfl

/-- The prologue leaves the input projection in main_v3. -/
theorem opsP_h (V : Valuation τ sig (Elt Ideal)) :
    after opsP V (main_v3 : DevRef τ sig) = RVal.h0 (V (main_arg0 : DevRef τ sig)) (V (main_arg2 : DevRef τ sig)) (V (main_arg3 : DevRef τ sig)) := by
  unfold opsP; after_results_simp; rfl

/-- Layer 0 writes none of the buffers the later stretches read from before it. -/
theorem opsL0_kept {V W : Valuation τ sig (Elt Ideal)} (k : Kept V W) : Kept V (after opsL0 W) := by
  obtain ⟨h5, h7, h13, a0, a1, a2, a3, a4, a5, a6⟩ := k
  refine ⟨Eq.trans ?_ h5, Eq.trans ?_ h7, Eq.trans ?_ h13, Eq.trans ?_ a0, Eq.trans ?_ a1, Eq.trans ?_ a2, Eq.trans ?_ a3,
    Eq.trans ?_ a4, Eq.trans ?_ a5, Eq.trans ?_ a6⟩ <;> (unfold opsL0; after_results_simp)

attribute [local irreducible] Host.gather Host.scatterAdd Host.expm1 Host.divf in
/-- Layer 0 leaves in main_v38 the layer's function of the rows in main_v3, the edge table and the layer's slices of the
    three stacks: the operations composed are that function's definition, the unit's call written out being its
    definition too (the converted zero is the zero). -/
theorem opsL0_out {V W : Valuation τ sig (Elt Ideal)} (k : Kept V W) :
    after opsL0 W (main_v38 : DevRef τ sig)
      = RVal.layer (W (main_v3 : DevRef τ sig)) (V (main_arg1 : DevRef τ sig)) (RVal.mat0 (V (main_arg6 : DevRef τ sig))) (RVal.mat0 (V (main_arg4 : DevRef τ sig)))
          (RVal.vec0 (V (main_arg5 : DevRef τ sig))) := by
  obtain ⟨h5, h7, h13, a0, a1, a2, a3, a4, a5, a6⟩ := k
  unfold opsL0; after_results_simp
  rw [h5, h7, h13, a4, a5, a6]
  rfl

/-- Layer 1 writes none of the buffers the later stretches read from before it. -/
theorem opsL1_kept {V W : Valuation τ sig (Elt Ideal)} (k : Kept V W) : Kept V (after opsL1b (after opsL1a W)) := by
  obtain ⟨h5, h7, h13, a0, a1, a2, a3, a4, a5, a6⟩ := k
  refine ⟨Eq.trans ?_ h5, Eq.trans ?_ h7, Eq.trans ?_ h13, Eq.trans ?_ a0, Eq.trans ?_ a1, Eq.trans ?_ a2, Eq.trans ?_ a3,
    Eq.trans ?_ a4, Eq.trans ?_ a5, Eq.trans ?_ a6⟩ <;> (rw [← after_app]; simp only [opsL1a, opsL1b, List.cons_append, List.nil_append]; after_results_simp)

attribute [local irreducible] Host.gather Host.scatterAdd Host.expm1 Host.divf in
/-- Layer 1 leaves in main_v63 the layer's function of the rows in main_v38, the edge table and the layer's slices of the
    three stacks: the operations composed are that function's definition, the unit's call written out being its
    definition too (the converted zero is the zero). -/
theorem opsL1_out {V W : Valuation τ sig (Elt Ideal)} (k : Kept V W) :
    after opsL1b (after opsL1a W) (main_v63 : DevRef τ sig)
      = RVal.layer (W (main_v38 : DevRef τ sig)) (V (main_arg1 : DevRef τ sig)) (RVal.mat1 (V (main_arg6 : DevRef τ sig))) (RVal.mat1 (V (main_arg4 : DevRef τ sig)))
          (RVal.vec1 (V (main_arg5 : DevRef τ sig))) := by
  obtain ⟨h5, h7, h13, a0, a1, a2, a3, a4, a5, a6⟩ := k
  rw [← after_app]; simp only [opsL1a, opsL1b, List.cons_append, List.nil_append]; after_results_simp
  rw [h5, h7, h13, a4, a5, a6]
  rfl

/-- Layer 2 writes none of the buffers the later stretches read from before it. -/
theorem opsL2_kept {V W : Valuation τ sig (Elt Ideal)} (k : Kept V W) : Kept V (after opsL2 W) := by
  obtain ⟨h5, h7, h13, a0, a1, a2, a3, a4, a5, a6⟩ := k
  refine ⟨Eq.trans ?_ h5, Eq.trans ?_ h7, Eq.trans ?_ h13, Eq.trans ?_ a0, Eq.trans ?_ a1, Eq.trans ?_ a2, Eq.trans ?_ a3,
    Eq.trans ?_ a4, Eq.trans ?_ a5, Eq.trans ?_ a6⟩ <;> (unfold opsL2; after_results_simp)

attribute [local irreducible] Host.gather Host.scatterAdd Host.expm1 Host.divf in
/-- Layer 2 leaves in main_v88 the layer's function of the rows in main_v63, the edge table and the layer's slices of the
    three stacks: the operations composed are that function's definition, the unit's call written out being its
    definition too (the converted zero is the zero). -/
theorem opsL2_out {V W : Valuation τ sig (Elt Ideal)} (k : Kept V W) :
    after opsL2 W (main_v88 : DevRef τ sig)
      = RVal.layer (W (main_v63 : DevRef τ sig)) (V (main_arg1 : DevRef τ sig)) (RVal.mat2 (V (main_arg6 : DevRef τ sig))) (RVal.mat2 (V (main_arg4 : DevRef τ sig)))
          (RVal.vec2 (V (main_arg5 : DevRef τ sig))) := by
  obtain ⟨h5, h7, h13, a0, a1, a2, a3, a4, a5, a6⟩ := k
  unfold opsL2; after_results_simp
  rw [h5, h7, h13, a4, a5, a6]
  rfl

/-- The whole fold is the five stretches' folds one over the other. -/
theorem after_ops (V : Valuation τ sig (Elt Ideal)) :
    after ops V = after opsL2 (after opsL1b (after opsL1a (after opsL0 (after opsP V)))) := by
  simp only [ops, after_app]

/-- After the whole line every kept buffer is still as the prologue left it. -/
theorem ops_kept (V : Valuation τ sig (Elt Ideal)) : Kept V (after ops V) := by
  rw [after_ops]; exact opsL2_kept (opsL1_kept (opsL0_kept (opsP_kept V)))

/-- The result buffer ends at the network's function of the arguments: three layers over the input projection. -/
theorem out_eq (V : Valuation τ sig (Elt Ideal)) :
    after ops V (main_v88 : DevRef τ sig)
      = RVal.out (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) := by
  have kP := opsP_kept V
  have k0 := opsL0_kept kP
  have k1 := opsL1_kept k0
  rw [after_ops, opsL2_out k1, opsL1_out k0, opsL0_out kP, opsP_h]
  rfl

/-- The run of the reference's @main with its result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v88)
        = RVal.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c =>
      have k := ops_kept (launchContents m c)
      ⟨(h c main_v88).trans (out_eq _), (h c main_arg0).trans k.2.2.2.1, (h c main_arg1).trans k.2.2.2.2.1,
        (h c main_arg2).trans k.2.2.2.2.2.1, (h c main_arg3).trans k.2.2.2.2.2.2.1, (h c main_arg4).trans k.2.2.2.2.2.2.2.1,
        (h c main_arg5).trans k.2.2.2.2.2.2.2.2.1, (h c main_arg6).trans k.2.2.2.2.2.2.2.2.2⟩)
    (run_main (F := Ideal) m ρ)

end Cert.ReferenceIdeal.RRun

end
-- ==== Proof.PreMask.lean ====
/-
  The precondition read: every float input finite and every source index s of the edge table in −50000 ≤ s < 50000.
  Of it only the index range is used: a source index in that range, 50000 added when it is below zero, is a row of the
  50000-row state table, so the per-edge range test of the kernel's row lookup is all ones.
-/
import proofs.«419418_j44702019617436_1_alg».proof.Pre_finite_inputs
import proofs.«419418_j44702019617436_1_alg».proof.Proof.Gen.Pre_finite_inputs
import proofs.«419418_j44702019617436_1_alg».proof.Proof.KDefs
import Idealize.ShloMosaic.Lib.ReduceAll

noncomputable section

namespace Cert.PreMask

open Idealize.ShloMosaic Cert.Spec

/-- A conjunction, taken from true over a list of bits that are all true, is true. -/
theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_ones f hf l

/-- One 32-bit word b read as a signed integer with −50000 ≤ b < 50000. Let w be b + 50000 when b < 0 and b otherwise.
    When b < 0 the sum lies in [0, 50000), far inside the signed range, so the word addition does not wrap and w is that
    sum; when b ≥ 0, w = b lies in [0, 50000). Either way 0 ≤ w ≤ 49999. -/
theorem wrap_word (b : BitVec 32) (h1 : IntOp.cmpi .sge b 4294917296#32 = 1#1) (h2 : IntOp.cmpi .slt b 50000#32 = 1#1) :
    IntOp.andi (IntOp.cmpi .sge (Scalar.select (IntOp.cmpi .slt b 0#32) (IntOp.addi b 50000#32) b) 0#32)
      (IntOp.cmpi .sle (Scalar.select (IntOp.cmpi .slt b 0#32) (IntOp.addi b 50000#32) b) 49999#32) = 1#1 := by
  -- the word 4294917296 is −50000 read signed
  rw [IntOp.cmpi_sge, show (4294917296#32 : BitVec 32).toInt = -50000 from by decide] at h1
  rw [IntOp.cmpi_slt, show (50000#32 : BitVec 32).toInt = 50000 from by decide] at h2
  rw [IntOp.andi_eq_one, IntOp.cmpi_sge, IntOp.cmpi_sle, show (0#32 : BitVec 32).toInt = 0 from by decide,
    show (49999#32 : BitVec 32).toInt = 49999 from by decide]
  unfold Scalar.select
  by_cases hneg : IntOp.cmpi .slt b 0#32 = (1 : BitVec 1)
  · rw [if_pos hneg]
    have hneg' : IntOp.cmpi .slt b 0#32 = 1#1 := hneg
    rw [IntOp.cmpi_slt, show (0#32 : BitVec 32).toInt = 0 from by decide] at hneg'
    -- b < 0: the signed value of the word sum is the balanced remainder of b + 50000 modulo 2³², which is b + 50000 itself
    have hadd : (IntOp.addi b 50000#32).toInt = b.toInt + 50000 := by
      show (b + 50000#32).toInt = _
      rw [BitVec.toInt_add, show (50000#32 : BitVec 32).toInt = 50000 from by decide]
      exact Int.bmod_eq_of_le_mul_two (by omega) (by omega)
    rw [hadd]; omega
  · rw [if_neg hneg]
    have hneg' : ¬ IntOp.cmpi .slt b 0#32 = 1#1 := hneg
    rw [IntOp.cmpi_slt, show (0#32 : BitVec 32).toInt = 0 from by decide] at hneg'
    omega

/-- The rank-zero shape has exactly one index. -/
instance subsingleton_scalarIdx : Subsingleton Cert.Pre_finite_inputs.S_.Idx := ⟨fun a b => funext fun d => d.elim0⟩

/-- If every source index s has −50000 ≤ s < 50000, the range test of the wrapped indices is all ones: the test at edge e is
    the conjunction, over the one entry of row e of the index column, of 0 ≤ w and w ≤ 49999 for the wrapped index w of
    some edge, and both hold by the one-word fact above. -/
theorem inRange_of_bounds (s : IVec Cert.KernelIdeal.S800000 32)
    (hs : ∀ e, IntOp.cmpi .sge (s e) 4294917296#32 = 1#1 ∧ IntOp.cmpi .slt (s e) 50000#32 = 1#1) :
    Cert.KernelIdeal.KVal.inRange s = fun _ => 1#1 := by
  funext e
  unfold Cert.KernelIdeal.KVal.inRange
  rw [Host.reduce_eq_foldl]
  refine foldl_andi_ones _ (fun i => ?_) _
  exact wrap_word _ (hs _).1 (hs _).2

/-- Under the precondition every edge's wrapped source index is a row of the table. -/
theorem inRange_of_pre (a0 : FVec Ideal Cert.KernelIdeal.S50000x64 .f32) (a1 : IVec Cert.KernelIdeal.S2x800000 32)
    (a2 : FVec Ideal Cert.KernelIdeal.S64x128 .f32) (a3 : FVec Ideal Cert.KernelIdeal.S128 .f32)
    (a4 : FVec Ideal Cert.KernelIdeal.S3x128x128 .f32) (a5 : FVec Ideal Cert.KernelIdeal.S3x128 .f32)
    (a6 : FVec Ideal Cert.KernelIdeal.S3x128x128 .f32)
    (h : Cert.Pre_finite_inputs.fn (F := Ideal) a0 a1 a2 a3 a4 a5 a6 = fun _ => 1#1) :
    Cert.KernelIdeal.KVal.inRange (Cert.KernelIdeal.KVal.src a1) = fun _ => 1#1 := by
  -- the precondition is a conjunction whose last conjunct is "for all edges, −50000 ≤ s and s < 50000" over row 0 of the edge table
  have h0 := congrFun h ValueIdx.ix0
  dsimp only [Cert.Pre_finite_inputs.fn, Cert.Pre_finite_inputs.fn_part1, Cert.Pre_finite_inputs.fn_part2] at h0
  have h1 := (IntOp.andi_eq_one.1 h0).2
  -- a conjunction over all edges that is true is true at every edge
  have hall := Host.reduce_andi_all _ _ _ _ _ h1
  exact inRange_of_bounds _ (fun e => IntOp.andi_eq_one.1 (hall e))

end Cert.PreMask

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.Bridge.lean ====
/-
  The kernel's network and the reference's are one function of the arguments wherever every edge's wrapped source index
  is a row of the state table.

  The input projection: a product plus a bias row either way. A layer: the kernel projects every node by the neighbour
  weights and then takes the source rows; the reference takes the source rows and then projects them — a row of a
  product is the product of the row. The fused update and jax's exponential linear unit agree entry by entry:
  expm1 p is exp p − 1, and 1 · y = y.
-/
import proofs.«419418_j44702019617436_1_alg».proof.Proof.KDefs
import proofs.«419418_j44702019617436_1_alg».proof.Proof.RDefs
import proofs.«419418_j44702019617436_1_alg».proof.Proof.LibRows
import Idealize.ShloMosaic.Lib.ValueLayout

noncomputable section

namespace Cert.Bridge

open Idealize.ShloMosaic Idealize.ShloMosaic.ValueIdx Cert.Spec
open Cert.KernelIdeal (KVal.out KVal.layer KVal.h0 KVal.inRange KVal.src)
open Cert.ReferenceIdeal (RVal.out RVal.layer RVal.h0)

/-! ## Literals and bias rows read at an index -/

/-- The pattern 0x3F800000 denotes the real 1. -/
theorem ofBits_one_f32 : Ideal.ofBits .f32 0x3F800000#32 = 1 := by
  simp [Ideal.ofBits, Ideal.ieee, -EReal.coe_mul]; norm_num

/-- A bias vector kept as a one-row array reads, at (0, q), the vector at q. -/
theorem biasRow_apply (b : FVec Ideal ⟨1, ![128]⟩ .f32) (q : Fin 128) :
    Cert.KernelIdeal.KVal.biasRow b (ix2 (0 : Fin 1) q) = b (ix1 q) :=
  shapeCast_a_1a_apply b _ 0 q

/-- A bias vector broadcast over the rows reads, at (r, q), the vector at q. -/
theorem biasRows_apply (b : FVec Ideal ⟨1, ![128]⟩ .f32) (r : Fin 50000) (q : Fin 128) :
    Cert.ReferenceIdeal.RVal.biasRows b (ix2 r q) = b (ix1 q) := by
  unfold Cert.ReferenceIdeal.RVal.biasRows
  rw [broadcastInDim_apply _ _ _ (ix2 r q) (ix2 (0 : Fin 1) q) (fun a => by
        match a with
        | ⟨0, _⟩ => rfl
        | ⟨1, _⟩ => rfl),
    broadcastInDim_apply _ _ _ (ix2 (0 : Fin 1) q) (ix1 q) (fun a => by
        match a with
        | ⟨0, _⟩ => rfl)]

/-- The zero bias row reads 0 everywhere. -/
theorem zeroRow_apply (i : (⟨2, ![1, 128]⟩ : Shape).Idx) : Cert.KernelIdeal.KVal.zeroRow i = 0 :=
  Ideal.ofBits_zero_f32

/-! ## A linear layer either way -/

/-- Rows times columns plus the bias row is the host's product plus the bias broadcast over the rows: both read, at
    (r, q), the sum over k of x(r, k) · w(k, q) plus b(q). -/
theorem linear_eq {K : ℕ} (d : DotDims ⟨2, ![50000, K]⟩ ⟨2, ![K, 128]⟩ ⟨2, ![50000, 128]⟩)
    (hlb : d.lhsBatch = []) (hrb : d.rhsBatch = []) (hlc : d.lhsContracting = [1]) (hrc : d.rhsContracting = [0])
    (x : Mat 50000 K) (w : Mat K 128) (b : FVec Ideal ⟨1, ![128]⟩ .f32) :
    linear x w (Cert.KernelIdeal.KVal.biasRow b) = addf (Host.dotGeneral d none x w) (Cert.ReferenceIdeal.RVal.biasRows b) := by
  funext i
  obtain ⟨r, q, rfl⟩ : ∃ (r : Fin 50000) (q : Fin 128), i = ix2 r q := ⟨i 0, i 1, eq_ix2 i⟩
  rw [addf_apply, dotGeneral_apply d hlb hrb hlc hrc, biasRows_apply]
  show dotRows x w (ix2 r q) + Cert.KernelIdeal.KVal.biasRow b (ix2 (0 : Fin 1) q) = _
  rw [biasRow_apply]

/-- The input projection. -/
theorem h0_eq (x : Mat 50000 64) (win : Mat 64 128) (bin : FVec Ideal ⟨1, ![128]⟩ .f32) :
    Cert.KernelIdeal.KVal.h0 x win bin = Cert.ReferenceIdeal.RVal.h0 x win bin :=
  linear_eq _ rfl rfl rfl rfl x win bin

/-! ## The messages: a row of a product is the product of the row -/

/-- Where every wrapped source index is a row of the table, taking the source rows of the projected table is projecting
    the source rows: at (e, q) both are the sum over k of h(row of e, k) · wn(k, q). -/
theorem take_eq (h : Mat 50000 128) (wn : Mat 128 128) (s : IVec ⟨1, ![800000]⟩ 32)
    (hr : Cert.KernelIdeal.KVal.inRange s = fun _ => 1#1) :
    Cert.KernelIdeal.KVal.take (linear h wn Cert.KernelIdeal.KVal.zeroRow) s
      = Host.dotGeneral Cert.ReferenceIdeal.dot_S800000x128_S128x128_S800000x128_1_0_0_1_n_n none
          (Host.gather Cert.ReferenceIdeal.gather_S50000x128_S800000x1_S800000x128_1_0_n_n_0_1_1128 h
            (Cert.ReferenceIdeal.RVal.idxCol s)) wn := by
  funext i
  obtain ⟨e, q, rfl⟩ : ∃ (e : Fin 800000) (q : Fin 128), i = ix2 e q := ⟨i 0, i 1, eq_ix2 i⟩
  rw [dotGeneral_apply _ rfl rfl rfl rfl]
  unfold Cert.KernelIdeal.KVal.take
  rw [hr, select_apply]
  show Scalar.select 1#1 _ _ = _
  rw [select_one, Cert.LibRows.gather_rows _ rfl rfl rfl rfl rfl _ _ (by omega) e q]
  show dotRows h wn (ix2 (Cert.LibRows.rowOf (N := 50000) (by omega) (Cert.ReferenceIdeal.RVal.idxCol s) e) q)
        + Cert.KernelIdeal.KVal.zeroRow (ix2 (0 : Fin 1) q)
      = ∑ k : Fin 128, Host.gather Cert.ReferenceIdeal.gather_S50000x128_S800000x1_S800000x128_1_0_n_n_0_1_1128 h
          (Cert.ReferenceIdeal.RVal.idxCol s) (ix2 e k) * wn (ix2 k q)
  rw [zeroRow_apply, add_zero]
  refine Finset.sum_congr rfl fun k _ => ?_
  rw [Cert.LibRows.gather_rows _ rfl rfl rfl rfl rfl _ _ (by omega) e k]

/-! ## The unit -/

/-- The fused layer's unit and jax's spelling of it agree entry by entry: where p > 0 both give p; elsewhere the inner
    select gives p, expm1 p is exp p − 1, and 1 · y = y. -/
theorem elu_eq (p : Mat 50000 128) : elu p = Cert.ReferenceIdeal.RVal.elu p := by
  funext i
  show Scalar.select (FloatOps.cmpf (F := Ideal) (φ := .f32) .ogt (p i) (Ideal.ofBits .f32 0x00000000#32)) (p i)
        (Ideal.exp (p i) - Ideal.ofBits .f32 0x3F800000#32)
      = Scalar.select (FloatOps.cmpf (F := Ideal) (φ := .f32) .ogt (p i) (Ideal.ofBits .f32 0x00000000#32)) (p i)
        (Ideal.ofBits .f32 0x3F800000#32 *
          (Ideal.exp (Scalar.select (FloatOps.cmpf (F := Ideal) (φ := .f32) .ogt (p i) (Ideal.ofBits .f32 0x00000000#32))
            (Ideal.ofBits .f32 0x00000000#32) (p i)) - 1))
  rw [ofBits_one_f32]
  by_cases hc : FloatOps.cmpf (F := Ideal) (φ := .f32) .ogt (p i) (Ideal.ofBits .f32 0x00000000#32) = 1#1
  · rw [hc, select_one, select_one]
  · rw [eq_zero_of_ne_one hc, select_zero, select_zero, select_zero, one_mul]

/-! ## A layer, and the network -/

/-- The mean message per node is one function of the messages and the edge table in either program. -/
theorem agg_eq (msg : Mat 800000 128) (ei : IVec ⟨2, ![2, 800000]⟩ 32) :
    Cert.KernelIdeal.KVal.agg msg ei = Cert.ReferenceIdeal.RVal.agg msg ei := rfl

/-- One message-passing layer. -/
theorem layer_eq (h : Mat 50000 128) (ei : IVec ⟨2, ![2, 800000]⟩ 32) (wn ws : Mat 128 128)
    (b : FVec Ideal ⟨1, ![128]⟩ .f32)
    (hr : Cert.KernelIdeal.KVal.inRange (Cert.KernelIdeal.KVal.src ei) = fun _ => 1#1) :
    Cert.KernelIdeal.KVal.layer h ei wn ws b = Cert.ReferenceIdeal.RVal.layer h ei wn ws b := by
  show elu (addf (linear h ws (Cert.KernelIdeal.KVal.biasRow b))
        (Cert.KernelIdeal.KVal.agg (Cert.KernelIdeal.KVal.take (linear h wn Cert.KernelIdeal.KVal.zeroRow)
          (Cert.KernelIdeal.KVal.src ei)) ei))
      = Cert.ReferenceIdeal.RVal.elu (addf
          (addf (Host.dotGeneral Cert.ReferenceIdeal.dot_S50000x128_S128x128_S50000x128_1_0_0_1_n_n none h ws)
            (Cert.ReferenceIdeal.RVal.biasRows b))
          (Cert.ReferenceIdeal.RVal.agg (Host.dotGeneral Cert.ReferenceIdeal.dot_S800000x128_S128x128_S800000x128_1_0_0_1_n_n none
            (Host.gather Cert.ReferenceIdeal.gather_S50000x128_S800000x1_S800000x128_1_0_n_n_0_1_1128 h
              (Cert.ReferenceIdeal.RVal.idxCol (Cert.KernelIdeal.KVal.src ei))) wn) ei))
  rw [take_eq h wn _ hr,
    linear_eq Cert.ReferenceIdeal.dot_S50000x128_S128x128_S50000x128_1_0_0_1_n_n rfl rfl rfl rfl h ws b, elu_eq, agg_eq]

/-- The whole network. -/
theorem out_eq (x : Mat 50000 64) (ei : IVec Cert.KernelIdeal.S2x800000 32) (win : Mat 64 128)
    (bin : FVec Ideal Cert.KernelIdeal.S128 .f32) (wself : FVec Ideal Cert.KernelIdeal.S3x128x128 .f32)
    (bself : FVec Ideal Cert.KernelIdeal.S3x128 .f32) (wnbr : FVec Ideal Cert.KernelIdeal.S3x128x128 .f32)
    (hr : Cert.KernelIdeal.KVal.inRange (Cert.KernelIdeal.KVal.src ei) = fun _ => 1#1) :
    Cert.KernelIdeal.KVal.out x ei win bin wself bself wnbr = Cert.ReferenceIdeal.RVal.out x ei win bin wself bself wnbr := by
  unfold Cert.KernelIdeal.KVal.out Cert.ReferenceIdeal.RVal.out
  rw [h0_eq, layer_eq _ ei _ _ _ hr, layer_eq _ ei _ _ _ hr, layer_eq _ ei _ _ _ hr]
  rfl

end Cert.Bridge

end
-- ==== Proof.lean ====
/-
  The certificate of the three-layer message-passing network: the kernel's seven tiled regions with the edge gather and
  scatter-mean between them, against the plain reference.

  Both programs terminate with their arguments unchanged. At the extended reals their results are one function of the
  arguments wherever every source index s of the edge table satisfies −50000 ≤ s < 50000 (the precondition's last
  conjunct): a row of a product is the product of the row, so projecting every node and then taking the source rows is
  taking the source rows and then projecting them; the fused update and the exponential linear unit agree entry by
  entry.
-/
import proofs.«419418_j44702019617436_1_alg».proof.Defs
import proofs.«419418_j44702019617436_1_alg».proof.Proof.Gen.Kernel
import proofs.«419418_j44702019617436_1_alg».proof.Proof.Gen.Kernel.Frame
import proofs.«419418_j44702019617436_1_alg».proof.Proof.Gen.KernelIdeal
import proofs.«419418_j44702019617436_1_alg».proof.Proof.Gen.KernelIdeal.Frame
import proofs.«419418_j44702019617436_1_alg».proof.Proof.Gen.ReferenceIdeal
import proofs.«419418_j44702019617436_1_alg».proof.Proof.Gen.Pre_finite_inputs
import proofs.«419418_j44702019617436_1_alg».proof.Proof.KRun
import proofs.«419418_j44702019617436_1_alg».proof.Proof.KChain
import proofs.«419418_j44702019617436_1_alg».proof.Proof.RRun
import proofs.«419418_j44702019617436_1_alg».proof.Proof.PreMask
import proofs.«419418_j44702019617436_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates with its arguments unchanged. -/
theorem frame_k : Cert.frame_Kernel := fun m ρ _ => Cert.Kernel.Gen.frame m ρ

/-- The idealized kernel terminates with its arguments unchanged. -/
theorem frame_ki : Cert.frame_KernelIdeal := fun m ρ _ => Cert.KernelIdeal.Gen.frame m ρ

/-- The reference terminates with its arguments unchanged: its run with the result dropped. -/
theorem frame_ri : Cert.frame_ReferenceIdeal := fun m ρ _ =>
  (θ_run Cert.ReferenceIdeal.defs _ _).mono (fun _ h c => (h c).2) (Cert.ReferenceIdeal.RRun.run m ρ)

/-- From memories agreeing on the arguments both programs end with the network of the arguments in their result array. -/
theorem algebraic : Cert.algebraic_KernelIdeal_ReferenceIdeal := by
  intro m ρ m' ρ' hpre hagree
  refine ⟨fun c => Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KChain.out_eq m ρ c), (h c).2⟩) (Cert.KernelIdeal.KRun.run (F := Ideal) m ρ)
  · refine (θ_run Cert.ReferenceIdeal.defs _ _).mono (fun r h c => ⟨(h c).1.trans ?_, (h c).2⟩)
      (Cert.ReferenceIdeal.RRun.run m' ρ')
    obtain ⟨e0, e1, e2, e3, e4, e5, e6⟩ := hagree c
    rw [e0, e1, e2, e3, e4, e5, e6]
    exact (Cert.Bridge.out_eq _ _ _ _ _ _ _ (Cert.PreMask.inRange_of_pre _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
